-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S512x11008 : Shape := ⟨2, ![512, 11008]⟩
abbrev S32x1376 : Shape := ⟨2, ![32, 1376]⟩
abbrev S32x11008 : Shape := ⟨2, ![32, 11008]⟩
abbrev S16x4096 : Shape := ⟨2, ![16, 4096]⟩
abbrev S11008x16 : Shape := ⟨2, ![11008, 16]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_

variable [Facts]

def fn_part1 {F : FTy → Type} [FloatOps F] (main_v13 : IVec S_ 1) (main_v16 : IVec S11008x16 1) : IVec S_ 1 :=
  let main_c_5 : IVec S_ 1 := constantI S_ 1 1#1
  let main_v17 : IVec S_ 1 := (fun x v => Host.reduce IntOp.andi x v reducesTo_S11008x16_S_d0_1 h_S_) main_v16 main_c_5
  let main_v18 : IVec S_ 1 := andi main_v13 main_v17
  main_v18

def fn {F : FTy → Type} [FloatOps F] (main_arg0 : FVec F S64x4096 .f32) (main_arg1 : IVec S512x11008 32) (main_arg2 : IVec S32x1376 32) (main_arg3 : FVec F S32x11008 .f32) (main_arg4 : FVec F S16x4096 .f32) (main_arg5 : FVec F S11008x16 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S16x4096 .f32 := Host.absf main_arg4
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S11008x16 .f32 := Host.absf main_arg5
  let main_cst_4 : FVec F S_ .f32 := constant S_ .f32 0x7F800000#32
  let main_v15 : FVec F S11008x16 .f32 := broadcastInDim S11008x16 ![] bcast_S_S11008x16 main_cst_4
  let main_v16 : IVec S11008x16 1 := cmpf .olt main_v14 main_v15
  fn_part1 (F := F) main_v13 main_v16
-- ==== Kernel.lean ====
abbrev S64x4096 : Shape := ⟨2, ![64, 4096]⟩
abbrev S512x11008 : Shape := ⟨2, ![512, 11008]⟩
abbrev S32x1376 : Shape := ⟨2, ![32, 1376]⟩
abbrev S32x11008 : Shape := ⟨2, ![32, 11008]⟩
abbrev S16x4096 : Shape := ⟨2, ![16, 4096]⟩
abbrev S11008x16 : Shape := ⟨2, ![11008, 16]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S64x32x128 : Shape := ⟨3, ![64, 32, 128]⟩
abbrev S64x32 : Shape := ⟨2, ![64, 32]⟩
abbrev S4096x16 : Shape := ⟨2, ![4096, 16]⟩
abbrev S64x16 : Shape := ⟨2, ![64, 16]⟩
abbrev S16x11008 : Shape := ⟨2, ![16, 11008]⟩
abbrev S64x11008 : Shape := ⟨2, ![64, 11008]⟩
abbrev S512x512 : Shape := ⟨2, ![512, 512]⟩
abbrev S32x512 : Shape := ⟨2, ![32, 512]⟩
abbrev S16x512 : Shape := ⟨2, ![16, 512]⟩
abbrev S64x512 : Shape := ⟨2, ![64, 512]⟩
abbrev S1x8 : Shape := ⟨2, ![1, 8]⟩
abbrev S128x512 : Shape := ⟨2, ![128, 512]⟩
abbrev S128x1x512 : Shape := ⟨3, ![128, 1, 512]⟩
abbrev S1x8x1 : Shape := ⟨3, ![1, 8, 1]⟩
abbrev S128x8x512 : Shape := ⟨3, ![128, 8, 512]⟩
abbrev S1024x512 : Shape := ⟨2, ![1024, 512]⟩
abbrev S8x512 : Shape := ⟨2, ![8, 512]⟩
abbrev S8x128x512 : Shape := ⟨3, ![8, 128, 512]⟩
abbrev S8x1x512 : Shape := ⟨3, ![8, 1, 512]⟩
abbrev S64x1024 : Shape := ⟨2, ![64, 1024]⟩

abbrev nBuf : Space → Nat
  | .hbm => 35
  | .vmem => 14
  | .smem => 0
  | _ => 0

abbrev bufTy : (tb : Table) → Fin (tcTables nBuf tb) → BufTy
  | .hbm, ⟨0, _⟩ => ⟨S64x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S16x4096, .f32⟩
  | .hbm, ⟨5, _⟩ => ⟨S11008x16, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S32x1376x1, .i32⟩
  | .hbm, ⟨11, _⟩ => ⟨S1x1x8, .i32⟩
  | .hbm, ⟨12, _⟩ => ⟨S32x1376x8, .i32⟩
  | .hbm, ⟨13, _⟩ => ⟨S32x1376x8, .i32⟩
  | .hbm, ⟨14, _⟩ => ⟨S32x1376x8, .i32⟩
  | .hbm, ⟨15, _⟩ => ⟨S_, .i32⟩
  | .hbm, ⟨16, _⟩ => ⟨S32x1376x8, .i32⟩
  | .hbm, ⟨17, _⟩ => ⟨S32x1376x8, .i32⟩
  | .hbm, ⟨18, _⟩ => ⟨S32x11008, .i32⟩
  | .hbm, ⟨19, _⟩ => ⟨S_, .i32⟩
  | .hbm, ⟨20, _⟩ => ⟨S32x11008, .i32⟩
  | .hbm, ⟨21, _⟩ => ⟨S32x11008, .i32⟩
  | .hbm, ⟨22, _⟩ => ⟨S32x11008, .f32⟩
  | .hbm, ⟨23, _⟩ => ⟨S32x11008, .f32⟩
  | .hbm, ⟨24, _⟩ => ⟨S64x32x128, .f32⟩
  | .hbm, ⟨25, _⟩ => ⟨S_, .f32⟩
  | .hbm, ⟨26, _⟩ => ⟨S64x32, .f32⟩
  | .hbm, ⟨27, _⟩ => ⟨S4096x16, .f32⟩
  | .hbm, ⟨28, _⟩ => ⟨S64x16, .f32⟩
  | .hbm, ⟨29, _⟩ => ⟨S16x11008, .f32⟩
  | .hbm, ⟨30, _⟩ => ⟨S64x4096, .bf16⟩
  | .hbm, ⟨31, _⟩ => ⟨S64x16, .bf16⟩
  | .hbm, ⟨32, _⟩ => ⟨S32x11008, .bf16⟩
  | .hbm, ⟨33, _⟩ => ⟨S16x11008, .bf16⟩
  | .hbm, ⟨34, _⟩ => ⟨S64x11008, .f32⟩
  | .local _ .vmem, ⟨0, _⟩ => ⟨S64x4096, .bf16⟩
  | .local _ .vmem, ⟨1, _⟩ => ⟨S64x32, .f32⟩
  | .local _ .vmem, ⟨2, _⟩ => ⟨S512x512, .i32⟩
  | .local _ .vmem, ⟨3, _⟩ => ⟨S512x512, .i32⟩
  | .local _ .vmem, ⟨4, _⟩ => ⟨S32x512, .bf16⟩
  | .local _ .vmem, ⟨5, _⟩ => ⟨S32x512, .bf16⟩
  | .local _ .vmem, ⟨6, _⟩ => ⟨S32x512, .f32⟩
  | .local _ .vmem, ⟨7, _⟩ => ⟨S32x512, .f32⟩
  | .local _ .vmem, ⟨8, _⟩ => ⟨S64x16, .bf16⟩
  | .local _ .vmem, ⟨9, _⟩ => ⟨S16x512, .bf16⟩
  | .local _ .vmem, ⟨10, _⟩ => ⟨S16x512, .bf16⟩
  | .local _ .vmem, ⟨11, _⟩ => ⟨S64x512, .f32⟩
  | .local _ .vmem, ⟨12, _⟩ => ⟨S64x512, .f32⟩
  | .local _ .vmem, ⟨13, _⟩ => ⟨S64x512, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S32x11008 : S_.BroadcastsInDim S32x11008 (![] : Fin 0 → Fin S32x11008.rank)
  shapeCasts_S64x4096_S64x32x128 : S64x4096.ShapeCasts S64x32x128
  reducesTo_S64x32x128_S64x32_d2 : S64x32x128.ReducesTo [2] S64x32
  h_S_ : 0 < S_.numel
  transposes_S16x4096_S4096x16_1_0 : S16x4096.Transposes [1, 0] S4096x16
  transposes_S11008x16_S16x11008_1_0 : S11008x16.Transposes [1, 0] S16x11008
  bitsLt_bf16_f32 : FTy.bits .bf16 < FTy.bits .f32
  iota_S1x8_d1_w32 : S1x8.Iotas .tc 32 [1]
  shapeCasts_S1x8_S8 : S1x8.ShapeCasts S8
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x512_S128x512_0_0 : ∀ a, (![0, 0] : Fin 2 → Nat) a + S128x512.size a ≤ S512x512.size a
  h_S128x512 : 0 < S128x512.numel
  shapeCasts_S128x512_S128x1x512 : S128x512.ShapeCasts S128x1x512
  shapeCasts_S8_S1x8x1 : S8.ShapeCasts S1x8x1
  broadcasts_S128x1x512_S128x8x512 : S128x1x512.Broadcasts S128x8x512
  broadcasts_S1x8x1_S128x8x512 : S1x8x1.Broadcasts S128x8x512
  shapeCasts_S128x8x512_S1024x512 : S128x8x512.ShapeCasts S1024x512
  inb_S32x512_S8x512_0_0 : ∀ a, (![0, 0] : Fin 2 → Nat) a + S8x512.size a ≤ S32x512.size a
  h_S8x512 : 0 < S8x512.numel
  shapeCasts_S8x512_S8x512 : S8x512.ShapeCasts S8x512
  shapeCasts_S1024x512_S8x128x512 : S1024x512.ShapeCasts S8x128x512
  shapeCasts_S8x512_S8x1x512 : S8x512.ShapeCasts S8x1x512
  broadcasts_S8x1x512_S8x128x512 : S8x1x512.Broadcasts S8x128x512
  shapeCasts_S8x128x512_S1024x512 : S8x128x512.ShapeCasts S1024x512
  inb_S64x4096_S64x1024_0_0 : ∀ a, (![0, 0] : Fin 2 → Nat) a + S64x1024.size a ≤ S64x4096.size a
  h_S64x1024 : 0 < S64x1024.numel
  shapeCasts_S64x1024_S64x1024 : S64x1024.ShapeCasts S64x1024
  inb_S512x512_S128x512_128_0 : ∀ a, (![128, 0] : Fin 2 → Nat) a + S128x512.size a ≤ S512x512.size a
  inb_S32x512_S8x512_8_0 : ∀ a, (![8, 0] : Fin 2 → Nat) a + S8x512.size a ≤ S32x512.size a
  inb_S64x4096_S64x1024_0_1024 : ∀ a, (![0, 1024] : Fin 2 → Nat) a + S64x1024.size a ≤ S64x4096.size a
  inb_S512x512_S128x512_256_0 : ∀ a, (![256, 0] : Fin 2 → Nat) a + S128x512.size a ≤ S512x512.size a
  inb_S32x512_S8x512_16_0 : ∀ a, (![16, 0] : Fin 2 → Nat) a + S8x512.size a ≤ S32x512.size a
  inb_S64x4096_S64x1024_0_2048 : ∀ a, (![0, 2048] : Fin 2 → Nat) a + S64x1024.size a ≤ S64x4096.size a
  inb_S512x512_S128x512_384_0 : ∀ a, (![384, 0] : Fin 2 → Nat) a + S128x512.size a ≤ S512x512.size a
  inb_S32x512_S8x512_24_0 : ∀ a, (![24, 0] : Fin 2 → Nat) a + S8x512.size a ≤ S32x512.size a
  inb_S64x4096_S64x1024_0_3072 : ∀ a, (![0, 3072] : Fin 2 → Nat) a + S64x1024.size a ≤ S64x4096.size a
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  dot_S64x4096_S4096x16_S64x16_1_0_0_1_n_n_wf : DotDims.WF S64x4096 S4096x16 S64x16 [1] [0] [0] [1] [] []
  dot_S64x1024_S1024x512_S64x512_1_0_0_1_n_n_wf : DotDims.WF S64x1024 S1024x512 S64x512 [1] [0] [0] [1] [] []
  dot_S64x32_S32x512_S64x512_1_0_0_1_n_n_wf : DotDims.WF S64x32 S32x512 S64x512 [1] [0] [0] [1] [] []
  dot_S64x16_S16x512_S64x512_1_0_0_1_n_n_wf : DotDims.WF S64x16 S16x512 S64x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .bf16 = 32 ∨ (Rect.block (s := S64x4096) S64x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x512.size a < S512x11008.size a
  hwx0_2 : ∀ i : grid0.Coords, EltTy.bits .i32 = 32 ∨ (Rect.unit (s := S512x11008) (fun a => cc0_transform_2 i a * S512x512.size a) (fun a => (Pipeline.Clip.of (cc0_transform_2 i a) (S512x512.size a) (S512x11008.size a)).extent (S512x512.size a)) fun a => Pipeline.Clip.inb (Pipeline.Clip.ok_of (hstart0_2 i a))).WholeWords (EltTy.packing .i32)
  hwxs0_2 : ∀ i : grid0.Coords, EltTy.bits .i32 = 32 ∨ (Rect.unit (s := S512x512) (fun _ => 0) (fun a => (Pipeline.Clip.of (cc0_transform_2 i a) (S512x512.size a) (S512x11008.size a)).extent (S512x512.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x512.size a < S32x11008.size a
  hwx0_3 : ∀ i : grid0.Coords, EltTy.bits .bf16 = 32 ∨ (Rect.unit (s := S32x11008) (fun a => cc0_transform_3 i a * S32x512.size a) (fun a => (Pipeline.Clip.of (cc0_transform_3 i a) (S32x512.size a) (S32x11008.size a)).extent (S32x512.size a)) fun a => Pipeline.Clip.inb (Pipeline.Clip.ok_of (hstart0_3 i a))).WholeWords (EltTy.packing .bf16)
  hwxs0_3 : ∀ i : grid0.Coords, EltTy.bits .bf16 = 32 ∨ (Rect.unit (s := S32x512) (fun _ => 0) (fun a => (Pipeline.Clip.of (cc0_transform_3 i a) (S32x512.size a) (S32x11008.size a)).extent (S32x512.size a)) fun a => (Nat.zero_add _).trans_le (Pipeline.Clip.extent_le (Pipeline.Clip.ok_of (hstart0_3 i a)))).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S32x512.size a < S32x11008.size a
  hwx0_4 : ∀ i : grid0.Coords, EltTy.bits .f32 = 32 ∨ (Rect.unit (s := S32x11008) (fun a => cc0_transform_4 i a * S32x512.size a) (fun a => (Pipeline.Clip.of (cc0_transform_4 i a) (S32x512.size a) (S32x11008.size a)).extent (S32x512.size a)) fun a => Pipeline.Clip.inb (Pipeline.Clip.ok_of (hstart0_4 i a))).WholeWords (EltTy.packing .f32)
  hwxs0_4 : ∀ i : grid0.Coords, EltTy.bits .f32 = 32 ∨ (Rect.unit (s := S32x512) (fun _ => 0) (fun a => (Pipeline.Clip.of (cc0_transform_4 i a) (S32x512.size a) (S32x11008.size a)).extent (S32x512.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S64x16.size a
  hwx0_5 : ∀ i : grid0.Coords, EltTy.bits .bf16 = 32 ∨ (Rect.block (s := S64x16) S64x16.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S16x512.size a < S16x11008.size a
  hwx0_6 : ∀ i : grid0.Coords, EltTy.bits .bf16 = 32 ∨ (Rect.unit (s := S16x11008) (fun a => cc0_transform_6 i a * S16x512.size a) (fun a => (Pipeline.Clip.of (cc0_transform_6 i a) (S16x512.size a) (S16x11008.size a)).extent (S16x512.size a)) fun a => Pipeline.Clip.inb (Pipeline.Clip.ok_of (hstart0_6 i a))).WholeWords (EltTy.packing .bf16)
  hwxs0_6 : ∀ i : grid0.Coords, EltTy.bits .bf16 = 32 ∨ (Rect.unit (s := S16x512) (fun _ => 0) (fun a => (Pipeline.Clip.of (cc0_transform_6 i a) (S16x512.size a) (S16x11008.size a)).extent (S16x512.size a)) fun a => (Nat.zero_add _).trans_le (Pipeline.Clip.extent_le (Pipeline.Clip.ok_of (hstart0_6 i a)))).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S64x512.size a < S64x11008.size a
  hwx0_7 : ∀ i : grid0.Coords, EltTy.bits .f32 = 32 ∨ (Rect.unit (s := S64x11008) (fun a => cc0_transform_7 i a * S64x512.size a) (fun a => (Pipeline.Clip.of (cc0_transform_7 i a) (S64x512.size a) (S64x11008.size a)).extent (S64x512.size a)) fun a => Pipeline.Clip.inb (Pipeline.Clip.ok_of (hstart0_7 i a))).WholeWords (EltTy.packing .f32)
  hwxs0_7 : ∀ i : grid0.Coords, EltTy.bits .f32 = 32 ∨ (Rect.unit (s := S64x512) (fun _ => 0) (fun a => (Pipeline.Clip.of (cc0_transform_7 i a) (S64x512.size a) (S64x11008.size a)).extent (S64x512.size a)) fun a => (Nat.zero_add _).trans_le (Pipeline.Clip.extent_le (Pipeline.Clip.ok_of (hstart0_7 i a)))).WholeWords (EltTy.packing .f32)

variable [Facts₀]

def dot_S64x4096_S4096x16_S64x16_1_0_0_1_n_n : DotDims S64x4096 S4096x16 S64x16 where
  lhsContracting := [1]
  rhsContracting := [0]
  lhsNonContracting := [0]
  rhsNonContracting := [1]
  lhsBatch := []
  rhsBatch := []
  wf := dot_S64x4096_S4096x16_S64x16_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x32_S32x512_S64x512_1_0_0_1_n_n : DotDims S64x32 S32x512 S64x512 where
  lhsContracting := [1]
  rhsContracting := [0]
  lhsNonContracting := [0]
  rhsNonContracting := [1]
  lhsBatch := []
  rhsBatch := []
  wf := dot_S64x32_S32x512_S64x512_1_0_0_1_n_n_wf
def dot_S64x16_S16x512_S64x512_1_0_0_1_n_n : DotDims S64x16 S16x512 S64x512 where
  lhsContracting := [1]
  rhsContracting := [0]
  lhsNonContracting := [0]
  rhsNonContracting := [1]
  lhsBatch := []
  rhsBatch := []
  wf := dot_S64x16_S16x512_S64x512_1_0_0_1_n_n_wf

abbrev win0_0 : Pipeline.Window sig grid0 :=
  Pipeline.Window.ofSpec (Memref.whole main_v20) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v16) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S512x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v22) S32x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v14) S32x512.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpec (Memref.whole main_v21) S64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v23) S16x512.size cc0_transform_6 reads0_6 false false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v24) S64x512.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x4096 : Shape := ⟨2, ![64, 4096]⟩
abbrev S512x11008 : Shape := ⟨2, ![512, 11008]⟩
abbrev S32x1376 : Shape := ⟨2, ![32, 1376]⟩
abbrev S32x11008 : Shape := ⟨2, ![32, 11008]⟩
abbrev S16x4096 : Shape := ⟨2, ![16, 4096]⟩
abbrev S11008x16 : Shape := ⟨2, ![11008, 16]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x1376x1 : Shape := ⟨3, ![32, 1376, 1]⟩
abbrev S1x1x8 : Shape := ⟨3, ![1, 1, 8]⟩
abbrev S32x1376x8 : Shape := ⟨3, ![32, 1376, 8]⟩
abbrev S4096 : Shape := ⟨1, ![4096]⟩
abbrev S4096x1 : Shape := ⟨2, ![4096, 1]⟩
abbrev S64x11008 : Shape := ⟨2, ![64, 11008]⟩
abbrev S4096x16 : Shape := ⟨2, ![4096, 16]⟩
abbrev S64x16 : Shape := ⟨2, ![64, 16]⟩
abbrev S16x11008 : Shape := ⟨2, ![16, 11008]⟩

abbrev nBuf : Space → Nat
  | .hbm => 85
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S16x4096, .f32⟩
  | .hbm, ⟨5, _⟩ => ⟨S11008x16, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S512x1x11008, .i32⟩
  | .hbm, ⟨11, _⟩ => ⟨S1x8x1, .i32⟩
  | .hbm, ⟨12, _⟩ => ⟨S512x8x11008, .i32⟩
  | .hbm, ⟨13, _⟩ => ⟨S512x8x11008, .i32⟩
  | .hbm, ⟨14, _⟩ => ⟨S512x8x11008, .i32⟩
  | .hbm, ⟨15, _⟩ => ⟨S_, .i32⟩
  | .hbm, ⟨16, _⟩ => ⟨S512x8x11008, .i32⟩
  | .hbm, ⟨17, _⟩ => ⟨S512x8x11008, .i32⟩
  | .hbm, ⟨18, _⟩ => ⟨S4096x11008, .i32⟩
  | .hbm, ⟨19, _⟩ => ⟨S4096x11008, .f32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S32x1376x1, .i32⟩
  | .hbm, ⟨25, _⟩ => ⟨S1x1x8, .i32⟩
  | .hbm, ⟨26, _⟩ => ⟨S32x1376x8, .i32⟩
  | .hbm, ⟨27, _⟩ => ⟨S32x1376x8, .i32⟩
  | .hbm, ⟨28, _⟩ => ⟨S32x1376x8, .i32⟩
  | .hbm, ⟨29, _⟩ => ⟨S_, .i32⟩
  | .hbm, ⟨30, _⟩ => ⟨S32x1376x8, .i32⟩
  | .hbm, ⟨31, _⟩ => ⟨S32x1376x8, .i32⟩
  | .hbm, ⟨32, _⟩ => ⟨S32x11008, .i32⟩
  | .hbm, ⟨33, _⟩ => ⟨S_, .i32⟩
  | .hbm, ⟨34, _⟩ => ⟨S32x11008, .i32⟩
  | .hbm, ⟨35, _⟩ => ⟨S32x11008, .i32⟩
  | .hbm, ⟨36, _⟩ => ⟨S32x11008, .f32⟩
  | .hbm, ⟨37, _⟩ => ⟨S4096, .i32⟩
  | .hbm, ⟨38, _⟩ => ⟨S_, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S4096x11008, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x11008, .f32⟩
  | .hbm, ⟨74, _⟩ => ⟨S4096x11008, .f32⟩
  | .hbm, ⟨75, _⟩ => ⟨S4096x11008, .f32⟩
  | .hbm, ⟨76, _⟩ => ⟨S64x11008, .f32⟩
  | .hbm, ⟨77, _⟩ => ⟨S4096x16, .f32⟩
  | .hbm, ⟨78, _⟩ => ⟨S64x16, .f32⟩
  | .hbm, ⟨79, _⟩ => ⟨S16x11008, .f32⟩
  | .hbm, ⟨80, _⟩ => ⟨S64x11008, .f32⟩
  | .hbm, ⟨81, _⟩ => ⟨S_, .f32⟩
  | .hbm, ⟨82, _⟩ => ⟨S64x11008, .f32⟩
  | .hbm, ⟨83, _⟩ => ⟨S64x11008, .f32⟩
  | .hbm, ⟨84, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_v36 : Ref sig .tc := ⟨.hbm, 67, rfl⟩
abbrev main_c_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S32x11008 : S_.BroadcastsInDim S32x11008 (![] : Fin 0 → Fin S32x11008.rank)
  bcast_S_S4096 : S_.BroadcastsInDim S4096 (![] : Fin 0 → Fin S4096.rank)
  bcast_S4096_S4096x1_0 : S4096.BroadcastsInDim S4096x1 (![0] : Fin 1 → Fin S4096x1.rank)
  transposes_S16x4096_S4096x16_1_0 : S16x4096.Transposes [1, 0] S4096x16
  transposes_S11008x16_S16x11008_1_0 : S11008x16.Transposes [1, 0] S16x11008
  bcast_S_S64x11008 : S_.BroadcastsInDim S64x11008 (![] : Fin 0 → Fin S64x11008.rank)
  gather_S32x11008_S4096x1_S4096x11008_1_0_n_n_0_1_111008_wf : GatherDims.WF S32x11008 S4096x1 S4096x11008 [1] [0] [] [0] [] 1 ![1, 11008]
  dot_S64x4096_S4096x11008_S64x11008_1_0_0_1_n_n_wf : DotDims.WF S64x4096 S4096x11008 S64x11008 [1] [0] [0] [1] [] []
  dot_S64x4096_S4096x16_S64x16_1_0_0_1_n_n_wf : DotDims.WF S64x4096 S4096x16 S64x16 [1] [0] [0] [1] [] []
  dot_S64x16_S16x11008_S64x11008_1_0_0_1_n_n_wf : DotDims.WF S64x16 S16x11008 S64x11008 [1] [0] [0] [1] [] []

variable [Facts₀]

def gather_S32x11008_S4096x1_S4096x11008_1_0_n_n_0_1_111008 : GatherDims S32x11008 S4096x1 S4096x11008 where
  offsetDims := [1]
  collapsedSliceDims := [0]
  operandBatchingDims := []
  startIndicesBatchingDims := []
  startIndexMap := [0]
  indexVectorDim := 1
  sliceSizes := ![1, 11008]
  wf := gather_S32x11008_S4096x1_S4096x11008_1_0_n_n_0_1_111008_wf
def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf
def dot_S64x4096_S4096x16_S64x16_1_0_0_1_n_n : DotDims S64x4096 S4096x16 S64x16 where
  lhsContracting := [1]
  rhsContracting := [0]
  lhsNonContracting := [0]
  rhsNonContracting := [1]
  lhsBatch := []
  rhsBatch := []
  wf := dot_S64x4096_S4096x16_S64x16_1_0_0_1_n_n_wf
def dot_S64x16_S16x11008_S64x11008_1_0_0_1_n_n : DotDims S64x16 S16x11008 S64x11008 where
  lhsContracting := [1]
  rhsContracting := [0]
  lhsNonContracting := [0]
  rhsNonContracting := [1]
  lhsBatch := []
  rhsBatch := []
  wf := dot_S64x16_S16x11008_S64x11008_1_0_0_1_n_n_wf

class Facts : Prop extends Facts₀ where

variable [Facts]
-- ==== Proof.OutBlkK.lean ====
/-
  What the kernel body leaves in its output block, as one pure function of what its seven input blocks hold.

  The body keeps a 64×512 accumulator. It clears it, then for each of four stretches of 1024 input rows it
  unpacks 128 packed rows of the weight block into 1024 rows of nibbles, scales each group of 128 rows by its
  row of scales, multiplies the matching 1024 columns of x by the result and adds the product to the accumulator.
  It then takes off the product of the group sums of x with the block of s · z, and adds twice the product of
  x · Aᵀ with the block of Bᵀ.
-/
import proofs.«407871_j82128364634479_3_alg».proof.Proof.Gen.Kernel.Skeleton
import Idealize.ShloMosaic.Lib.Pipeline.FrameBody

noncomputable section

namespace Cert.Kernel.Hand

open Cert.Kernel Cert.Kernel.Gen
open Idealize.ShloMosaic Idealize.SL.Sem

variable {F : FTy → Type} [FloatOps F]

/-! ## The rectangles the body reads and writes -/

/-- The whole accumulator, and the whole output block. -/
abbrev rAcc : Rect S64x512 := Rect.unit (s := S64x512) ![0, 0] S64x512.size inb_S64x512_S64x512_0_0
/-- The four stretches of 128 packed rows of the weight block. -/
abbrev rQ0 : Rect S512x512 := Rect.unit (s := S512x512) ![0, 0] S128x512.size inb_S512x512_S128x512_0_0
abbrev rQ1 : Rect S512x512 := Rect.unit (s := S512x512) ![128, 0] S128x512.size inb_S512x512_S128x512_128_0
abbrev rQ2 : Rect S512x512 := Rect.unit (s := S512x512) ![256, 0] S128x512.size inb_S512x512_S128x512_256_0
abbrev rQ3 : Rect S512x512 := Rect.unit (s := S512x512) ![384, 0] S128x512.size inb_S512x512_S128x512_384_0
/-- The four stretches of 8 rows of the scale block. -/
abbrev rS0 : Rect S32x512 := Rect.unit (s := S32x512) ![0, 0] S8x512.size inb_S32x512_S8x512_0_0
abbrev rS1 : Rect S32x512 := Rect.unit (s := S32x512) ![8, 0] S8x512.size inb_S32x512_S8x512_8_0
abbrev rS2 : Rect S32x512 := Rect.unit (s := S32x512) ![16, 0] S8x512.size inb_S32x512_S8x512_16_0
abbrev rS3 : Rect S32x512 := Rect.unit (s := S32x512) ![24, 0] S8x512.size inb_S32x512_S8x512_24_0
/-- The four stretches of 1024 columns of x. -/
abbrev rX0 : Rect S64x4096 := Rect.unit (s := S64x4096) ![0, 0] S64x1024.size inb_S64x4096_S64x1024_0_0
abbrev rX1 : Rect S64x4096 := Rect.unit (s := S64x4096) ![0, 1024] S64x1024.size inb_S64x4096_S64x1024_0_1024
abbrev rX2 : Rect S64x4096 := Rect.unit (s := S64x4096) ![0, 2048] S64x1024.size inb_S64x4096_S64x1024_0_2048
abbrev rX3 : Rect S64x4096 := Rect.unit (s := S64x4096) ![0, 3072] S64x1024.size inb_S64x4096_S64x1024_0_3072
/-- The whole blocks of the group sums, of s · z, of x · Aᵀ and of Bᵀ. -/
abbrev rXg : Rect S64x32 := Rect.unit (s := S64x32) ![0, 0] S64x32.size inb_S64x32_S64x32_0_0
abbrev rSz : Rect S32x512 := Rect.unit (s := S32x512) ![0, 0] S32x512.size inb_S32x512_S32x512_0_0
abbrev rXa : Rect S64x16 := Rect.unit (s := S64x16) ![0, 0] S64x16.size inb_S64x16_S64x16_0_0
abbrev rB : Rect S16x512 := Rect.unit (s := S16x512) ![0, 0] S16x512.size inb_S16x512_S16x512_0_0

/-! ## The accumulator after each stretch, and the output block -/

/-- The accumulator after the first stretch: zero plus the first product. -/
def acc1 (x0 : Vec F S64x4096 .bf16) (x2 : Vec F S512x512 .i32) (x3 : Vec F S32x512 .bf16) : FVec F S64x512 .f32 :=
  k0_pay4 (View.ld x2 rQ0) (View.ld x3 rS0) (View.ld x0 rX0) (k0_pay3 (F := F))

/-- After the second. -/
def acc2 (x0 : Vec F S64x4096 .bf16) (x2 : Vec F S512x512 .i32) (x3 : Vec F S32x512 .bf16) : FVec F S64x512 .f32 :=
  k0_pay6 (k0_pay5 (F := F) (View.ld x2 rQ1)) (View.ld x3 rS1) (View.ld x0 rX1) (acc1 x0 x2 x3)

/-- After the third. -/
def acc3 (x0 : Vec F S64x4096 .bf16) (x2 : Vec F S512x512 .i32) (x3 : Vec F S32x512 .bf16) : FVec F S64x512 .f32 :=
  k0_pay9 (k0_pay7 k0_pay2 (View.ld x2 rQ2) (View.ld x3 rS2)) (k0_pay8 (View.ld x0 rX2)) (acc2 x0 x2 x3)
    (constant S64x512 .f32 0x00000000#32)

/-- After the fourth. -/
def acc4 (x0 : Vec F S64x4096 .bf16) (x2 : Vec F S512x512 .i32) (x3 : Vec F S32x512 .bf16) : FVec F S64x512 .f32 :=
  k0_pay10 k0_pay2 (View.ld x2 rQ3) (View.ld x3 rS3) (View.ld x0 rX3) (acc3 x0 x2 x3)

/-- The output block: the accumulator less the zero-point term, plus twice the rank-16 term. -/
def outBlk (x0 : Vec F S64x4096 .bf16) (x1 : Vec F S64x32 .f32) (x2 : Vec F S512x512 .i32) (x3 : Vec F S32x512 .bf16)
    (x4 : Vec F S32x512 .f32) (x5 : Vec F S64x16 .bf16) (x6 : Vec F S16x512 .bf16) : Vec F S64x512 .f32 :=
  k0_pay1 (k0_pay11 (View.ld x1 rXg) (View.ld x4 rSz) (acc4 x0 x2 x3)) (View.ld x5 rXa) (View.ld x6 rB)

end Cert.Kernel.Hand

end
-- ==== Proof.BodyRunK.lean ====
/-
  The kernel body run on any nine whole buffers: if the seven input buffers hold x0 … x6, the body terminates,
  faults nowhere, leaves them as they were, leaves the output buffer at the one function `outBlk` of them, and
  leaves the accumulator at something.
-/
import proofs.«407871_j82128364634479_3_alg».proof.Proof.OutBlkK
import proofs.«407871_j82128364634479_3_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem sound_kernel (c : Dev nD) (E : Set ℕ) (i : grid0.Coords)
    (arg1 : Memref sig .tc .vmem S64x4096 .bf16) (harg1 : arg1.IsWhole) (arg2 : Memref sig .tc .vmem S64x32 .f32) (harg2 : arg2.IsWhole)
    (arg3 : Memref sig .tc .vmem S512x512 .i32) (harg3 : arg3.IsWhole) (arg4 : Memref sig .tc .vmem S32x512 .bf16) (harg4 : arg4.IsWhole)
    (arg5 : Memref sig .tc .vmem S32x512 .f32) (harg5 : arg5.IsWhole) (arg6 : Memref sig .tc .vmem S64x16 .bf16) (harg6 : arg6.IsWhole)
    (arg7 : Memref sig .tc .vmem S16x512 .bf16) (harg7 : arg7.IsWhole) (arg8 : Memref sig .tc .vmem S64x512 .f32) (harg8 : arg8.IsWhole)
    (arg9 : Memref sig .tc .vmem S64x512 .f32) (harg9 : arg9.IsWhole)
    (x0 : Vec F S64x4096 .bf16) (x1 : Vec F S64x32 .f32) (x2 : Vec F S512x512 .i32) (x3 : Vec F S32x512 .bf16)
    (x4 : Vec F S32x512 .f32) (x5 : Vec F S64x16 .bf16) (x6 : Vec F S16x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)
            ∗ (∃ d, owns (c : Thread nD τ) arg9 fullShare d)) -∗ K ⟨⟩))
      ⊢ wp frame (wpE (defs₀ (F := F)) Variants.none c none) E
          (cc0__dequant_matmul_lora_kernel i arg1 harg1 arg2 harg2 arg3 harg3 arg4 harg4 arg5 harg5 arg6 harg6 arg7 harg7 arg8 harg8 arg9 harg9) K := by
  -- The body is its skeleton: three calls and a tail of three loads and one store, over the named payloads.
  simp only [cc0__dequant_matmul_lora_kernel_eq_skeleton]; unfold cc0__dequant_matmul_lora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  -- Run the three parts and the tail: every load is in bounds of a buffer that is owned, every store is to the
  -- whole of the accumulator or of the output block.
  sl_exec
  sl_step
  iapply Hk
  -- The seven input buffers were only read: each is handed back at the contents it came with.
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · -- The output block holds one write, through the whole-block rectangle: it reads as that write's payload.
    iexists _; isplitr
    swap; · iexact H7
    ipureintro
    have hz : (![0, 0] : Fin 2 → Nat) = fun _ => 0 := by funext a; fin_cases a <;> rfl
    rw [View.read_writes_eq_canon _ _ _
        (fun y => ⟨_, List.mem_singleton_self _, View.mem_set_unit_zero hz inb_S64x512_S64x512_0_0 y⟩),
      View.canon_unit_zero hz]
    -- The payload names what was read from the accumulator along the way. Each such read goes through the very
    -- rectangle the store before it wrote through, so it is that store's payload whatever lay underneath; and a
    -- read of an input buffer is the rectangle's cut of its contents. What is left is `outBlk` spelt out.
    sl_unfold_words
    simp only [View.readCov_cons_toLoadRect, View.readAt_eq_ld]
    rfl
  · -- The accumulator is handed back at whatever its five writes left.
    iexists _, _; isplitr
    swap; · iexact H8
    ipureintro; rfl

end Cert.Kernel.Hand

end
-- ==== Proof.FrameBits.lean ====
/-
  The frame of the word-level kernel program: it runs to the end, faults nowhere, and leaves its six arguments as they
  were. Nothing is said of what the buffers hold: every window's buffer is handed to the body at some contents and
  taken back at some contents, which is all the frame needs — an argument array is read, never written.
-/
import proofs.«407871_j82128364634479_3_alg».proof.Proof.BodyRunK
import proofs.«407871_j82128364634479_3_alg».proof.Proof.Gen.Kernel.Frame
import proofs.«407871_j82128364634479_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten. -/
def forgets : Fin 8 → Bool := fun _ => true

/-- The proof data: the arrays as the region finds them; no buffer's contents named; the invariant the scoped rest and
    the generator register; nothing owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- The accumulator, a whole scoped buffer of the kernel's own. -/
abbrev scM : Memref sig .tc .vmem S64x512 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

/-- The body at any point, on whatever the buffers hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨%ds, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel (F := F) c Set.univ (grid0.coords t) _ _ _ _ _ _ _ _ _ _ _ _ _ _ _ _ _ _ d0 d1 d2 d3 d4 d5 d6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs]; · iexists _; iexact Hs
  iintro ⟨H0, H1, H2, H3, H4, H5, H6, H7, Hs⟩
  isplitl [Hs Hr]
  · isplitl [Hs]; · iexact Hs
    iexact Hr
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

/-- The library's body obligation with every window forgotten, at every point. -/
theorem body_obligation (c : Dev nD) : BodyObligation (dats (F := F) m 0 c) (defs₀ (F := F)) Variants.none () Set.univ forgets := fun t => by
  rw [bigSep_W0, bigSep_W0]
  exact sound_body m c t

set_option backward.isDefEq.respectTransparency.types false in
/-- At the compiled mesh, for any values, from any memory with zero counters: every weakly fair execution of @main on the
    TensorCores terminates; every input array of the pipeline ends unchanged and every other unscoped buffer at its
    region-entry contents. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- THE FRAME of the word-level kernel program, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((A_eq m c 2).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.Kernel.Hand

end
-- ==== Proof.Args.lean ====
/-
  The six argument arrays of the idealized kernel program on a device, each under its literal type, and the arrays the
  region stages as the host operations in front of it leave them.
-/
import proofs.«407871_j82128364634479_3_alg».proof.Proof.Gen.KernelIdeal.Frame
import Idealize.ShloMosaic.PureOps.Ideal

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- x. -/
abbrev aX (c : Dev nD) : S64x4096.Idx → EReal := m ((c.tc : Thread nD τ).loc main_arg0)
/-- The packed weights. -/
abbrev aQW (c : Dev nD) : S512x11008.Idx → BitVec 32 := m ((c.tc : Thread nD τ).loc main_arg1)
/-- The packed zero points. -/
abbrev aQZ (c : Dev nD) : S32x1376.Idx → BitVec 32 := m ((c.tc : Thread nD τ).loc main_arg2)
/-- The scales. -/
abbrev aSC (c : Dev nD) : S32x11008.Idx → EReal := m ((c.tc : Thread nD τ).loc main_arg3)
/-- A. -/
abbrev aA (c : Dev nD) : S16x4096.Idx → EReal := m ((c.tc : Thread nD τ).loc main_arg4)
/-- B. -/
abbrev aB (c : Dev nD) : S11008x16.Idx → EReal := m ((c.tc : Thread nD τ).loc main_arg5)

/-- x as staged (window 0). -/
abbrev vX (c : Dev nD) : S64x4096.Idx → EReal := V m c main_v20
/-- The group sums of x as staged (window 1). -/
abbrev vXG (c : Dev nD) : S64x32.Idx → EReal := V m c main_v16
/-- The packed weights as staged (window 2): the argument itself. -/
abbrev vQW (c : Dev nD) : S512x11008.Idx → BitVec 32 := V m c main_arg1
/-- The scales as staged (window 3). -/
abbrev vSC (c : Dev nD) : S32x11008.Idx → EReal := V m c main_v22
/-- s · z as staged (window 4). -/
abbrev vSZ (c : Dev nD) : S32x11008.Idx → EReal := V m c main_v14
/-- x · Aᵀ as staged (window 5). -/
abbrev vXA (c : Dev nD) : S64x16.Idx → EReal := V m c main_v21
/-- Bᵀ as staged (window 6). -/
abbrev vBT (c : Dev nD) : S16x11008.Idx → EReal := V m c main_v23

end Cert.KernelIdeal.Hand

end
-- ==== Proof.OutBlk.lean ====
/-
  What the kernel body leaves in its output block, as one pure function of what its seven input blocks hold.

  The body keeps a 64×512 accumulator. It clears it, then for each of four stretches of 1024 input rows it
  unpacks 128 packed rows of the weight block into 1024 rows of nibbles, scales each group of 128 rows by its
  row of scales, multiplies the matching 1024 columns of x by the result and adds the product to the accumulator.
  It then takes off the product of the group sums of x with the block of s · z, and adds twice the product of
  x · Aᵀ with the block of Bᵀ.
-/
import proofs.«407871_j82128364634479_3_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.SL.Sem

variable {F : FTy → Type} [FloatOps F]

/-! ## The rectangles the body reads and writes -/

/-- The whole accumulator, and the whole output block. -/
abbrev rAcc : Rect S64x512 := Rect.unit (s := S64x512) ![0, 0] S64x512.size inb_S64x512_S64x512_0_0
/-- The four stretches of 128 packed rows of the weight block. -/
abbrev rQ0 : Rect S512x512 := Rect.unit (s := S512x512) ![0, 0] S128x512.size inb_S512x512_S128x512_0_0
abbrev rQ1 : Rect S512x512 := Rect.unit (s := S512x512) ![128, 0] S128x512.size inb_S512x512_S128x512_128_0
abbrev rQ2 : Rect S512x512 := Rect.unit (s := S512x512) ![256, 0] S128x512.size inb_S512x512_S128x512_256_0
abbrev rQ3 : Rect S512x512 := Rect.unit (s := S512x512) ![384, 0] S128x512.size inb_S512x512_S128x512_384_0
/-- The four stretches of 8 rows of the scale block. -/
abbrev rS0 : Rect S32x512 := Rect.unit (s := S32x512) ![0, 0] S8x512.size inb_S32x512_S8x512_0_0
abbrev rS1 : Rect S32x512 := Rect.unit (s := S32x512) ![8, 0] S8x512.size inb_S32x512_S8x512_8_0
abbrev rS2 : Rect S32x512 := Rect.unit (s := S32x512) ![16, 0] S8x512.size inb_S32x512_S8x512_16_0
abbrev rS3 : Rect S32x512 := Rect.unit (s := S32x512) ![24, 0] S8x512.size inb_S32x512_S8x512_24_0
/-- The four stretches of 1024 columns of x. -/
abbrev rX0 : Rect S64x4096 := Rect.unit (s := S64x4096) ![0, 0] S64x1024.size inb_S64x4096_S64x1024_0_0
abbrev rX1 : Rect S64x4096 := Rect.unit (s := S64x4096) ![0, 1024] S64x1024.size inb_S64x4096_S64x1024_0_1024
abbrev rX2 : Rect S64x4096 := Rect.unit (s := S64x4096) ![0, 2048] S64x1024.size inb_S64x4096_S64x1024_0_2048
abbrev rX3 : Rect S64x4096 := Rect.unit (s := S64x4096) ![0, 3072] S64x1024.size inb_S64x4096_S64x1024_0_3072
/-- The whole blocks of the group sums, of s · z, of x · Aᵀ and of Bᵀ. -/
abbrev rXg : Rect S64x32 := Rect.unit (s := S64x32) ![0, 0] S64x32.size inb_S64x32_S64x32_0_0
abbrev rSz : Rect S32x512 := Rect.unit (s := S32x512) ![0, 0] S32x512.size inb_S32x512_S32x512_0_0
abbrev rXa : Rect S64x16 := Rect.unit (s := S64x16) ![0, 0] S64x16.size inb_S64x16_S64x16_0_0
abbrev rB : Rect S16x512 := Rect.unit (s := S16x512) ![0, 0] S16x512.size inb_S16x512_S16x512_0_0

/-! ## The accumulator after each stretch, and the output block -/

/-- The accumulator after the first stretch: zero plus the first product. -/
def acc1 (x0 : Vec F S64x4096 .bf16) (x2 : Vec F S512x512 .i32) (x3 : Vec F S32x512 .bf16) : FVec F S64x512 .f32 :=
  k0_pay4 (View.ld x2 rQ0) (View.ld x3 rS0) (View.ld x0 rX0) (k0_pay3 (F := F))

/-- After the second. -/
def acc2 (x0 : Vec F S64x4096 .bf16) (x2 : Vec F S512x512 .i32) (x3 : Vec F S32x512 .bf16) : FVec F S64x512 .f32 :=
  k0_pay6 (k0_pay5 (F := F) (View.ld x2 rQ1)) (View.ld x3 rS1) (View.ld x0 rX1) (acc1 x0 x2 x3)

/-- After the third. -/
def acc3 (x0 : Vec F S64x4096 .bf16) (x2 : Vec F S512x512 .i32) (x3 : Vec F S32x512 .bf16) : FVec F S64x512 .f32 :=
  k0_pay9 (k0_pay7 k0_pay2 (View.ld x2 rQ2) (View.ld x3 rS2)) (k0_pay8 (View.ld x0 rX2)) (acc2 x0 x2 x3)
    (constant S64x512 .f32 0x00000000#32)

/-- After the fourth. -/
def acc4 (x0 : Vec F S64x4096 .bf16) (x2 : Vec F S512x512 .i32) (x3 : Vec F S32x512 .bf16) : FVec F S64x512 .f32 :=
  k0_pay10 k0_pay2 (View.ld x2 rQ3) (View.ld x3 rS3) (View.ld x0 rX3) (acc3 x0 x2 x3)

/-- The output block: the accumulator less the zero-point term, plus twice the rank-16 term. -/
def outBlk (x0 : Vec F S64x4096 .bf16) (x1 : Vec F S64x32 .f32) (x2 : Vec F S512x512 .i32) (x3 : Vec F S32x512 .bf16)
    (x4 : Vec F S32x512 .f32) (x5 : Vec F S64x16 .bf16) (x6 : Vec F S16x512 .bf16) : Vec F S64x512 .f32 :=
  k0_pay1 (k0_pay11 (View.ld x1 rXg) (View.ld x4 rSz) (acc4 x0 x2 x3)) (View.ld x5 rXa) (View.ld x6 rB)

end Cert.KernelIdeal.Hand

end
-- ==== Proof.Dats.lean ====
/-
  The proof data of the one pipeline at the ideal instance: what each window's staging buffer holds after the body.

  The last of the 22 blocks of 512 output columns overhangs the 11008 columns by 256, so the transfers of the
  windows that move with the point (the weight, scale, s · z and Bᵀ blocks, and the output block) are cut there, and a
  buffer's columns past the array's end hold nothing the arrays name. The body works column by column, so the
  part of the output block inside the array is the same whatever those columns hold: the data fills them with an
  arbitrary word that nothing reads.
-/
import proofs.«407871_j82128364634479_3_alg».proof.Proof.Args
import proofs.«407871_j82128364634479_3_alg».proof.Proof.OutBlk
import proofs.«407871_j82128364634479_3_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The blocks, under their literal types -/

/-- The x block (the whole of x, at every point). -/
abbrev b0 (c : Dev nD) (t : Fin cfg0.N) : Vec Ideal S64x4096 .bf16 := iblk m c 0 t
/-- The block of group sums (whole, at every point). -/
abbrev b1 (c : Dev nD) (t : Fin cfg0.N) : Vec Ideal S64x32 .f32 := iblk m c 1 t
/-- The block of x · Aᵀ (whole, at every point). -/
abbrev b5 (c : Dev nD) (t : Fin cfg0.N) : Vec Ideal S64x16 .bf16 := iblk m c 5 t

/-- The weight block at point `t`: its part inside the array, the rest of the buffer at `d`. -/
def f2 (c : Dev nD) (t : Fin cfg0.N) (d : Vec Ideal S512x512 .i32) : Vec Ideal S512x512 .i32 :=
  win0_2.fill (grid0.coords t) d (iblk m c 2 t)
/-- The scale block likewise. -/
def f3 (c : Dev nD) (t : Fin cfg0.N) (d : Vec Ideal S32x512 .bf16) : Vec Ideal S32x512 .bf16 :=
  win0_3.fill (grid0.coords t) d (iblk m c 3 t)
/-- The block of s · z likewise. -/
def f4 (c : Dev nD) (t : Fin cfg0.N) (d : Vec Ideal S32x512 .f32) : Vec Ideal S32x512 .f32 :=
  win0_4.fill (grid0.coords t) d (iblk m c 4 t)
/-- The block of Bᵀ likewise. -/
def f6 (c : Dev nD) (t : Fin cfg0.N) (d : Vec Ideal S16x512 .bf16) : Vec Ideal S16x512 .bf16 :=
  win0_6.fill (grid0.coords t) d (iblk m c 6 t)

/-- A word nothing reads. -/
def anyI : Vec Ideal S512x512 .i32 := fun _ => Classical.arbitrary _
def any3 : Vec Ideal S32x512 .bf16 := fun _ => Classical.arbitrary _
def any4 : Vec Ideal S32x512 .f32 := fun _ => Classical.arbitrary _
def any6 : Vec Ideal S16x512 .bf16 := fun _ => Classical.arbitrary _

/-- What the body leaves in the output buffer at point `t`, the input buffers' columns past the arrays' end at the
    arbitrary word. -/
def o7 (c : Dev nD) (t : Fin cfg0.N) : Vec Ideal S64x512 .f32 :=
  outBlk (F := Ideal) (b0 m c t) (b1 m c t) (f2 m c t anyI) (f3 m c t any3) (f4 m c t any4) (b5 m c t) (f6 m c t any6)

/-! ## The proof data -/

/-- The arrays as the region finds them; after the body each input buffer at its block (filled out past the array's end
    where it is cut) and the output buffer at `o7`; the invariant the scoped rest and the generator register, untouched
    between points (the accumulator is cleared at the start of every point); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => f2 m c t anyI
    | ⟨3, _⟩ => f3 m c t any3
    | ⟨4, _⟩ => f4 m c t any4
    | ⟨5, _⟩ => iblk m c 5 t
    | ⟨6, _⟩ => f6 m c t any6
    | ⟨7, _⟩ => o7 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = f2 m c t anyI := by dsimp only [dats]
theorem after_3 (c : Dev nD) (t : Fin cfg0.N) : (dats m 0 c).after 3 t = f3 m c t any3 := by dsimp only [dats]
theorem after_4 (c : Dev nD) (t : Fin cfg0.N) : (dats m 0 c).after 4 t = f4 m c t any4 := by dsimp only [dats]
theorem after_5 (c : Dev nD) (t : Fin cfg0.N) : (dats m 0 c).after 5 t = iblk m c 5 t := by dsimp only [dats]
theorem after_6 (c : Dev nD) (t : Fin cfg0.N) : (dats m 0 c).after 6 t = f6 m c t any6 := by dsimp only [dats]
theorem after_7 (c : Dev nD) (t : Fin cfg0.N) : (dats m 0 c).after 7 t = o7 m c t := by dsimp only [dats]

end Cert.KernelIdeal.Hand

end
-- ==== Proof.BodyRun.lean ====
/-
  The kernel body run on any nine whole buffers: if the seven input buffers hold x0 … x6, the body terminates,
  faults nowhere, leaves them as they were, leaves the output buffer at the one function `outBlk` of them, and
  leaves the accumulator at something.
-/
import proofs.«407871_j82128364634479_3_alg».proof.Proof.OutBlk
import proofs.«407871_j82128364634479_3_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem sound_kernel (c : Dev nD) (E : Set ℕ) (i : grid0.Coords)
    (arg1 : Memref sig .tc .vmem S64x4096 .bf16) (harg1 : arg1.IsWhole) (arg2 : Memref sig .tc .vmem S64x32 .f32) (harg2 : arg2.IsWhole)
    (arg3 : Memref sig .tc .vmem S512x512 .i32) (harg3 : arg3.IsWhole) (arg4 : Memref sig .tc .vmem S32x512 .bf16) (harg4 : arg4.IsWhole)
    (arg5 : Memref sig .tc .vmem S32x512 .f32) (harg5 : arg5.IsWhole) (arg6 : Memref sig .tc .vmem S64x16 .bf16) (harg6 : arg6.IsWhole)
    (arg7 : Memref sig .tc .vmem S16x512 .bf16) (harg7 : arg7.IsWhole) (arg8 : Memref sig .tc .vmem S64x512 .f32) (harg8 : arg8.IsWhole)
    (arg9 : Memref sig .tc .vmem S64x512 .f32) (harg9 : arg9.IsWhole)
    (x0 : Vec F S64x4096 .bf16) (x1 : Vec F S64x32 .f32) (x2 : Vec F S512x512 .i32) (x3 : Vec F S32x512 .bf16)
    (x4 : Vec F S32x512 .f32) (x5 : Vec F S64x16 .bf16) (x6 : Vec F S16x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)
            ∗ (∃ d, owns (c : Thread nD τ) arg9 fullShare d)) -∗ K ⟨⟩))
      ⊢ wp frame (wpE (defs₀ (F := F)) Variants.none c none) E
          (cc0__dequant_matmul_lora_kernel i arg1 harg1 arg2 harg2 arg3 harg3 arg4 harg4 arg5 harg5 arg6 harg6 arg7 harg7 arg8 harg8 arg9 harg9) K := by
  -- The body is its skeleton: three calls and a tail of three loads and one store, over the named payloads.
  simp only [cc0__dequant_matmul_lora_kernel_eq_skeleton]; unfold cc0__dequant_matmul_lora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  -- Run the three parts and the tail: every load is in bounds of a buffer that is owned, every store is to the
  -- whole of the accumulator or of the output block.
  sl_exec
  sl_step
  iapply Hk
  -- The seven input buffers were only read: each is handed back at the contents it came with.
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · -- The output block holds one write, through the whole-block rectangle: it reads as that write's payload.
    iexists _; isplitr
    swap; · iexact H7
    ipureintro
    have hz : (![0, 0] : Fin 2 → Nat) = fun _ => 0 := by funext a; fin_cases a <;> rfl
    rw [View.read_writes_eq_canon _ _ _
        (fun y => ⟨_, List.mem_singleton_self _, View.mem_set_unit_zero hz inb_S64x512_S64x512_0_0 y⟩),
      View.canon_unit_zero hz]
    -- The payload names what was read from the accumulator along the way. Each such read goes through the very
    -- rectangle the store before it wrote through, so it is that store's payload whatever lay underneath; and a
    -- read of an input buffer is the rectangle's cut of its contents. What is left is `outBlk` spelt out.
    sl_unfold_words
    simp only [View.readCov_cons_toLoadRect, View.readAt_eq_ld]
    rfl
  · -- The accumulator is handed back at whatever its five writes left.
    iexists _, _; isplitr
    swap; · iexact H8
    ipureintro; rfl

end Cert.KernelIdeal.Hand

end
-- ==== Proof.Spec.lean ====
/-
  The two results as functions of the argument arrays, entry by entry.

  An int4 weight matrix is packed eight nibbles to a 32-bit word along the input axis; its zero points are
  packed eight to a word along the output axis and carry an offset of one; one scale and one zero point serve
  a group of 128 consecutive input rows. The dequantised weight at (i, j) is s[i/128, j] · (w[i, j] − z[i/128, j]).
  The result adds to x · W a rank-16 correction (x · Aᵀ) · Bᵀ scaled by two.

  One side multiplies out: it sums x · (w · s) over four stretches of 1024 input rows and takes off, group by
  group, (the group's sum of x) · (s · z). The other keeps s · (w − z) under one sum. Over finite reals the two
  agree; the correction term is the same expression on both sides.
-/
import Idealize.ShloMosaic.PureOps.Ideal
import Idealize.ShloMosaic.Lib.ValueIdx

noncomputable section

open scoped BigOperators

namespace Cert.Spec

open Idealize.ShloMosaic Idealize.ShloMosaic.ValueIdx

/-! ## Nibbles of a word -/

/-- The shift amount of nibble `b`: the word `b · 4`. -/
def shAmt (b : Fin 8) : BitVec 32 := IntOp.muli (BitVec.ofNat 32 b.val) 4#32

/-- Nibble `b` of a word, as a word: the word shifted right arithmetically by `4 b`, masked to four bits. -/
def nibW (w : BitVec 32) (b : Fin 8) : BitVec 32 := IntOp.andi (IntOp.shrsi .host w (shAmt b)) 15#32

/-- Nibble `b` of a word as a real number (the masked word read signed). -/
def nib (w : BitVec 32) (b : Fin 8) : EReal := (((nibW w b).toInt : ℝ) : EReal)

/-- A zero point: the nibble plus one, as a real number. -/
def zp (w : BitVec 32) (b : Fin 8) : EReal := (((IntOp.addi (nibW w b) 1#32).toInt : ℝ) : EReal)

/-- The scale of the rank-16 correction: the float 2.0. -/
def two : EReal := Ideal.ofBits .f32 0x40000000#32

/-! ## Index arithmetic along the input axis (4096 rows) and the output axis (11008 columns) -/

/-- The packed row that holds input row `i`. -/
def div8 (i : Fin 4096) : Fin 512 := ⟨i.val / 8, by have := i.isLt; omega⟩
/-- Which nibble of that word. -/
def mod8 (i : Fin 4096) : Fin 8 := ⟨i.val % 8, by omega⟩
/-- The group of 128 rows that input row `i` lies in. -/
def grp (i : Fin 4096) : Fin 32 := ⟨i.val / 128, by have := i.isLt; omega⟩
/-- Row `r` of stretch `c` of 1024 rows. -/
def chunkIdx (c : Fin 4) (r : Fin 1024) : Fin 4096 := ⟨1024 * c.val + r.val, by have := c.isLt; have := r.isLt; omega⟩
/-- Row `i` of group `g`. -/
def grpIdx (g : Fin 32) (i : Fin 128) : Fin 4096 := ⟨128 * g.val + i.val, by have := g.isLt; have := i.isLt; omega⟩
/-- The packed column that holds the zero point of output column `j`. -/
def cdiv8 (j : Fin 11008) : Fin 1376 := ⟨j.val / 8, by have := j.isLt; omega⟩
/-- Which nibble of that word. -/
def cmod8 (j : Fin 11008) : Fin 8 := ⟨j.val % 8, by omega⟩

/-! ## One entry of the result, from one row of x and one column of everything else -/

/-- The dequantise-then-multiply form: Σᵢ xᵢ · (s_g(i) · (wᵢ − z_g(i))), plus the correction. -/
def refEntry (xr : Fin 4096 → EReal) (qcol : Fin 512 → BitVec 32) (scol zcol : Fin 32 → EReal)
    (ar : Fin 16 → Fin 4096 → EReal) (bcol : Fin 16 → EReal) : EReal :=
  (∑ i : Fin 4096, xr i * (scol (grp i) * (nib (qcol (div8 i)) (mod8 i) - zcol (grp i))))
    + (∑ r : Fin 16, (∑ i : Fin 4096, xr i * ar r i) * bcol r) * two

/-- One stretch's part of x · (w · s). -/
def chunkSum (xr : Fin 4096 → EReal) (qcol : Fin 512 → BitVec 32) (scol : Fin 32 → EReal) (c : Fin 4) : EReal :=
  ∑ r : Fin 1024, xr (chunkIdx c r)
    * (nib (qcol (div8 (chunkIdx c r))) (mod8 (chunkIdx c r)) * scol (grp (chunkIdx c r)))

/-- The multiplied-out form, from the quantities it is handed: the row of x, its group sums `xg`, the column's
    words, scales and products s · z, the row of x · Aᵀ and the column of Bᵀ. -/
def kerEntry (xr : Fin 4096 → EReal) (xg : Fin 32 → EReal) (qcol : Fin 512 → BitVec 32)
    (scol szcol : Fin 32 → EReal) (xa : Fin 16 → EReal) (bcol : Fin 16 → EReal) : EReal :=
  (((((0 + chunkSum xr qcol scol 0) + chunkSum xr qcol scol 1) + chunkSum xr qcol scol 2) + chunkSum xr qcol scol 3)
      - ∑ g : Fin 32, xg g * szcol g)
    + (∑ r : Fin 16, xa r * bcol r) * two

/-- The group sums of a row of x. -/
def xgOf (xr : Fin 4096 → EReal) (g : Fin 32) : EReal := ∑ i : Fin 128, xr (grpIdx g i)

/-- The multiplied-out form from the arguments alone. -/
def kerEntryFull (xr : Fin 4096 → EReal) (qcol : Fin 512 → BitVec 32) (scol zcol : Fin 32 → EReal)
    (ar : Fin 16 → Fin 4096 → EReal) (bcol : Fin 16 → EReal) : EReal :=
  kerEntry xr (xgOf xr) qcol scol (fun g => scol g * zcol g) (fun r => ∑ i : Fin 4096, xr i * ar r i) bcol

/-! ## The whole result arrays -/

/-- A matrix shape. -/
abbrev Sh (a b : Nat) : Shape := ⟨2, ![a, b]⟩

/-- Row `p` of a matrix. -/
def rowOf {α : Type} {a b : Nat} (X : (Sh a b).Idx → α) (p : Fin a) : Fin b → α := fun i => X (ix2 p i)
/-- Column `q` of a matrix. -/
def colOf {α : Type} {a b : Nat} (X : (Sh a b).Idx → α) (q : Fin b) : Fin a → α := fun i => X (ix2 i q)

/-- The zero points of output column `j`, group by group. -/
def zcolOf (QZ : (Sh 32 1376).Idx → BitVec 32) (j : Fin 11008) : Fin 32 → EReal :=
  fun g => zp (QZ (ix2 g (cdiv8 j))) (cmod8 j)

/-- The dequantise-then-multiply result. -/
def refOut (X : (Sh 64 4096).Idx → EReal) (QW : (Sh 512 11008).Idx → BitVec 32) (QZ : (Sh 32 1376).Idx → BitVec 32)
    (SC : (Sh 32 11008).Idx → EReal) (A : (Sh 16 4096).Idx → EReal) (B : (Sh 11008 16).Idx → EReal) :
    (Sh 64 11008).Idx → EReal :=
  fun j => refEntry (rowOf X (j 0)) (colOf QW (j 1)) (colOf SC (j 1)) (zcolOf QZ (j 1))
    (fun r => rowOf A r) (rowOf B (j 1))

/-- The multiplied-out result. -/
def kerOut (X : (Sh 64 4096).Idx → EReal) (QW : (Sh 512 11008).Idx → BitVec 32) (QZ : (Sh 32 1376).Idx → BitVec 32)
    (SC : (Sh 32 11008).Idx → EReal) (A : (Sh 16 4096).Idx → EReal) (B : (Sh 11008 16).Idx → EReal) :
    (Sh 64 11008).Idx → EReal :=
  fun j => kerEntryFull (rowOf X (j 0)) (colOf QW (j 1)) (colOf SC (j 1)) (zcolOf QZ (j 1))
    (fun r => rowOf A r) (rowOf B (j 1))

end Cert.Spec

end
-- ==== Proof.Payload.lean ====
/-
  The output block read at one entry, at the ideal instance: entry (p, q) is the multiplied-out form of row p of the
  x block and of its group sums and of x · Aᵀ, and of column q of every other block — nothing of any other column.
-/
import proofs.«407871_j82128364634479_3_alg».proof.Proof.OutBlk
import proofs.«407871_j82128364634479_3_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx Idealize.SL.Sem

/-! ## Layout operations of the unpacking, read at coordinates -/

section Layout
variable {α : Type}

/-- An `[a, b, c]` array viewed `[n, c]` with `n = a · b` reads, at row `r = k0 · b + k1`, the operand at `(k0, k1)`. -/
private theorem shapeCast_abc_nc_apply {a b c n : ℕ} (Y : (⟨3, ![a, b, c]⟩ : Shape).Idx → α)
    (h : (⟨3, ![a, b, c]⟩ : Shape).ShapeCasts ⟨2, ![n, c]⟩) (r : Fin n) (q : Fin c) (k0 : Fin a) (k1 : Fin b)
    (hk : k0.val * b + k1.val = r.val) : shapeCast ⟨2, ![n, c]⟩ Y h (ix2 r q) = Y (ix3 k0 k1 q) :=
  shapeCast_apply Y h _ _ (by
    rw [Shape.rowMajor_val_three, Shape.rowMajor_val_two]
    show (k0.val * b + k1.val) * c + q.val = r.val * c + q.val
    rw [hk])

/-- An `[n, c]` array viewed `[a, b, c]` with `n = a · b` reads, at `(k0, k1)`, the operand's row `k0 · b + k1`. -/
private theorem shapeCast_nc_abc_apply {a b c n : ℕ} (X : (⟨2, ![n, c]⟩ : Shape).Idx → α)
    (h : (⟨2, ![n, c]⟩ : Shape).ShapeCasts ⟨3, ![a, b, c]⟩) (k0 : Fin a) (k1 : Fin b) (q : Fin c) (r : Fin n)
    (hk : r.val = k0.val * b + k1.val) : shapeCast ⟨3, ![a, b, c]⟩ X h (ix3 k0 k1 q) = X (ix2 r q) :=
  shapeCast_apply X h _ _ (by
    rw [Shape.rowMajor_val_three, Shape.rowMajor_val_two]
    show r.val * c + q.val = (k0.val * b + k1.val) * c + q.val
    rw [hk])

/-- An `[a, c]` array given a middle unit axis reads, at `(i, u, q)`, the operand at `(i, q)`. -/
private theorem shapeCast_ac_a1c_apply {a c : ℕ} (X : (⟨2, ![a, c]⟩ : Shape).Idx → α)
    (h : (⟨2, ![a, c]⟩ : Shape).ShapeCasts ⟨3, ![a, 1, c]⟩) (i : Fin a) (u : Fin 1) (q : Fin c) :
    shapeCast ⟨3, ![a, 1, c]⟩ X h (ix3 i u q) = X (ix2 i q) :=
  shapeCast_apply X h _ _ (by
    have hu : u.val = 0 := by omega
    rw [Shape.rowMajor_val_three, Shape.rowMajor_val_two]
    show i.val * c + q.val = (i.val * 1 + u.val) * c + q.val
    rw [hu, Nat.mul_one, Nat.add_zero])

/-- A vector `[b]` viewed `[1, b, 1]` reads, at `(u, j, w)`, the operand at `j`. -/
private theorem shapeCast_b_1b1_apply {b : ℕ} (X : (⟨1, ![b]⟩ : Shape).Idx → α)
    (h : (⟨1, ![b]⟩ : Shape).ShapeCasts ⟨3, ![1, b, 1]⟩) (u : Fin 1) (j : Fin b) (w : Fin 1) :
    shapeCast ⟨3, ![1, b, 1]⟩ X h (ix3 u j w) = X (ix1 j) :=
  shapeCast_apply X h _ _ (by
    have hu : u.val = 0 := by omega
    have hw : w.val = 0 := by omega
    rw [Shape.rowMajor_val_three, Shape.rowMajor_val_one]
    show j.val = (u.val * b + j.val) * 1 + w.val
    rw [hu, hw, Nat.zero_mul, Nat.zero_add, Nat.mul_one, Nat.add_zero])

/-- An `[a, 1, c]` array broadcast along its middle axis reads, at `(i, j, q)`, the operand at `(i, 0, q)`. -/
private theorem broadcastTo_a1c_abc_apply {a b c : ℕ} (X : (⟨3, ![a, 1, c]⟩ : Shape).Idx → α)
    (h : (⟨3, ![a, 1, c]⟩ : Shape).Broadcasts ⟨3, ![a, b, c]⟩) (i : Fin a) (j : Fin b) (q : Fin c) :
    broadcastTo ⟨3, ![a, b, c]⟩ X h (ix3 i j q) = X (ix3 i (0 : Fin 1) q) := by
  refine broadcastTo_apply X h (ix3 i j q) (ix3 i (0 : Fin 1) q) fun ax => ?_
  match ax with
  | ⟨0, _⟩ =>
    show i.val = if a = 1 then 0 else i.val
    split
    · have := i.isLt; omega
    · rfl
  | ⟨1, _⟩ => rfl
  | ⟨2, _⟩ =>
    show q.val = if c = 1 then 0 else q.val
    split
    · have := q.isLt; omega
    · rfl

/-- A `[1, b, 1]` array broadcast along its outer axes reads, at `(i, j, q)`, the operand at `(0, j, 0)`. -/
private theorem broadcastTo_1b1_abc_apply {a b c : ℕ} (X : (⟨3, ![1, b, 1]⟩ : Shape).Idx → α)
    (h : (⟨3, ![1, b, 1]⟩ : Shape).Broadcasts ⟨3, ![a, b, c]⟩) (i : Fin a) (j : Fin b) (q : Fin c) :
    broadcastTo ⟨3, ![a, b, c]⟩ X h (ix3 i j q) = X (ix3 (0 : Fin 1) j (0 : Fin 1)) := by
  refine broadcastTo_apply X h (ix3 i j q) (ix3 (0 : Fin 1) j (0 : Fin 1)) fun ax => ?_
  match ax with
  | ⟨0, _⟩ => rfl
  | ⟨1, _⟩ =>
    show j.val = if b = 1 then 0 else j.val
    split
    · have := j.isLt; omega
    · rfl
  | ⟨2, _⟩ => rfl

end Layout

/-! ## The shift amounts, and the unpacked and scaled weight tile -/

/-- The shift vector at `b` is the word `b · 4`. -/
private theorem shiftVec_apply (b : Fin 8) : k0_pay2 (ix1 b) = Cert.Spec.shAmt b := by
  unfold k0_pay2
  show IntOp.muli (shapeCast S8 (iota .tc S1x8 32 [1] iota_S1x8_d1_w32) shapeCasts_S1x8_S8 (ix1 b)) 4#32 = _
  rw [shapeCast_1a_a_apply, iota_single_apply]
  rfl

/-- THE TILE AT (r, q): 128 rows of packed words `v` unpacked to 1024 rows of nibbles (row `r` is nibble `r % 8` of packed
    row `r / 8`), each group of 128 rows scaled by its row of `s`. -/
private theorem tile_apply (v : Vec Ideal S128x512 .i32) (s : Vec Ideal S8x512 .bf16) (r : Fin 1024) (q : Fin 512) :
    k0_pay7 (F := Ideal) k0_pay2 v s (ix2 r q)
      = Cert.Spec.nib (v (ix2 (⟨r.val / 8, by have := r.isLt; omega⟩ : Fin 128) q)) ⟨r.val % 8, by omega⟩
          * s (ix2 (⟨r.val / 128, by have := r.isLt; omega⟩ : Fin 8) q) := by
  have hr := r.isLt
  unfold k0_pay7
  refine (shapeCast_abc_nc_apply _ _ r q (⟨r.val / 128, by omega⟩ : Fin 8) (⟨r.val % 128, by omega⟩ : Fin 128)
    (by show r.val / 128 * 128 + r.val % 128 = r.val; omega)).trans ?_
  refine (mulf_apply _ _ _).trans ?_
  refine congrArg₂ (· * ·) ?_ ?_
  · refine (shapeCast_nc_abc_apply _ _ _ _ q r (by show r.val = r.val / 128 * 128 + r.val % 128; omega)).trans ?_
    refine (shapeCast_abc_nc_apply _ _ r q (⟨r.val / 8, by omega⟩ : Fin 128) (⟨r.val % 8, by omega⟩ : Fin 8)
      (by show r.val / 8 * 8 + r.val % 8 = r.val; omega)).trans ?_
    refine (sitofp_apply _ _).trans ?_
    show FloatOps.sitofp (F := Ideal) .bf16 (IntOp.andi (IntOp.shrsi .vector
        (broadcastTo S128x8x512 (shapeCast S128x1x512 v shapeCasts_S128x512_S128x1x512) broadcasts_S128x1x512_S128x8x512
          (ix3 (⟨r.val / 8, by omega⟩ : Fin 128) (⟨r.val % 8, by omega⟩ : Fin 8) q))
        (broadcastTo S128x8x512 (shapeCast S1x8x1 k0_pay2 shapeCasts_S8_S1x8x1) broadcasts_S1x8x1_S128x8x512
          (ix3 (⟨r.val / 8, by omega⟩ : Fin 128) (⟨r.val % 8, by omega⟩ : Fin 8) q))) 15#32) = _
    rw [broadcastTo_a1c_abc_apply, shapeCast_ac_a1c_apply, broadcastTo_1b1_abc_apply, shapeCast_b_1b1_apply,
      shiftVec_apply, shrsi_unit .vector .host]
    rfl
  · refine (broadcastTo_a1c_abc_apply _ _ _ _ _).trans ?_
    refine (shapeCast_ac_a1c_apply _ _ _ _ _).trans ?_
    rw [shapeCast_self]

/-! ## The three products read at an entry -/

/-- The left operand's index of the `[64, 1024] · [1024, 512]` product, on its row axis: the output row. -/
private theorem lhs_w_0 (i : S64x512.Idx) (k : dot_S64x1024_S1024x512_S64x512_1_0_0_1_n_n.contr.Idx) :
    (dot_S64x1024_S1024x512_S64x512_1_0_0_1_n_n.lhsIdx i k 0).val = (i 0).val := by
  unfold DotDims.lhsIdx
  rw [dif_neg (show ¬(0 : Fin S64x1024.rank) ∈ dot_S64x1024_S1024x512_S64x512_1_0_0_1_n_n.lhsBatch by decide),
    dif_pos (show (0 : Fin S64x1024.rank) ∈ dot_S64x1024_S1024x512_S64x512_1_0_0_1_n_n.lhsNonContracting by decide)]
  rfl
/-- On its column axis: the contraction position. -/
private theorem lhs_w_1 (i : S64x512.Idx) (k : dot_S64x1024_S1024x512_S64x512_1_0_0_1_n_n.contr.Idx) :
    (dot_S64x1024_S1024x512_S64x512_1_0_0_1_n_n.lhsIdx i k 1).val = (k ⟨0, by decide⟩).val :=
  dot_S64x1024_S1024x512_S64x512_1_0_0_1_n_n.lhsIdx_val_of_single rfl i k
/-- The right operand's index on its row axis: the contraction position. -/
private theorem rhs_w_0 (i : S64x512.Idx) (k : dot_S64x1024_S1024x512_S64x512_1_0_0_1_n_n.contr.Idx) :
    (dot_S64x1024_S1024x512_S64x512_1_0_0_1_n_n.rhsIdx i k 0).val = (k ⟨0, by decide⟩).val :=
  dot_S64x1024_S1024x512_S64x512_1_0_0_1_n_n.rhsIdx_val_of_single rfl i k
/-- On its column axis: the output column. -/
private theorem rhs_w_1 (i : S64x512.Idx) (k : dot_S64x1024_S1024x512_S64x512_1_0_0_1_n_n.contr.Idx) :
    (dot_S64x1024_S1024x512_S64x512_1_0_0_1_n_n.rhsIdx i k 1).val = (i 1).val := by
  unfold DotDims.rhsIdx
  rw [dif_neg (show ¬(1 : Fin S1024x512.rank) ∈ dot_S64x1024_S1024x512_S64x512_1_0_0_1_n_n.rhsBatch by decide),
    dif_pos (show (1 : Fin S1024x512.rank) ∈ dot_S64x1024_S1024x512_S64x512_1_0_0_1_n_n.rhsNonContracting by decide)]
  rfl

/-- The `[64, 1024] · [1024, 512]` product into a zero accumulator, at (p, q): Σ_k l (p, k) · r (k, q). -/
private theorem matmul_w_apply (prec : Option ContractPrecision) (l : FVec Ideal S64x1024 .bf16) (r : FVec Ideal S1024x512 .bf16)
    (p : Fin 64) (q : Fin 512) :
    matmul dot_S64x1024_S1024x512_S64x512_1_0_0_1_n_n prec l r (constant (F := Ideal) S64x512 .f32 0x00000000#32) (ix2 p q)
      = ∑ k : Fin 1024, l (ix2 p k) * r (ix2 k q) := by
  show FloatOps.matmul dot_S64x1024_S1024x512_S64x512_1_0_0_1_n_n prec l r (constant (F := Ideal) S64x512 .f32 0x00000000#32) (ix2 p q) = _
  rw [Ideal.matmul_constant_zero_apply, ← Equiv.sum_comp (contrEquiv1 dot_S64x1024_S1024x512_S64x512_1_0_0_1_n_n 1024 rfl rfl).symm]
  refine Finset.sum_congr rfl fun k _ => ?_
  have hk := contrEquiv1_symm_val dot_S64x1024_S1024x512_S64x512_1_0_0_1_n_n 1024 rfl rfl k
  have el : dot_S64x1024_S1024x512_S64x512_1_0_0_1_n_n.lhsIdx (ix2 p q) ((contrEquiv1 dot_S64x1024_S1024x512_S64x512_1_0_0_1_n_n 1024 rfl rfl).symm k) = ix2 p k :=
    funext fun a => Fin.ext (by
      match a with
      | ⟨0, _⟩ => exact lhs_w_0 _ _
      | ⟨1, _⟩ => exact (lhs_w_1 _ _).trans hk)
  have er : dot_S64x1024_S1024x512_S64x512_1_0_0_1_n_n.rhsIdx (ix2 p q) ((contrEquiv1 dot_S64x1024_S1024x512_S64x512_1_0_0_1_n_n 1024 rfl rfl).symm k) = ix2 k q :=
    funext fun a => Fin.ext (by
      match a with
      | ⟨0, _⟩ => exact (rhs_w_0 _ _).trans hk
      | ⟨1, _⟩ => exact rhs_w_1 _ _)
  rw [el, er]

/-- The left operand's index of the `[64, 32] · [32, 512]` product, on its row axis: the output row. -/
private theorem lhs_z_0 (i : S64x512.Idx) (k : dot_S64x32_S32x512_S64x512_1_0_0_1_n_n.contr.Idx) :
    (dot_S64x32_S32x512_S64x512_1_0_0_1_n_n.lhsIdx i k 0).val = (i 0).val := by
  unfold DotDims.lhsIdx
  rw [dif_neg (show ¬(0 : Fin S64x32.rank) ∈ dot_S64x32_S32x512_S64x512_1_0_0_1_n_n.lhsBatch by decide),
    dif_pos (show (0 : Fin S64x32.rank) ∈ dot_S64x32_S32x512_S64x512_1_0_0_1_n_n.lhsNonContracting by decide)]
  rfl
/-- On its column axis: the contraction position. -/
private theorem lhs_z_1 (i : S64x512.Idx) (k : dot_S64x32_S32x512_S64x512_1_0_0_1_n_n.contr.Idx) :
    (dot_S64x32_S32x512_S64x512_1_0_0_1_n_n.lhsIdx i k 1).val = (k ⟨0, by decide⟩).val :=
  dot_S64x32_S32x512_S64x512_1_0_0_1_n_n.lhsIdx_val_of_single rfl i k
/-- The right operand's index on its row axis: the contraction position. -/
private theorem rhs_z_0 (i : S64x512.Idx) (k : dot_S64x32_S32x512_S64x512_1_0_0_1_n_n.contr.Idx) :
    (dot_S64x32_S32x512_S64x512_1_0_0_1_n_n.rhsIdx i k 0).val = (k ⟨0, by decide⟩).val :=
  dot_S64x32_S32x512_S64x512_1_0_0_1_n_n.rhsIdx_val_of_single rfl i k
/-- On its column axis: the output column. -/
private theorem rhs_z_1 (i : S64x512.Idx) (k : dot_S64x32_S32x512_S64x512_1_0_0_1_n_n.contr.Idx) :
    (dot_S64x32_S32x512_S64x512_1_0_0_1_n_n.rhsIdx i k 1).val = (i 1).val := by
  unfold DotDims.rhsIdx
  rw [dif_neg (show ¬(1 : Fin S32x512.rank) ∈ dot_S64x32_S32x512_S64x512_1_0_0_1_n_n.rhsBatch by decide),
    dif_pos (show (1 : Fin S32x512.rank) ∈ dot_S64x32_S32x512_S64x512_1_0_0_1_n_n.rhsNonContracting by decide)]
  rfl

/-- The `[64, 32] · [32, 512]` product into a zero accumulator, at (p, q): Σ_k l (p, k) · r (k, q). -/
private theorem matmul_z_apply (prec : Option ContractPrecision) (l : FVec Ideal S64x32 .f32) (r : FVec Ideal S32x512 .f32)
    (p : Fin 64) (q : Fin 512) :
    matmul dot_S64x32_S32x512_S64x512_1_0_0_1_n_n prec l r (constant (F := Ideal) S64x512 .f32 0x00000000#32) (ix2 p q)
      = ∑ k : Fin 32, l (ix2 p k) * r (ix2 k q) := by
  show FloatOps.matmul dot_S64x32_S32x512_S64x512_1_0_0_1_n_n prec l r (constant (F := Ideal) S64x512 .f32 0x00000000#32) (ix2 p q) = _
  rw [Ideal.matmul_constant_zero_apply, ← Equiv.sum_comp (contrEquiv1 dot_S64x32_S32x512_S64x512_1_0_0_1_n_n 32 rfl rfl).symm]
  refine Finset.sum_congr rfl fun k _ => ?_
  have hk := contrEquiv1_symm_val dot_S64x32_S32x512_S64x512_1_0_0_1_n_n 32 rfl rfl k
  have el : dot_S64x32_S32x512_S64x512_1_0_0_1_n_n.lhsIdx (ix2 p q) ((contrEquiv1 dot_S64x32_S32x512_S64x512_1_0_0_1_n_n 32 rfl rfl).symm k) = ix2 p k :=
    funext fun a => Fin.ext (by
      match a with
      | ⟨0, _⟩ => exact lhs_z_0 _ _
      | ⟨1, _⟩ => exact (lhs_z_1 _ _).trans hk)
  have er : dot_S64x32_S32x512_S64x512_1_0_0_1_n_n.rhsIdx (ix2 p q) ((contrEquiv1 dot_S64x32_S32x512_S64x512_1_0_0_1_n_n 32 rfl rfl).symm k) = ix2 k q :=
    funext fun a => Fin.ext (by
      match a with
      | ⟨0, _⟩ => exact (rhs_z_0 _ _).trans hk
      | ⟨1, _⟩ => exact rhs_z_1 _ _)
  rw [el, er]

/-- The left operand's index of the `[64, 16] · [16, 512]` product, on its row axis: the output row. -/
private theorem lhs_l_0 (i : S64x512.Idx) (k : dot_S64x16_S16x512_S64x512_1_0_0_1_n_n.contr.Idx) :
    (dot_S64x16_S16x512_S64x512_1_0_0_1_n_n.lhsIdx i k 0).val = (i 0).val := by
  unfold DotDims.lhsIdx
  rw [dif_neg (show ¬(0 : Fin S64x16.rank) ∈ dot_S64x16_S16x512_S64x512_1_0_0_1_n_n.lhsBatch by decide),
    dif_pos (show (0 : Fin S64x16.rank) ∈ dot_S64x16_S16x512_S64x512_1_0_0_1_n_n.lhsNonContracting by decide)]
  rfl
/-- On its column axis: the contraction position. -/
private theorem lhs_l_1 (i : S64x512.Idx) (k : dot_S64x16_S16x512_S64x512_1_0_0_1_n_n.contr.Idx) :
    (dot_S64x16_S16x512_S64x512_1_0_0_1_n_n.lhsIdx i k 1).val = (k ⟨0, by decide⟩).val :=
  dot_S64x16_S16x512_S64x512_1_0_0_1_n_n.lhsIdx_val_of_single rfl i k
/-- The right operand's index on its row axis: the contraction position. -/
private theorem rhs_l_0 (i : S64x512.Idx) (k : dot_S64x16_S16x512_S64x512_1_0_0_1_n_n.contr.Idx) :
    (dot_S64x16_S16x512_S64x512_1_0_0_1_n_n.rhsIdx i k 0).val = (k ⟨0, by decide⟩).val :=
  dot_S64x16_S16x512_S64x512_1_0_0_1_n_n.rhsIdx_val_of_single rfl i k
/-- On its column axis: the output column. -/
private theorem rhs_l_1 (i : S64x512.Idx) (k : dot_S64x16_S16x512_S64x512_1_0_0_1_n_n.contr.Idx) :
    (dot_S64x16_S16x512_S64x512_1_0_0_1_n_n.rhsIdx i k 1).val = (i 1).val := by
  unfold DotDims.rhsIdx
  rw [dif_neg (show ¬(1 : Fin S16x512.rank) ∈ dot_S64x16_S16x512_S64x512_1_0_0_1_n_n.rhsBatch by decide),
    dif_pos (show (1 : Fin S16x512.rank) ∈ dot_S64x16_S16x512_S64x512_1_0_0_1_n_n.rhsNonContracting by decide)]
  rfl

/-- The `[64, 16] · [16, 512]` product into a zero accumulator, at (p, q): Σ_k l (p, k) · r (k, q). -/
private theorem matmul_l_apply (prec : Option ContractPrecision) (l : FVec Ideal S64x16 .bf16) (r : FVec Ideal S16x512 .bf16)
    (p : Fin 64) (q : Fin 512) :
    matmul dot_S64x16_S16x512_S64x512_1_0_0_1_n_n prec l r (constant (F := Ideal) S64x512 .f32 0x00000000#32) (ix2 p q)
      = ∑ k : Fin 16, l (ix2 p k) * r (ix2 k q) := by
  show FloatOps.matmul dot_S64x16_S16x512_S64x512_1_0_0_1_n_n prec l r (constant (F := Ideal) S64x512 .f32 0x00000000#32) (ix2 p q) = _
  rw [Ideal.matmul_constant_zero_apply, ← Equiv.sum_comp (contrEquiv1 dot_S64x16_S16x512_S64x512_1_0_0_1_n_n 16 rfl rfl).symm]
  refine Finset.sum_congr rfl fun k _ => ?_
  have hk := contrEquiv1_symm_val dot_S64x16_S16x512_S64x512_1_0_0_1_n_n 16 rfl rfl k
  have el : dot_S64x16_S16x512_S64x512_1_0_0_1_n_n.lhsIdx (ix2 p q) ((contrEquiv1 dot_S64x16_S16x512_S64x512_1_0_0_1_n_n 16 rfl rfl).symm k) = ix2 p k :=
    funext fun a => Fin.ext (by
      match a with
      | ⟨0, _⟩ => exact lhs_l_0 _ _
      | ⟨1, _⟩ => exact (lhs_l_1 _ _).trans hk)
  have er : dot_S64x16_S16x512_S64x512_1_0_0_1_n_n.rhsIdx (ix2 p q) ((contrEquiv1 dot_S64x16_S16x512_S64x512_1_0_0_1_n_n 16 rfl rfl).symm k) = ix2 k q :=
    funext fun a => Fin.ext (by
      match a with
      | ⟨0, _⟩ => exact (rhs_l_0 _ _).trans hk
      | ⟨1, _⟩ => exact rhs_l_1 _ _)
  rw [el, er]

/-! ## A load through a rectangle of unit strides, read at coordinates -/

/-- A load of an `[m0, m1]` stretch from offsets `(o0, o1)` reads, at `(a, b)`, the block at `(o0 + a, o1 + b)`. -/
private theorem ld_ix2 {e : EltTy} {n0 n1 m0 m1 : ℕ} (X : Vec Ideal ⟨2, ![n0, n1]⟩ e) (o0 o1 : ℕ)
    (inb : ∀ a, (![o0, o1] : Fin 2 → ℕ) a + (⟨2, ![m0, m1]⟩ : Shape).size a ≤ (⟨2, ![n0, n1]⟩ : Shape).size a)
    (a : Fin m0) (b : Fin m1) (a' : Fin n0) (b' : Fin n1) (ha : a'.val = o0 + a.val) (hb : b'.val = o1 + b.val) :
    View.ld X (Rect.unit (s := ⟨2, ![n0, n1]⟩) ![o0, o1] (⟨2, ![m0, m1]⟩ : Shape).size inb) (ix2 a b) = X (ix2 a' b') :=
  congrArg X (funext fun ax => Fin.ext (by
    match ax with
    | ⟨0, _⟩ => show o0 + 1 * a.val = a'.val; omega
    | ⟨1, _⟩ => show o1 + 1 * b.val = b'.val; omega))

/-! ## The payloads read at an entry -/

/-- One accumulation step at (p, q): the accumulator there plus the product's entry. -/
private theorem accStep_apply (acc : FVec Ideal S64x512 .f32) (xs : FVec Ideal S64x1024 .bf16) (W : FVec Ideal S1024x512 .bf16)
    (p : Fin 64) (q : Fin 512) :
    shapeCast S64x512 (addf acc (matmul dot_S64x1024_S1024x512_S64x512_1_0_0_1_n_n none
        (shapeCast S64x1024 xs shapeCasts_S64x1024_S64x1024) W (constant (F := Ideal) S64x512 .f32 0x00000000#32)))
      shapeCasts_S64x512_S64x512 (ix2 p q) = acc (ix2 p q) + ∑ k : Fin 1024, xs (ix2 p k) * W (ix2 k q) := by
  rw [shapeCast_self, shapeCast_self]
  refine (addf_apply _ _ _).trans ?_
  rw [matmul_w_apply]

/-- The cleared accumulator is zero everywhere. -/
private theorem pay3_apply (p : Fin 64) (q : Fin 512) : k0_pay3 (F := Ideal) (ix2 p q) = 0 := by
  unfold k0_pay3
  rw [shapeCast_self]
  exact Ideal.ofBits_zero_f32

/-- The first stretch's step. -/
private theorem pay4_apply (v8 : Vec Ideal S128x512 .i32) (v18 : Vec Ideal S8x512 .bf16) (v25 : Vec Ideal S64x1024 .bf16)
    (v27 : Vec Ideal S64x512 .f32) (p : Fin 64) (q : Fin 512) :
    k0_pay4 v8 v18 v25 v27 (ix2 p q)
      = v27 (ix2 p q) + ∑ k : Fin 1024, v25 (ix2 p k) * k0_pay7 (F := Ideal) k0_pay2 v8 v18 (ix2 k q) :=
  accStep_apply v27 v25 (k0_pay7 (F := Ideal) k0_pay2 v8 v18) p q

/-- The second stretch's step, its shifted words computed ahead. -/
private theorem pay6_apply (v33 : Vec Ideal S128x512 .i32) (v43 : Vec Ideal S8x512 .bf16) (v50 : Vec Ideal S64x1024 .bf16)
    (v52 : Vec Ideal S64x512 .f32) (p : Fin 64) (q : Fin 512) :
    k0_pay6 (k0_pay5 (F := Ideal) v33) v43 v50 v52 (ix2 p q)
      = v52 (ix2 p q) + ∑ k : Fin 1024, v50 (ix2 p k) * k0_pay7 (F := Ideal) k0_pay2 v33 v43 (ix2 k q) :=
  accStep_apply v52 v50 (k0_pay7 (F := Ideal) k0_pay2 v33 v43) p q

/-- The third stretch's step, its tile computed ahead. -/
private theorem pay9_apply (W : FVec Ideal S1024x512 .bf16) (v75 : Vec Ideal S64x1024 .bf16) (v77 : Vec Ideal S64x512 .f32)
    (p : Fin 64) (q : Fin 512) :
    k0_pay9 W (k0_pay8 v75) v77 (constant (F := Ideal) S64x512 .f32 0x00000000#32) (ix2 p q)
      = v77 (ix2 p q) + ∑ k : Fin 1024, v75 (ix2 p k) * W (ix2 k q) :=
  accStep_apply v77 v75 W p q

/-- The fourth stretch's step. -/
private theorem pay10_apply (v3 : IVec S8 32) (v83 : Vec Ideal S128x512 .i32) (v93 : Vec Ideal S8x512 .bf16)
    (v100 : Vec Ideal S64x1024 .bf16) (v102 : Vec Ideal S64x512 .f32) (p : Fin 64) (q : Fin 512) :
    k0_pay10 v3 v83 v93 v100 v102 (ix2 p q)
      = v102 (ix2 p q) + ∑ k : Fin 1024, v100 (ix2 p k) * k0_pay7 (F := Ideal) v3 v83 v93 (ix2 k q) :=
  accStep_apply v102 v100 (k0_pay7 (F := Ideal) v3 v83 v93) p q

/-- The zero-point term taken off. -/
private theorem pay11_apply (v108 : Vec Ideal S64x32 .f32) (v110 : Vec Ideal S32x512 .f32) (v113 : Vec Ideal S64x512 .f32)
    (p : Fin 64) (q : Fin 512) :
    k0_pay11 v108 v110 v113 (ix2 p q) = v113 (ix2 p q) - ∑ g : Fin 32, v108 (ix2 p g) * v110 (ix2 g q) := by
  unfold k0_pay11
  refine (subf_apply _ _ _).trans ?_
  rw [shapeCast_self, shapeCast_self, matmul_z_apply]

/-- The rank-16 term added, scaled by two. -/
private theorem pay1_apply (v114 : FVec Ideal S64x512 .f32) (v115 : Vec Ideal S64x16 .bf16) (v117 : Vec Ideal S16x512 .bf16)
    (p : Fin 64) (q : Fin 512) :
    k0_pay1 v114 v115 v117 (ix2 p q)
      = v114 (ix2 p q) + (∑ r : Fin 16, v115 (ix2 p r) * v117 (ix2 r q)) * Cert.Spec.two := by
  unfold k0_pay1
  refine (addf_apply _ _ _).trans ?_
  refine congrArg₂ (· + ·) rfl ?_
  refine (mulf_apply _ _ _).trans ?_
  rw [shapeCast_self, shapeCast_self, matmul_l_apply]
  rfl

/-! ## One stretch's product is that stretch's part of x · (w · s) -/

/-- Stretch `c`: columns `1024 c + k` of x against the tile unpacked from packed rows `128 c + n` and scale rows `8 c + g`. -/
private theorem stretch_apply (x0 : Vec Ideal S64x4096 .bf16) (x2 : Vec Ideal S512x512 .i32) (x3 : Vec Ideal S32x512 .bf16)
    (c : Fin 4) (oQ oS oX : ℕ) (hQ : oQ = 128 * c.val) (hS : oS = 8 * c.val) (hX : oX = 1024 * c.val)
    (inbQ : ∀ a, (![oQ, 0] : Fin 2 → ℕ) a + S128x512.size a ≤ S512x512.size a)
    (inbS : ∀ a, (![oS, 0] : Fin 2 → ℕ) a + S8x512.size a ≤ S32x512.size a)
    (inbX : ∀ a, (![0, oX] : Fin 2 → ℕ) a + S64x1024.size a ≤ S64x4096.size a) (p : Fin 64) (q : Fin 512) :
    (∑ k : Fin 1024, View.ld x0 (Rect.unit (s := S64x4096) ![0, oX] S64x1024.size inbX) (ix2 p k)
        * k0_pay7 (F := Ideal) k0_pay2 (View.ld x2 (Rect.unit (s := S512x512) ![oQ, 0] S128x512.size inbQ))
            (View.ld x3 (Rect.unit (s := S32x512) ![oS, 0] S8x512.size inbS)) (ix2 k q))
      = Cert.Spec.chunkSum (fun i : Fin 4096 => x0 (ix2 p i)) (fun n : Fin 512 => x2 (ix2 n q))
          (fun g : Fin 32 => x3 (ix2 g q)) c := by
  unfold Cert.Spec.chunkSum
  refine Finset.sum_congr rfl fun r _ => ?_
  have hc := c.isLt
  have hr := r.isLt
  have hm : Cert.Spec.mod8 (Cert.Spec.chunkIdx c r) = (⟨r.val % 8, by omega⟩ : Fin 8) :=
    Fin.ext (by show (1024 * c.val + r.val) % 8 = r.val % 8; omega)
  refine congrArg₂ (· * ·)
    (ld_ix2 x0 0 oX inbX p r p (Cert.Spec.chunkIdx c r) (by omega)
      (by show 1024 * c.val + r.val = oX + r.val; omega))
    ((tile_apply _ _ r q).trans ?_)
  rw [hm]
  refine congrArg₂ (· * ·) (congrArg (fun w => Cert.Spec.nib w _) ?_) ?_
  · exact ld_ix2 x2 oQ 0 inbQ _ q (Cert.Spec.div8 (Cert.Spec.chunkIdx c r)) q
      (by show (1024 * c.val + r.val) / 8 = oQ + r.val / 8; omega) (by omega)
  · exact ld_ix2 x3 oS 0 inbS _ q (Cert.Spec.grp (Cert.Spec.chunkIdx c r)) q
      (by show (1024 * c.val + r.val) / 128 = oS + r.val / 128; omega) (by omega)
/-- THE OUTPUT BLOCK AT (p, q). -/
theorem outBlk_apply (x0 : Vec Ideal S64x4096 .bf16) (x1 : Vec Ideal S64x32 .f32) (x2 : Vec Ideal S512x512 .i32)
    (x3 : Vec Ideal S32x512 .bf16) (x4 : Vec Ideal S32x512 .f32) (x5 : Vec Ideal S64x16 .bf16) (x6 : Vec Ideal S16x512 .bf16)
    (p : Fin 64) (q : Fin 512) :
    outBlk (F := Ideal) x0 x1 x2 x3 x4 x5 x6 (ix2 p q)
      = Cert.Spec.kerEntry (fun i : Fin 4096 => x0 (ix2 p i)) (fun g : Fin 32 => x1 (ix2 p g)) (fun n : Fin 512 => x2 (ix2 n q))
          (fun g : Fin 32 => x3 (ix2 g q)) (fun g : Fin 32 => x4 (ix2 g q)) (fun r : Fin 16 => x5 (ix2 p r)) (fun r : Fin 16 => x6 (ix2 r q)) := by
  have hz : (![0, 0] : Fin 2 → ℕ) = fun _ => 0 :=
    funext fun a => by match a with | ⟨0, _⟩ => rfl | ⟨1, _⟩ => rfl
  have e1 : View.ld x1 rXg = x1 := View.ld_unit_zero hz inb_S64x32_S64x32_0_0 x1
  have e4 : View.ld x4 rSz = x4 := View.ld_unit_zero hz inb_S32x512_S32x512_0_0 x4
  have e5 : View.ld x5 rXa = x5 := View.ld_unit_zero hz inb_S64x16_S64x16_0_0 x5
  have e6 : View.ld x6 rB = x6 := View.ld_unit_zero hz inb_S16x512_S16x512_0_0 x6
  unfold outBlk
  rw [pay1_apply, pay11_apply, e1, e4, e5, e6]
  unfold acc4
  rw [pay10_apply]
  unfold acc3
  rw [pay9_apply]
  unfold acc2
  rw [pay6_apply]
  unfold acc1
  rw [pay4_apply, pay3_apply]
  rw [stretch_apply x0 x2 x3 0 0 0 0 rfl rfl rfl, stretch_apply x0 x2 x3 1 128 8 1024 rfl rfl rfl,
    stretch_apply x0 x2 x3 2 256 16 2048 rfl rfl rfl, stretch_apply x0 x2 x3 3 384 24 3072 rfl rfl rfl]
  rfl

end Cert.KernelIdeal.Hand

end
-- ==== Proof.FrameIdeal.lean ====
/-
  The frame run of the idealized kernel program, with the proof data that names what the output array ends holding.

  At every point the body finds the whole of x, of its group sums and of x · Aᵀ in their buffers (fetched once), the
  point's blocks of the weights, scales, s · z and Bᵀ just fetched (their columns past the arrays' end at words nothing
  names), the output buffer and the accumulator at anything. It leaves the inputs as they were and the output buffer
  at one function of them, `outBlk`. Entry (p, q) of that function reads column q of the moving blocks only, so on the
  columns inside the array it is the same function whatever the other columns hold: that is all the cut write-back
  moves, and all the obligation of a cut window states.
-/
import proofs.«407871_j82128364634479_3_alg».proof.Proof.Dats
import proofs.«407871_j82128364634479_3_alg».proof.Proof.BodyRun
import proofs.«407871_j82128364634479_3_alg».proof.Proof.Payload
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (BodyObligationLoose)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The invariant: the accumulator at anything, the generator register at anything -/

/-- The accumulator, a whole scoped buffer of the kernel's own. -/
abbrev scM : Memref sig .tc .vmem S64x512 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the body finds in each buffer -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_5 (c : Dev nD) (t : Fin cfg0.N) (d) : (dats m 0 c).before 5 t d = iblk m c 5 t :=
  before0_5_of m (dats m 0 c) (A_eq m c 5) (after_5 m c) t d

/-- A moving input is fetched at every point: its buffer holds the block's part inside the array, the rest at `d`. -/
theorem before_2 (c : Dev nD) (t : Fin cfg0.N) (d) : (dats m 0 c).before 2 t d = f2 m c t d := by
  unfold Dat.before; rw [if_pos (fetch0_2 t)]; rfl
theorem before_3 (c : Dev nD) (t : Fin cfg0.N) (d) : (dats m 0 c).before 3 t d = f3 m c t d := by
  unfold Dat.before; rw [if_pos (fetch0_3 t)]; rfl
theorem before_4 (c : Dev nD) (t : Fin cfg0.N) (d) : (dats m 0 c).before 4 t d = f4 m c t d := by
  unfold Dat.before; rw [if_pos (fetch0_4 t)]; rfl
theorem before_6 (c : Dev nD) (t : Fin cfg0.N) (d) : (dats m 0 c).before 6 t d = f6 m c t d := by
  unfold Dat.before; rw [if_pos (fetch0_6 t)]; rfl

/-- The output window is never fetched, -/
theorem fetch0_7 : ∀ t : Fin cfg0.N, (cfg0.win 7).fetch t = false :=
  (by decide +kernel : ∀ t : Fin grid0.N, win0_7.fetch t = false)

/-- and is written back at every point: its buffer holds nothing the data names. -/
theorem before_7 (c : Dev nD) (t : Fin cfg0.N) (d) : (dats m 0 c).before 7 t d = d := by
  unfold Dat.before
  rw [if_neg (by rw [fetch0_7 t]; exact Bool.false_ne_true)]
  split
  · rfl
  · exact if_pos (flush0_7 _)

/-! ## The part of the output block inside the array does not depend on the columns past the arrays' end -/

/-- The moving windows are cut alike: rows never, columns as the output's. -/
theorem xsize_facts : ∀ t : Fin cfg0.N,
    win0_2.xsize (grid0.coords t) 0 = 512 ∧ win0_2.xsize (grid0.coords t) 1 = win0_7.xsize (grid0.coords t) 1
    ∧ win0_3.xsize (grid0.coords t) 0 = 32 ∧ win0_3.xsize (grid0.coords t) 1 = win0_7.xsize (grid0.coords t) 1
    ∧ win0_4.xsize (grid0.coords t) 0 = 32 ∧ win0_4.xsize (grid0.coords t) 1 = win0_7.xsize (grid0.coords t) 1
    ∧ win0_6.xsize (grid0.coords t) 0 = 16 ∧ win0_6.xsize (grid0.coords t) 1 = win0_7.xsize (grid0.coords t) 1 :=
  (by decide +kernel : ∀ t : Fin grid0.N, _)

/-- A filled block read where the transfer moved it does not see the filler. -/
theorem fill_indep {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

theorem cut_outBlk (c : Dev nD) (t : Fin cfg0.N) (d2 : Vec Ideal S512x512 .i32) (d3 : Vec Ideal S32x512 .bf16)
    (d4 : Vec Ideal S32x512 .f32) (d6 : Vec Ideal S16x512 .bf16) :
    win0_7.cut (grid0.coords t)
        (outBlk (F := Ideal) (b0 m c t) (b1 m c t) (f2 m c t d2) (f3 m c t d3) (f4 m c t d4) (b5 m c t) (f6 m c t d6))
      = win0_7.cut (grid0.coords t) (o7 m c t) := by
  funext j
  obtain ⟨h20, h21, h30, h31, h40, h41, h60, h61⟩ := xsize_facts t
  have hq : ((win0_7.xinj (grid0.coords t) j) 1).val < win0_7.xsize (grid0.coords t) 1 := (j 1).isLt
  obtain ⟨p, q, hpq⟩ : ∃ (p : Fin 64) (q : Fin 512), win0_7.xinj (grid0.coords t) j = ix2 p q :=
    ⟨_, _, eq_ix2 (n0 := 64) (n1 := 512) _⟩
  show outBlk (F := Ideal) _ _ _ _ _ _ _ (win0_7.xinj (grid0.coords t) j) = outBlk (F := Ideal) _ _ _ _ _ _ _ (win0_7.xinj (grid0.coords t) j)
  rw [hpq] at hq ⊢
  have hq' : q.val < win0_7.xsize (grid0.coords t) 1 := hq
  rw [outBlk_apply, outBlk_apply]
  have e2 : (fun n : Fin 512 => f2 m c t d2 (ix2 n q)) = fun n : Fin 512 => f2 m c t anyI (ix2 n q) := funext fun n =>
    fill_indep win0_2 _ _ _ _ _ ((win0_2.moved_iff _ _).mpr fun a => by
      match a with
      | ⟨0, _⟩ => show (n : Nat) < win0_2.xsize (grid0.coords t) 0; rw [h20]; exact n.isLt
      | ⟨1, _⟩ => show (q : Nat) < win0_2.xsize (grid0.coords t) 1; rw [h21]; exact hq')
  have e3 : (fun g : Fin 32 => f3 m c t d3 (ix2 g q)) = fun g : Fin 32 => f3 m c t any3 (ix2 g q) := funext fun n =>
    fill_indep win0_3 _ _ _ _ _ ((win0_3.moved_iff _ _).mpr fun a => by
      match a with
      | ⟨0, _⟩ => show (n : Nat) < win0_3.xsize (grid0.coords t) 0; rw [h30]; exact n.isLt
      | ⟨1, _⟩ => show (q : Nat) < win0_3.xsize (grid0.coords t) 1; rw [h31]; exact hq')
  have e4 : (fun g : Fin 32 => f4 m c t d4 (ix2 g q)) = fun g : Fin 32 => f4 m c t any4 (ix2 g q) := funext fun n =>
    fill_indep win0_4 _ _ _ _ _ ((win0_4.moved_iff _ _).mpr fun a => by
      match a with
      | ⟨0, _⟩ => show (n : Nat) < win0_4.xsize (grid0.coords t) 0; rw [h40]; exact n.isLt
      | ⟨1, _⟩ => show (q : Nat) < win0_4.xsize (grid0.coords t) 1; rw [h41]; exact hq')
  have e6 : (fun r : Fin 16 => f6 m c t d6 (ix2 r q)) = fun r : Fin 16 => f6 m c t any6 (ix2 r q) := funext fun n =>
    fill_indep win0_6 _ _ _ _ _ ((win0_6.moved_iff _ _).mpr fun a => by
      match a with
      | ⟨0, _⟩ => show (n : Nat) < win0_6.xsize (grid0.coords t) 0; rw [h60]; exact n.isLt
      | ⟨1, _⟩ => show (q : Nat) < win0_6.xsize (grid0.coords t) 1; rw [h61]; exact hq')
  rw [e2, e3, e4, e6]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns: a window that is never cut at what the body leaves, a cut one at that on the part its
    transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t))))
    ∗ owns (c : Thread nD τ) (st0_5 t) fullShare ((dats m 0 c).after 5 t)
    ∗ (∃ d, owns (c : Thread nD τ) (st0_6 t) fullShare ((cfg0.win 6).fill (cfg0.grid.coords t) d ((cfg0.win 6).cut (cfg0.grid.coords t) ((dats m 0 c).after 6 t))))
    ∗ (∃ d, owns (c : Thread nD τ) (st0_7 t) fullShare ((cfg0.win 7).fill (cfg0.grid.coords t) d ((cfg0.win 7).cut (cfg0.grid.coords t) ((dats m 0 c).after 7 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7,
    show (dats m 0 c).Φ t.castSucc = Pipeline.ΦA spec0 c from rfl, PhiA_eq]
  iintro ⟨⟨⟨%ds, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel (F := Ideal) c Set.univ (grid0.coords t) _ _ _ _ _ _ _ _ _ _ _ _ _ _ _ _ _ _
    (b0 m c t) (b1 m c t) (f2 m c t d2) (f3 m c t d3) (f4 m c t d4) (b5 m c t) (f6 m c t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs]; · iexists _; iexact Hs
  iintro ⟨H0, H1, H2, H3, H4, H5, H6, H7, Hs⟩
  isplitl [Hs Hr]
  · isplitl [Hs]; · iexact Hs
    iexact Hr
  isplitl [Ho]; · iexact Ho
  isplitl [H0]; · iexact H0
  isplitl [H1]; · iexact H1
  isplitl [H2]
  · iexists d2
    rw [show (cfg0.win 2).fill (cfg0.grid.coords t) d2 ((cfg0.win 2).cut (cfg0.grid.coords t) (f2 m c t anyI)) = f2 m c t d2 from by
      unfold f2; exact congrArg _ (win0_2.cut_fill _ _ _)]
    iexact H2
  isplitl [H3]
  · iexists d3
    rw [show (cfg0.win 3).fill (cfg0.grid.coords t) d3 ((cfg0.win 3).cut (cfg0.grid.coords t) (f3 m c t any3)) = f3 m c t d3 from by
      unfold f3; exact congrArg _ (win0_3.cut_fill _ _ _)]
    iexact H3
  isplitl [H4]
  · iexists d4
    rw [show (cfg0.win 4).fill (cfg0.grid.coords t) d4 ((cfg0.win 4).cut (cfg0.grid.coords t) (f4 m c t any4)) = f4 m c t d4 from by
      unfold f4; exact congrArg _ (win0_4.cut_fill _ _ _)]
    iexact H4
  isplitl [H5]; · iexact H5
  isplitl [H6]
  · iexists d6
    rw [show (cfg0.win 6).fill (cfg0.grid.coords t) d6 ((cfg0.win 6).cut (cfg0.grid.coords t) (f6 m c t any6)) = f6 m c t d6 from by
      unfold f6; exact congrArg _ (win0_6.cut_fill _ _ _)]
    iexact H6
  · iexists (outBlk (F := Ideal) (b0 m c t) (b1 m c t) (f2 m c t d2) (f3 m c t d3) (f4 m c t d4) (b5 m c t) (f6 m c t d6))
    rw [show (cfg0.win 7).fill (cfg0.grid.coords t)
          (outBlk (F := Ideal) (b0 m c t) (b1 m c t) (f2 m c t d2) (f3 m c t d3) (f4 m c t d4) (b5 m c t) (f6 m c t d6))
          ((cfg0.win 7).cut (cfg0.grid.coords t) (o7 m c t))
        = outBlk (F := Ideal) (b0 m c t) (b1 m c t) (f2 m c t d2) (f3 m c t d3) (f4 m c t d4) (b5 m c t) (f6 m c t d6) from by
      rw [← cut_outBlk m c t d2 d3 d4 d6]; exact win0_7.fill_cut _ _]
    iexact H7

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- At the compiled mesh, from any memory with zero counters: every weakly fair execution of @main on the TensorCores
    terminates, and every final state has every array of the pipeline at what the library computes from the proof data and
    every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME of the idealized kernel program. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.HostPrefix.lean ====
/-
  What the host operations in front of the region leave in the arrays the region stages, at the ideal instance,
  read at an index: x and the scales unchanged by the change of format; the group sums of x; s · z with z the
  unpacked zero point plus one; x · Aᵀ; Bᵀ.
-/
import proofs.«407871_j82128364634479_3_alg».proof.Proof.Args
import proofs.«407871_j82128364634479_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.IdealHost

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- x in the narrower format is x. -/
theorem V_x (c : Dev nD) : vX m c = aX m c := by
  have e : (V m c main_v20 : S64x4096.Idx → EReal)
      = truncf (F := Ideal) .bf16 (m ((c.tc : Thread nD τ).loc main_arg0)) bitsLt_bf16_f32 := by
    dsimp only [Gen.V, Gen.hostOps0]; after_results
  show V m c main_v20 = _
  rw [e]
  funext i
  rfl

/-! ### The group sums -/

/-- A [64,4096] array regrouped as [64,32,128], read at (p, g, k), is the array at (p, 128 g + k). -/
private theorem regroup_apply (x : S64x4096.Idx → EReal) (p : Fin 64) (g : Fin 32) (k : Fin 128) :
    shapeCast S64x32x128 x shapeCasts_S64x4096_S64x32x128 (ix3 p g k) = x (ix2 p (Cert.Spec.grpIdx g k)) := by
  refine shapeCast_apply x _ _ _ ?_
  rw [Shape.rowMajor_val_two, Shape.rowMajor_val_three]
  show p.val * 4096 + (128 * g.val + k.val) = (p.val * 32 + g.val) * 128 + k.val
  omega

/-- The group sums of x. -/
theorem V_xg (c : Dev nD) (p : Fin 64) (g : Fin 32) :
    vXG m c (ix2 p g) = Cert.Spec.xgOf (fun i : Fin 4096 => aX m c (ix2 p i)) g := by
  have e : (V m c main_v16 : S64x32.Idx → EReal)
      = Host.reduceAdd (F := Ideal) (shapeCast S64x32x128 (m ((c.tc : Thread nD τ).loc main_arg0)) shapeCasts_S64x4096_S64x32x128)
          (constant (F := Ideal) S_ .f32 0x00000000#32) reducesTo_S64x32x128_S64x32_d2 h_S_ := by
    dsimp only [Gen.V, Gen.hostOps0]; after_results <;> rfl
  show (V m c main_v16 : S64x32.Idx → EReal) (ix2 p g) = _
  rw [e, hostReduceAdd_apply]
  have hR : S64x32x128.Reduces [2] S64x32 := by decide
  rw [Ideal.hostReduceAdd_single reducesTo_S64x32x128_S64x32_d2 hR, constant_apply, Ideal.ofBits_zero_f32, zero_add]
  unfold Cert.Spec.xgOf
  show (_ : EReal) = _
  refine Finset.sum_congr rfl fun k _ => ?_
  have hk : hR.lift (ix2 p g) k = ix3 p g k := by
    funext a
    match a with
    | ⟨0, _⟩ => rfl
    | ⟨1, _⟩ => rfl
    | ⟨2, _⟩ => rfl
  rw [hk]
  exact regroup_apply _ p g k

/-- The scales in the narrower format are the scales. -/
theorem V_sc (c : Dev nD) : vSC m c = aSC m c := by
  have e : (V m c main_v22 : S32x11008.Idx → EReal)
      = truncf (F := Ideal) .bf16 (m ((c.tc : Thread nD τ).loc main_arg3)) bitsLt_bf16_f32 := by
    dsimp only [Gen.V, Gen.hostOps0]; after_results
  show V m c main_v22 = _
  rw [e]
  funext i
  rfl

/-! ### The zero points unpacked -/

private theorem addi_at {s : Shape} {w : Nat} (x y : IVec s w) (i : s.Idx) : addi x y i = IntOp.addi (x i) (y i) := rfl
private theorem andi_at {s : Shape} {w : Nat} (x y : IVec s w) (i : s.Idx) : andi x y i = IntOp.andi (x i) (y i) := rfl
private theorem muli_at {s : Shape} {w : Nat} (x y : IVec s w) (i : s.Idx) : muli x y i = IntOp.muli (x i) (y i) := rfl
private theorem hostShrsi_at {s : Shape} {w : Nat} (x y : IVec s w) (i : s.Idx) :
    Host.shrsi x y i = IntOp.shrsi .host (x i) (y i) := rfl

/-- The packed zero points repeated along a new last axis of eight: at (g, w, b), word (g, w). -/
private theorem words_apply (QZ : S32x1376.Idx → BitVec 32) (g : Fin 32) (w : Fin 1376) (b : Fin 8) :
    broadcastInDim S32x1376x8 ![0, 1, 2] bcast_S32x1376x1_S32x1376x8_0_1_2
      (broadcastInDim S32x1376x1 ![0, 1] bcast_S32x1376_S32x1376x1_0_1 QZ) (ix3 g w b) = QZ (ix2 g w) := by
  refine (broadcastInDim_apply _ _ _ (ix3 g w b) (ix3 g w (0 : Fin 1)) fun a => ?_).trans ?_
  · match a with
    | ⟨0, _⟩ => rfl
    | ⟨1, _⟩ => rfl
    | ⟨2, _⟩ => rfl
  · refine broadcastInDim_apply _ _ _ _ (ix2 g w) fun a => ?_
    match a with
    | ⟨0, _⟩ => rfl
    | ⟨1, _⟩ => rfl

/-- The eight shift amounts 0, 4, …, 28 repeated over the first two axes: at (g, w, b), the word 4 b. -/
private theorem shifts_apply (g : Fin 32) (w : Fin 1376) (b : Fin 8) :
    broadcastInDim S32x1376x8 ![0, 1, 2] bcast_S1x1x8_S32x1376x8_0_1_2
      (broadcastInDim S1x1x8 ![2] bcast_S8_S1x1x8_2
        (muli (iotaInDim S8 32 0) (broadcastInDim S8 ![] bcast_S_S8 (constantI S_ 32 4#32)))) (ix3 g w b)
      = Cert.Spec.shAmt b := by
  refine (broadcastInDim_apply _ _ _ (ix3 g w b) (ix3 (0 : Fin 1) (0 : Fin 1) b) fun a => ?_).trans ?_
  · match a with
    | ⟨0, _⟩ => rfl
    | ⟨1, _⟩ => rfl
    | ⟨2, _⟩ => rfl
  · refine (broadcastInDim_apply _ _ _ _ (ix1 b) fun a => ?_).trans ?_
    · match a with
      | ⟨0, _⟩ => rfl
    · rw [muli_at, broadcastInDim_scalar_apply]
      rfl

/-- A [32,1376,8] array flattened to [32,11008], read at (g, j), is the array at (g, j / 8, j % 8). -/
private theorem unpack_apply (X : S32x1376x8.Idx → BitVec 32) (g : Fin 32) (j : Fin 11008) :
    shapeCast S32x11008 X shapeCasts_S32x1376x8_S32x11008 (ix2 g j)
      = X (ix3 g (Cert.Spec.cdiv8 j) (Cert.Spec.cmod8 j)) := by
  refine shapeCast_apply X _ _ _ ?_
  rw [Shape.rowMajor_val_two, Shape.rowMajor_val_three]
  show (g.val * 1376 + j.val / 8) * 8 + j.val % 8 = g.val * 11008 + j.val
  omega

/-- s · z. -/
theorem V_sz (c : Dev nD) (g : Fin 32) (j : Fin 11008) :
    vSZ m c (ix2 g j) = aSC m c (ix2 g j) * Cert.Spec.zcolOf (aQZ m c) j g := by
  have e : (V m c main_v14 : S32x11008.Idx → EReal)
      = mulf (F := Ideal) (m ((c.tc : Thread nD τ).loc main_arg3))
          (sitofp (F := Ideal) .f32
            (addi
              (shapeCast S32x11008
                (andi
                  (Host.shrsi
                    (broadcastInDim S32x1376x8 ![0, 1, 2] bcast_S32x1376x1_S32x1376x8_0_1_2
                      (broadcastInDim S32x1376x1 ![0, 1] bcast_S32x1376_S32x1376x1_0_1 (m ((c.tc : Thread nD τ).loc main_arg2))))
                    (broadcastInDim S32x1376x8 ![0, 1, 2] bcast_S1x1x8_S32x1376x8_0_1_2
                      (broadcastInDim S1x1x8 ![2] bcast_S8_S1x1x8_2
                        (muli (iotaInDim S8 32 0) (broadcastInDim S8 ![] bcast_S_S8 (constantI S_ 32 4#32))))))
                  (broadcastInDim S32x1376x8 ![] bcast_S_S32x1376x8 (constantI S_ 32 15#32)))
                shapeCasts_S32x1376x8_S32x11008)
              (broadcastInDim S32x11008 ![] bcast_S_S32x11008 (constantI S_ 32 1#32)))) := by
    dsimp only [Gen.V, Gen.hostOps0]; after_results <;> rfl
  show V m c main_v14 (ix2 g j) = _
  rw [e, mulf_apply]
  congr 1
  rw [sitofp_apply, addi_at, unpack_apply, andi_at, hostShrsi_at, words_apply, shifts_apply,
    broadcastInDim_scalar_apply, broadcastInDim_scalar_apply]
  rfl

/-! ### The product with Aᵀ: the operand indices of its contraction, axis by axis -/

private theorem dotXA_lhs_0 (j : S64x16.Idx) (k : dot_S64x4096_S4096x16_S64x16_1_0_0_1_n_n.contr.Idx) :
    (dot_S64x4096_S4096x16_S64x16_1_0_0_1_n_n.lhsIdx j k 0 : ℕ) = j 0 := by
  simp [DotDims.lhsIdx, dot_S64x4096_S4096x16_S64x16_1_0_0_1_n_n]; rfl
private theorem dotXA_lhs_1 (j : S64x16.Idx) (k : dot_S64x4096_S4096x16_S64x16_1_0_0_1_n_n.contr.Idx) :
    (dot_S64x4096_S4096x16_S64x16_1_0_0_1_n_n.lhsIdx j k 1 : ℕ) = k ⟨0, by decide⟩ := by
  simp [DotDims.lhsIdx, dot_S64x4096_S4096x16_S64x16_1_0_0_1_n_n]; rfl
private theorem dotXA_rhs_0 (j : S64x16.Idx) (k : dot_S64x4096_S4096x16_S64x16_1_0_0_1_n_n.contr.Idx) :
    (dot_S64x4096_S4096x16_S64x16_1_0_0_1_n_n.rhsIdx j k 0 : ℕ) = k ⟨0, by decide⟩ := by
  simp [DotDims.rhsIdx, dot_S64x4096_S4096x16_S64x16_1_0_0_1_n_n]; rfl
private theorem dotXA_rhs_1 (j : S64x16.Idx) (k : dot_S64x4096_S4096x16_S64x16_1_0_0_1_n_n.contr.Idx) :
    (dot_S64x4096_S4096x16_S64x16_1_0_0_1_n_n.rhsIdx j k 1 : ℕ) = j 1 := by
  simp [DotDims.rhsIdx, dot_S64x4096_S4096x16_S64x16_1_0_0_1_n_n]; rfl

/-- x · Aᵀ. -/
theorem V_xA (c : Dev nD) (p : Fin 64) (r : Fin 16) :
    vXA m c (ix2 p r) = ∑ i : Fin 4096, aX m c (ix2 p i) * aA m c (ix2 r i) := by
  have e : (V m c main_v21 : S64x16.Idx → EReal)
      = truncf (F := Ideal) .bf16
          (Host.dotGeneral (F := Ideal) (φ₁ := .f32) (φ₂ := .f32) dot_S64x4096_S4096x16_S64x16_1_0_0_1_n_n none (aX m c)
            (transpose S4096x16 [1, 0] (aA m c) transposes_S16x4096_S4096x16_1_0))
          bitsLt_bf16_f32 := by
    dsimp only [Gen.V, Gen.hostOps0]; after_results <;> rfl
  show (V m c main_v21 : S64x16.Idx → EReal) (ix2 p r) = _
  rw [e, truncf_apply]
  simp only [Host.dotGeneral]
  rw [Ideal.dotGeneral_apply,
    ← Equiv.sum_comp (contrEquiv1 dot_S64x4096_S4096x16_S64x16_1_0_0_1_n_n 4096 rfl rfl).symm]
  show (_ : EReal) = _
  refine Finset.sum_congr rfl fun i _ => ?_
  have hl : dot_S64x4096_S4096x16_S64x16_1_0_0_1_n_n.lhsIdx (ix2 p r)
      ((contrEquiv1 dot_S64x4096_S4096x16_S64x16_1_0_0_1_n_n 4096 rfl rfl).symm i) = ix2 p i := by
    apply Shape.idx_ext₂
    · exact dotXA_lhs_0 _ _
    · exact (dotXA_lhs_1 _ _).trans (contrEquiv1_symm_val _ 4096 rfl rfl i)
  have hr : dot_S64x4096_S4096x16_S64x16_1_0_0_1_n_n.rhsIdx (ix2 p r)
      ((contrEquiv1 dot_S64x4096_S4096x16_S64x16_1_0_0_1_n_n 4096 rfl rfl).symm i) = ix2 i r := by
    apply Shape.idx_ext₂
    · exact (dotXA_rhs_0 _ _).trans (contrEquiv1_symm_val _ 4096 rfl rfl i)
    · exact dotXA_rhs_1 _ _
  rw [hl, hr, transpose_ix2_apply]

/-- Bᵀ. -/
theorem V_bT (c : Dev nD) (r : Fin 16) (j : Fin 11008) :
    vBT m c (ix2 r j) = aB m c (ix2 j r) := by
  have e : (V m c main_v23 : S16x11008.Idx → EReal)
      = truncf (F := Ideal) .bf16 (transpose S16x11008 [1, 0] (m ((c.tc : Thread nD τ).loc main_arg5))
          transposes_S11008x16_S16x11008_1_0) bitsLt_bf16_f32 := by
    dsimp only [Gen.V, Gen.hostOps0]; after_results
  show V m c main_v23 (ix2 r j) = _
  rw [e, truncf_apply]
  exact transpose_ix2_apply _ _ r j

/-- The packed weights are staged as they are. -/
theorem V_qw (c : Dev nD) : vQW m c = aQW m c := V_main_arg1 m c

end Cert.KernelIdeal.Hand

end
-- ==== Proof.KernelValue.lean ====
/-
  What the output array holds after the run, at the ideal instance: the multiplied-out result of the six arguments.

  Point t writes back the part of its output block inside the array: rows 0 … 63, columns 512 t … 512 t + 511 cut at
  column 11008 (the last of the 22 blocks keeps 256 columns). Entry (p, q) of that part is the multiplied-out form of
  row p of x and column 512 t + q of the other arrays, because the blocks the body read are the staged arrays read
  through the same rectangles and the staged arrays are the host operations' results. The 22 blocks' parts cover the array.
-/
import proofs.«407871_j82128364634479_3_alg».proof.Proof.Dats
import proofs.«407871_j82128364634479_3_alg».proof.Proof.Payload
import proofs.«407871_j82128364634479_3_alg».proof.Proof.HostPrefix
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The multiplied-out result of the six arguments on a device. -/
abbrev gOut (c : Dev nD) : S64x11008.Idx → EReal :=
  Cert.Spec.kerOut (aX m c) (aQW m c) (aQZ m c) (aSC m c) (aA m c) (aB m c)

/-! ## The printed index maps, decided once over the grid -/

/-- The three windows that do not move sit at block index (0, 0) at every point. -/
theorem idx_still : ∀ t : Fin cfg0.N,
    (win0_0.index t 0 = 0 ∧ win0_0.index t 1 = 0) ∧ (win0_1.index t 0 = 0 ∧ win0_1.index t 1 = 0)
    ∧ (win0_5.index t 0 = 0 ∧ win0_5.index t 1 = 0) :=
  (by decide +kernel : ∀ t : Fin grid0.N, _)

/-- The output window at point t: block (0, t), all 64 rows, its columns ending at min (512 (t + 1)) 11008. -/
theorem idx7 : ∀ t : Fin cfg0.N,
    win0_7.index t 0 = 0 ∧ win0_7.index t 1 = t.val ∧ win0_7.xsize (grid0.coords t) 0 = 64
    ∧ 512 * t.val + win0_7.xsize (grid0.coords t) 1 = min (512 * (t.val + 1)) 11008 :=
  (by decide +kernel : ∀ t : Fin grid0.N, _)

/-- The weight window likewise, all 512 rows. -/
theorem idx2 : ∀ t : Fin cfg0.N,
    win0_2.index t 0 = 0 ∧ win0_2.index t 1 = t.val ∧ win0_2.xsize (grid0.coords t) 0 = 512
    ∧ 512 * t.val + win0_2.xsize (grid0.coords t) 1 = min (512 * (t.val + 1)) 11008 :=
  (by decide +kernel : ∀ t : Fin grid0.N, _)

/-- The scale window, all 32 rows. -/
theorem idx3 : ∀ t : Fin cfg0.N,
    win0_3.index t 0 = 0 ∧ win0_3.index t 1 = t.val ∧ win0_3.xsize (grid0.coords t) 0 = 32
    ∧ 512 * t.val + win0_3.xsize (grid0.coords t) 1 = min (512 * (t.val + 1)) 11008 :=
  (by decide +kernel : ∀ t : Fin grid0.N, _)

/-- The window of s · z, all 32 rows. -/
theorem idx4 : ∀ t : Fin cfg0.N,
    win0_4.index t 0 = 0 ∧ win0_4.index t 1 = t.val ∧ win0_4.xsize (grid0.coords t) 0 = 32
    ∧ 512 * t.val + win0_4.xsize (grid0.coords t) 1 = min (512 * (t.val + 1)) 11008 :=
  (by decide +kernel : ∀ t : Fin grid0.N, _)

/-- The window of Bᵀ, all 16 rows. -/
theorem idx6 : ∀ t : Fin cfg0.N,
    win0_6.index t 0 = 0 ∧ win0_6.index t 1 = t.val ∧ win0_6.xsize (grid0.coords t) 0 = 16
    ∧ 512 * t.val + win0_6.xsize (grid0.coords t) 1 = min (512 * (t.val + 1)) 11008 :=
  (by decide +kernel : ∀ t : Fin grid0.N, _)

/-! ## The blocks the body read, as the staged arrays -/

/-- The block of x is x. -/
theorem b0_apply (c : Dev nD) (t : Fin cfg0.N) (j : S64x4096.Idx) : b0 m c t j = vX m c j := by
  have hi := (idx_still t).1
  unfold b0 iblk
  rw [View.read_apply]
  show V m c main_v20 _ = V m c main_v20 j
  congr 1; funext a; apply Fin.ext
  match a with
  | ⟨0, _⟩ => show win0_0.index t 0 * 64 + 1 * (j 0).val = (j 0).val; rw [hi.1]; omega
  | ⟨1, _⟩ => show win0_0.index t 1 * 4096 + 1 * (j 1).val = (j 1).val; rw [hi.2]; omega

/-- The block of group sums is the array of group sums. -/
theorem b1_apply (c : Dev nD) (t : Fin cfg0.N) (j : S64x32.Idx) : b1 m c t j = vXG m c j := by
  have hi := (idx_still t).2.1
  unfold b1 iblk
  rw [View.read_apply]
  show V m c main_v16 _ = V m c main_v16 j
  congr 1; funext a; apply Fin.ext
  match a with
  | ⟨0, _⟩ => show win0_1.index t 0 * 64 + 1 * (j 0).val = (j 0).val; rw [hi.1]; omega
  | ⟨1, _⟩ => show win0_1.index t 1 * 32 + 1 * (j 1).val = (j 1).val; rw [hi.2]; omega

/-- The block of x · Aᵀ is x · Aᵀ. -/
theorem b5_apply (c : Dev nD) (t : Fin cfg0.N) (j : S64x16.Idx) : b5 m c t j = vXA m c j := by
  have hi := (idx_still t).2.2
  unfold b5 iblk
  rw [View.read_apply]
  show V m c main_v21 _ = V m c main_v21 j
  congr 1; funext a; apply Fin.ext
  match a with
  | ⟨0, _⟩ => show win0_5.index t 0 * 64 + 1 * (j 0).val = (j 0).val; rw [hi.1]; omega
  | ⟨1, _⟩ => show win0_5.index t 1 * 16 + 1 * (j 1).val = (j 1).val; rw [hi.2]; omega

/-- Column q of the weight buffer at point t, when column 512 t + q is inside the array, is that column of the weights. -/
theorem f2_apply (c : Dev nD) (t : Fin cfg0.N) (d : Vec Ideal S512x512 .i32) (n q : Fin 512)
    (hq : 512 * t.val + q.val < 11008) :
    f2 m c t d (ix2 n q) = vQW m c (ix2 n ⟨512 * t.val + q.val, hq⟩) := by
  have hi := idx2 t
  have hmv : win0_2.moved (grid0.coords t) (ix2 n q) = true :=
    (win0_2.moved_iff _ _).mpr fun a => by
      match a with
      | ⟨0, _⟩ => show n.val < win0_2.xsize (grid0.coords t) 0; rw [hi.2.2.1]; exact n.isLt
      | ⟨1, _⟩ => show q.val < win0_2.xsize (grid0.coords t) 1; have := hi.2.2.2; omega
  unfold f2 Window.fill
  rw [dif_pos hmv]
  unfold iblk
  rw [View.read_apply]
  show V m c main_arg1 _ = V m c main_arg1 _
  congr 1; funext a; apply Fin.ext
  match a with
  | ⟨0, _⟩ => show win0_2.index t 0 * 512 + 1 * n.val = n.val; rw [hi.1]; omega
  | ⟨1, _⟩ => show win0_2.index t 1 * 512 + 1 * q.val = 512 * t.val + q.val; rw [hi.2.1]; omega

/-- Column q of the scale buffer likewise. -/
theorem f3_apply (c : Dev nD) (t : Fin cfg0.N) (d : Vec Ideal S32x512 .bf16) (g : Fin 32) (q : Fin 512)
    (hq : 512 * t.val + q.val < 11008) :
    f3 m c t d (ix2 g q) = vSC m c (ix2 g ⟨512 * t.val + q.val, hq⟩) := by
  have hi := idx3 t
  have hmv : win0_3.moved (grid0.coords t) (ix2 g q) = true :=
    (win0_3.moved_iff _ _).mpr fun a => by
      match a with
      | ⟨0, _⟩ => show g.val < win0_3.xsize (grid0.coords t) 0; rw [hi.2.2.1]; exact g.isLt
      | ⟨1, _⟩ => show q.val < win0_3.xsize (grid0.coords t) 1; have := hi.2.2.2; omega
  unfold f3 Window.fill
  rw [dif_pos hmv]
  unfold iblk
  rw [View.read_apply]
  show V m c main_v22 _ = V m c main_v22 _
  congr 1; funext a; apply Fin.ext
  match a with
  | ⟨0, _⟩ => show win0_3.index t 0 * 32 + 1 * g.val = g.val; rw [hi.1]; omega
  | ⟨1, _⟩ => show win0_3.index t 1 * 512 + 1 * q.val = 512 * t.val + q.val; rw [hi.2.1]; omega

/-- Column q of the buffer of s · z likewise. -/
theorem f4_apply (c : Dev nD) (t : Fin cfg0.N) (d : Vec Ideal S32x512 .f32) (g : Fin 32) (q : Fin 512)
    (hq : 512 * t.val + q.val < 11008) :
    f4 m c t d (ix2 g q) = vSZ m c (ix2 g ⟨512 * t.val + q.val, hq⟩) := by
  have hi := idx4 t
  have hmv : win0_4.moved (grid0.coords t) (ix2 g q) = true :=
    (win0_4.moved_iff _ _).mpr fun a => by
      match a with
      | ⟨0, _⟩ => show g.val < win0_4.xsize (grid0.coords t) 0; rw [hi.2.2.1]; exact g.isLt
      | ⟨1, _⟩ => show q.val < win0_4.xsize (grid0.coords t) 1; have := hi.2.2.2; omega
  unfold f4 Window.fill
  rw [dif_pos hmv]
  unfold iblk
  rw [View.read_apply]
  show V m c main_v14 _ = V m c main_v14 _
  congr 1; funext a; apply Fin.ext
  match a with
  | ⟨0, _⟩ => show win0_4.index t 0 * 32 + 1 * g.val = g.val; rw [hi.1]; omega
  | ⟨1, _⟩ => show win0_4.index t 1 * 512 + 1 * q.val = 512 * t.val + q.val; rw [hi.2.1]; omega

/-- Column q of the buffer of Bᵀ likewise. -/
theorem f6_apply (c : Dev nD) (t : Fin cfg0.N) (d : Vec Ideal S16x512 .bf16) (r : Fin 16) (q : Fin 512)
    (hq : 512 * t.val + q.val < 11008) :
    f6 m c t d (ix2 r q) = vBT m c (ix2 r ⟨512 * t.val + q.val, hq⟩) := by
  have hi := idx6 t
  have hmv : win0_6.moved (grid0.coords t) (ix2 r q) = true :=
    (win0_6.moved_iff _ _).mpr fun a => by
      match a with
      | ⟨0, _⟩ => show r.val < win0_6.xsize (grid0.coords t) 0; rw [hi.2.2.1]; exact r.isLt
      | ⟨1, _⟩ => show q.val < win0_6.xsize (grid0.coords t) 1; have := hi.2.2.2; omega
  unfold f6 Window.fill
  rw [dif_pos hmv]
  unfold iblk
  rw [View.read_apply]
  show V m c main_v23 _ = V m c main_v23 _
  congr 1; funext a; apply Fin.ext
  match a with
  | ⟨0, _⟩ => show win0_6.index t 0 * 16 + 1 * r.val = r.val; rw [hi.1]; omega
  | ⟨1, _⟩ => show win0_6.index t 1 * 512 + 1 * q.val = 512 * t.val + q.val; rw [hi.2.1]; omega

/-! ## One entry of the output buffer -/

/-- Entry (p, q) of what the body leaves at point t, for a column 512 t + q inside the array, is the multiplied-out
    form of row p of x and column 512 t + q of the other arrays: each block entry the body read is the staged array's, and
    the staged arrays are the host operations' results. -/
theorem o7_apply (c : Dev nD) (t : Fin cfg0.N) (p : Fin 64) (q : Fin 512) (hq : 512 * t.val + q.val < 11008) :
    o7 m c t (ix2 p q) = gOut m c (ix2 p ⟨512 * t.val + q.val, hq⟩) := by
  have e0 : (fun i : Fin 4096 => b0 m c t (ix2 p i)) = Cert.Spec.rowOf (aX m c) p :=
    funext fun i => (b0_apply m c t _).trans (congrFun (V_x m c) _)
  have e1 : (fun g : Fin 32 => b1 m c t (ix2 p g)) = Cert.Spec.xgOf (Cert.Spec.rowOf (aX m c) p) :=
    funext fun g => (b1_apply m c t _).trans (V_xg m c p g)
  have e2 : (fun n : Fin 512 => f2 m c t anyI (ix2 n q)) = Cert.Spec.colOf (aQW m c) ⟨512 * t.val + q.val, hq⟩ :=
    funext fun n => (f2_apply m c t anyI n q hq).trans (congrFun (V_qw m c) _)
  have e3 : (fun g : Fin 32 => f3 m c t any3 (ix2 g q)) = Cert.Spec.colOf (aSC m c) ⟨512 * t.val + q.val, hq⟩ :=
    funext fun g => (f3_apply m c t any3 g q hq).trans (congrFun (V_sc m c) _)
  have e4 : (fun g : Fin 32 => f4 m c t any4 (ix2 g q))
      = fun g => Cert.Spec.colOf (aSC m c) ⟨512 * t.val + q.val, hq⟩ g
          * Cert.Spec.zcolOf (aQZ m c) ⟨512 * t.val + q.val, hq⟩ g :=
    funext fun g => (f4_apply m c t any4 g q hq).trans (V_sz m c g _)
  have e5 : (fun r : Fin 16 => b5 m c t (ix2 p r))
      = fun r => ∑ i : Fin 4096, Cert.Spec.rowOf (aX m c) p i * Cert.Spec.rowOf (aA m c) r i :=
    funext fun r => (b5_apply m c t _).trans (V_xA m c p r)
  have e6 : (fun r : Fin 16 => f6 m c t any6 (ix2 r q)) = Cert.Spec.rowOf (aB m c) ⟨512 * t.val + q.val, hq⟩ :=
    funext fun r => (f6_apply m c t any6 r q hq).trans (V_bT m c r _)
  unfold o7
  rw [outBlk_apply, e0, e1, e2, e3, e4, e5, e6]
  rfl

/-! ## What a point writes back, and the cover -/

/-- What point t writes back is the multiplied-out result read through the point's block. -/
theorem flushed7_eq (c : Dev nD) (t : Fin cfg0.N) :
    (dats m 0 c).flushed 7 t = ((cfg0.win 7).blk t).view.read (Elt Ideal) (gOut m c) := by
  have hi := idx7 t
  funext y
  have h0 : (y 0).val < win0_7.xsize (grid0.coords t) 0 := (y 0).isLt
  have h1 : (y 1).val < win0_7.xsize (grid0.coords t) 1 := (y 1).isLt
  have h1' : win0_7.xsize (grid0.coords t) 1 ≤ 512 := win0_7.xsize_le (grid0.coords t) 1
  rw [hi.2.2.1] at h0
  have hq : 512 * t.val + (y 1).val < 11008 := by have := hi.2.2.2; omega
  have e : win0_7.xinj (grid0.coords t) y = ix2 (⟨(y 0).val, h0⟩ : Fin 64) (⟨(y 1).val, by omega⟩ : Fin 512) :=
    funext fun a => by match a with | ⟨0, _⟩ => rfl | ⟨1, _⟩ => rfl
  rw [View.read_apply]
  show o7 m c t (win0_7.xinj (grid0.coords t) y) = gOut m c _
  rw [e, o7_apply m c t _ _ hq]
  congr 1; funext a; apply Fin.ext
  match a with
  | ⟨0, _⟩ => show (y 0).val = win0_7.index t 0 * 64 + 1 * (y 0).val; rw [hi.1]; omega
  | ⟨1, _⟩ => show 512 * t.val + (y 1).val = win0_7.index t 1 * 512 + 1 * (y 1).val; rw [hi.2.1]; omega

/-- An index of the output array is in point t's block iff its column is among the block's columns inside the array
    (every row is: the blocks span the rows). -/
theorem mem_blk7 (t : Fin cfg0.N) (i : S64x11008.Idx) :
    i ∈ ((cfg0.win 7).blk t).view.set
      ↔ 512 * t.val ≤ (i 1).val ∧ (i 1).val < min (512 * (t.val + 1)) 11008 := by
  have hi := idx7 t
  have h0 : (i 0).val < 64 := (i 0).isLt
  show i ∈ ((View.whole main_v24).slice (win0_7.rect t)).set ↔ _
  rw [View.set_slice_whole, Rect.mem_set_unit]
  refine ⟨fun h => ?_, fun h a => ?_⟩
  · have h1 : win0_7.index t 1 * 512 ≤ (i 1).val
        ∧ (i 1).val < win0_7.index t 1 * 512 + win0_7.xsize (grid0.coords t) 1 := h 1
    rw [hi.2.1] at h1
    have := hi.2.2.2
    omega
  · match a with
    | ⟨0, _⟩ =>
      show win0_7.index t 0 * 64 ≤ (i 0).val ∧ (i 0).val < win0_7.index t 0 * 64 + win0_7.xsize (grid0.coords t) 0
      rw [hi.1, hi.2.2.1]; omega
    | ⟨1, _⟩ =>
      show win0_7.index t 1 * 512 ≤ (i 1).val
        ∧ (i 1).val < win0_7.index t 1 * 512 + win0_7.xsize (grid0.coords t) 1
      rw [hi.2.1]
      have := hi.2.2.2
      omega

/-- Column j lies in the block of point j / 512: the 22 blocks' parts inside the array cover it. -/
theorem cover7 (i : S64x11008.Idx) :
    ∃ t : Fin cfg0.N, (cfg0.win 7).flush t = true ∧ i ∈ ((cfg0.win 7).blk t).view.set := by
  have h1 : (i 1).val < 11008 := (i 1).isLt
  have hN : (i 1).val / 512 < cfg0.N := by show _ < 22; omega
  refine ⟨⟨(i 1).val / 512, hN⟩, flush0_7 _, ?_⟩
  rw [mem_blk7]
  show 512 * ((i 1).val / 512) ≤ (i 1).val ∧ (i 1).val < min (512 * ((i 1).val / 512 + 1)) 11008
  omega

/-! ## The array -/

/-- THE OUTPUT ARRAY AFTER THE RUN. -/
theorem final7 (c : Dev nD) : (dats m 0 c).arrAt 7 cfg0.N = gOut m c :=
  (dats m 0 c).arrAt_eq_of_cover 7 (gOut m c) (fun t _ => flushed7_eq m c t) cover7

end Cert.KernelIdeal.Hand

end
-- ==== Proof.KernelRun.lean ====
/-
  The idealized kernel program's run with its result named: the output array ends at the multiplied-out result of the
  six arguments, and the arguments end as they were.
-/
import proofs.«407871_j82128364634479_3_alg».proof.Proof.FrameIdeal
import proofs.«407871_j82128364634479_3_alg».proof.Proof.KernelValue

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v24) = gOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 7).trans (final7 m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Hand

end
-- ==== Proof.RefTerm.lean ====
/-
  The reference's result as one pure function of its six argument arrays: its host operations composed.

  The packed weights are unpacked along the input axis (each word gives eight rows: the word shifted right by
  0, 4, …, 28 and masked to four bits) and converted; the packed zero points likewise along the output axis, plus
  one; the group of input row i is i / 128, computed as a floor division (a truncating quotient, lowered by one
  where the signs differ and the remainder is not zero) and wrapped if negative; scales and zero points are
  gathered by group; W = s · (w − z); the result is x · W plus (x · Aᵀ) · Bᵀ times two.
-/
import proofs.«407871_j82128364634479_3_alg».proof.Proof.Gen.ReferenceIdeal

noncomputable section

namespace Cert.ReferenceIdeal.Hand

open Cert.ReferenceIdeal Cert.ReferenceIdeal.Gen
open Idealize.ShloMosaic Idealize.SL.Sem

variable {F : FTy → Type} [FloatOps F]

/-- The shift amounts 0, 4, …, 28. -/
def shifts : (⟨S8, .i32⟩ : BufTy).Contents (Elt F) :=
  muli (iotaInDim S8 32 0) (broadcastInDim S8 ![] bcast_S_S8 (constantI S_ 32 4#32))

/-- The unpacked weights as integers: row 8 n + b is nibble b of packed row n. -/
def wqI (QW : (⟨S512x11008, .i32⟩ : BufTy).Contents (Elt F)) : (⟨S4096x11008, .i32⟩ : BufTy).Contents (Elt F) :=
  shapeCast S4096x11008
    (andi
      (Host.shrsi
        (broadcastInDim S512x8x11008 ![0, 1, 2] bcast_S512x1x11008_S512x8x11008_0_1_2
          (broadcastInDim S512x1x11008 ![0, 2] bcast_S512x11008_S512x1x11008_0_2 QW))
        (broadcastInDim S512x8x11008 ![0, 1, 2] bcast_S1x8x1_S512x8x11008_0_1_2
          (broadcastInDim S1x8x1 ![1] bcast_S8_S1x8x1_1 (shifts (F := F)))))
      (broadcastInDim S512x8x11008 ![] bcast_S_S512x8x11008 (constantI S_ 32 15#32)))
    shapeCasts_S512x8x11008_S4096x11008

/-- The unpacked weights as floats. -/
def wq (QW : (⟨S512x11008, .i32⟩ : BufTy).Contents (Elt F)) : (⟨S4096x11008, .f32⟩ : BufTy).Contents (Elt F) :=
  sitofp .f32 (wqI (F := F) QW)

/-- The unpacked zero points plus one, as integers: column 8 n + b is nibble b of packed column n. -/
def zerosI (QZ : (⟨S32x1376, .i32⟩ : BufTy).Contents (Elt F)) : (⟨S32x11008, .i32⟩ : BufTy).Contents (Elt F) :=
  addi
    (shapeCast S32x11008
      (andi
        (Host.shrsi
          (broadcastInDim S32x1376x8 ![0, 1, 2] bcast_S32x1376x1_S32x1376x8_0_1_2
            (broadcastInDim S32x1376x1 ![0, 1] bcast_S32x1376_S32x1376x1_0_1 QZ))
          (broadcastInDim S32x1376x8 ![0, 1, 2] bcast_S1x1x8_S32x1376x8_0_1_2
            (broadcastInDim S1x1x8 ![2] bcast_S8_S1x1x8_2 (shifts (F := F)))))
        (broadcastInDim S32x1376x8 ![] bcast_S_S32x1376x8 (constantI S_ 32 15#32)))
      shapeCasts_S32x1376x8_S32x11008)
    (broadcastInDim S32x11008 ![] bcast_S_S32x11008 (constantI S_ 32 1#32))

/-- The zero points as floats. -/
def zeros (QZ : (⟨S32x1376, .i32⟩ : BufTy).Contents (Elt F)) : (⟨S32x11008, .f32⟩ : BufTy).Contents (Elt F) :=
  sitofp .f32 (zerosI (F := F) QZ)

/-- The row numbers 0 … 4095. -/
def rowIota : (⟨S4096, .i32⟩ : BufTy).Contents (Elt F) := iotaInDim S4096 32 0

/-- The group size 128 as a scalar. -/
def gsz : (⟨S_, .i32⟩ : BufTy).Contents (Elt F) := constantI S_ 32 128#32

/-- The truncating quotient of the row number by 128. -/
def quot : (⟨S4096, .i32⟩ : BufTy).Contents (Elt F) :=
  Host.divsi (rowIota (F := F)) (broadcastInDim S4096 ![] bcast_S_S4096 (gsz (F := F)))

/-- The floor division of the row number by 128. -/
def fdiv : (⟨S4096, .i32⟩ : BufTy).Contents (Elt F) :=
  select
    (andi
      (cmpi .ne (signi (rowIota (F := F))) (broadcastInDim S4096 ![] bcast_S_S4096 (signi (gsz (F := F)))))
      (cmpi .ne (Host.remsi (rowIota (F := F)) (broadcastInDim S4096 ![] bcast_S_S4096 (gsz (F := F))))
        (broadcastInDim S4096 ![] bcast_S_S4096 (constantI S_ 32 0#32))))
    (subi (quot (F := F)) (broadcastInDim S4096 ![] bcast_S_S4096 (constantI S_ 32 1#32)))
    (quot (F := F))

/-- The group index, wrapped if negative, as a column of start indices. -/
def gidx : (⟨S4096x1, .i32⟩ : BufTy).Contents (Elt F) :=
  broadcastInDim S4096x1 ![0] bcast_S4096_S4096x1_0
    (select (cmpi .slt (fdiv (F := F)) (broadcastInDim S4096 ![] bcast_S_S4096 (constantI S_ 32 0#32)))
      (addi (fdiv (F := F)) (broadcastInDim S4096 ![] bcast_S_S4096 (constantI S_ 32 32#32)))
      (fdiv (F := F)))

/-- The dequantised weights s · (w − z). -/
def wDeq (QW : (⟨S512x11008, .i32⟩ : BufTy).Contents (Elt F)) (QZ : (⟨S32x1376, .i32⟩ : BufTy).Contents (Elt F))
    (SC : (⟨S32x11008, .f32⟩ : BufTy).Contents (Elt F)) : (⟨S4096x11008, .f32⟩ : BufTy).Contents (Elt F) :=
  mulf (Host.gather gather_S32x11008_S4096x1_S4096x11008_1_0_n_n_0_1_111008 SC (gidx (F := F)))
    (subf (wq (F := F) QW)
      (Host.gather gather_S32x11008_S4096x1_S4096x11008_1_0_n_n_0_1_111008 (zeros (F := F) QZ) (gidx (F := F))))

/-- The rank-16 correction (x · Aᵀ) · Bᵀ, times two. -/
def lora (X : (⟨S64x4096, .f32⟩ : BufTy).Contents (Elt F)) (A : (⟨S16x4096, .f32⟩ : BufTy).Contents (Elt F))
    (B : (⟨S11008x16, .f32⟩ : BufTy).Contents (Elt F)) : (⟨S64x11008, .f32⟩ : BufTy).Contents (Elt F) :=
  mulf
    (Host.dotGeneral dot_S64x16_S16x11008_S64x11008_1_0_0_1_n_n none
      (Host.dotGeneral dot_S64x4096_S4096x16_S64x16_1_0_0_1_n_n none X
        (transpose S4096x16 [1, 0] A transposes_S16x4096_S4096x16_1_0))
      (transpose S16x11008 [1, 0] B transposes_S11008x16_S16x11008_1_0))
    (broadcastInDim S64x11008 ![] bcast_S_S64x11008 (constant S_ .f32 0x40000000#32))

/-- The reference's result. -/
def refTerm (X : (⟨S64x4096, .f32⟩ : BufTy).Contents (Elt F)) (QW : (⟨S512x11008, .i32⟩ : BufTy).Contents (Elt F))
    (QZ : (⟨S32x1376, .i32⟩ : BufTy).Contents (Elt F)) (SC : (⟨S32x11008, .f32⟩ : BufTy).Contents (Elt F))
    (A : (⟨S16x4096, .f32⟩ : BufTy).Contents (Elt F)) (B : (⟨S11008x16, .f32⟩ : BufTy).Contents (Elt F)) :
    (⟨S64x11008, .f32⟩ : BufTy).Contents (Elt F) :=
  addf (Host.dotGeneral dot_S64x4096_S4096x11008_S64x11008_1_0_0_1_n_n none X (wDeq QW QZ SC)) (lora X A B)

end Cert.ReferenceIdeal.Hand

end
-- ==== Proof.RefRun.lean ====
/-
  The reference's run: its @main is a list of host operations (the two outlined functions' operations in place
  at their call sites), so every weakly fair execution terminates with the result buffer at the operations'
  composed term of the arguments, `refTerm`, and the arguments unchanged.
-/
import proofs.«407871_j82128364634479_3_alg».proof.Proof.RefTerm
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- @main's 79 operations in order: its own sixty-two, and at the call of the floor division that function's
    sixteen followed by the one select of the function it calls, each over the call's own buffers. -/
abbrev ops : List (HloOp τ sig (Elt F)) :=
  [ StableHlo.nullary main_v0 (iotaInDim S8 32 0),
    StableHlo.nullary main_c (constantI S_ 32 4#32),
    StableHlo.unary main_c main_v1 (broadcastInDim S8 ![] bcast_S_S8 : (⟨S_, .i32⟩ : BufTy).Contents (Elt F) → (⟨S8, .i32⟩ : BufTy).Contents (Elt F)),
    StableHlo.binary main_v0 main_v1 main_v2 (muli : (⟨S8, .i32⟩ : BufTy).Contents (Elt F) → (⟨S8, .i32⟩ : BufTy).Contents (Elt F) → (⟨S8, .i32⟩ : BufTy).Contents (Elt F)),
    StableHlo.unary main_arg1 main_v3 (broadcastInDim S512x1x11008 ![0, 2] bcast_S512x11008_S512x1x11008_0_2 : (⟨S512x11008, .i32⟩ : BufTy).Contents (Elt F) → (⟨S512x1x11008, .i32⟩ : BufTy).Contents (Elt F)),
    StableHlo.unary main_v2 main_v4 (broadcastInDim S1x8x1 ![1] bcast_S8_S1x8x1_1 : (⟨S8, .i32⟩ : BufTy).Contents (Elt F) → (⟨S1x8x1, .i32⟩ : BufTy).Contents (Elt F)),
    StableHlo.unary main_v3 main_v5 (broadcastInDim S512x8x11008 ![0, 1, 2] bcast_S512x1x11008_S512x8x11008_0_1_2 : (⟨S512x1x11008, .i32⟩ : BufTy).Contents (Elt F) → (⟨S512x8x11008, .i32⟩ : BufTy).Contents (Elt F)),
    StableHlo.unary main_v4 main_v6 (broadcastInDim S512x8x11008 ![0, 1, 2] bcast_S1x8x1_S512x8x11008_0_1_2 : (⟨S1x8x1, .i32⟩ : BufTy).Contents (Elt F) → (⟨S512x8x11008, .i32⟩ : BufTy).Contents (Elt F)),
    StableHlo.binary main_v5 main_v6 main_v7 (Host.shrsi : (⟨S512x8x11008, .i32⟩ : BufTy).Contents (Elt F) → (⟨S512x8x11008, .i32⟩ : BufTy).Contents (Elt F) → (⟨S512x8x11008, .i32⟩ : BufTy).Contents (Elt F)),
    StableHlo.nullary main_c_0 (constantI S_ 32 15#32),
    StableHlo.unary main_c_0 main_v8 (broadcastInDim S512x8x11008 ![] bcast_S_S512x8x11008 : (⟨S_, .i32⟩ : BufTy).Contents (Elt F) → (⟨S512x8x11008, .i32⟩ : BufTy).Contents (Elt F)),
    StableHlo.binary main_v7 main_v8 main_v9 (andi : (⟨S512x8x11008, .i32⟩ : BufTy).Contents (Elt F) → (⟨S512x8x11008, .i32⟩ : BufTy).Contents (Elt F) → (⟨S512x8x11008, .i32⟩ : BufTy).Contents (Elt F)),
    StableHlo.reshape main_v9 main_v10 rfl shapeCasts_S512x8x11008_S4096x11008,
    StableHlo.unary main_v10 main_v11 (sitofp .f32 : (⟨S4096x11008, .i32⟩ : BufTy).Contents (Elt F) → (⟨S4096x11008, .f32⟩ : BufTy).Contents (Elt F)),
    StableHlo.nullary main_v12 (iotaInDim S8 32 0),
    StableHlo.nullary main_c_1 (constantI S_ 32 4#32),
    StableHlo.unary main_c_1 main_v13 (broadcastInDim S8 ![] bcast_S_S8 : (⟨S_, .i32⟩ : BufTy).Contents (Elt F) → (⟨S8, .i32⟩ : BufTy).Contents (Elt F)),
    StableHlo.binary main_v12 main_v13 main_v14 (muli : (⟨S8, .i32⟩ : BufTy).Contents (Elt F) → (⟨S8, .i32⟩ : BufTy).Contents (Elt F) → (⟨S8, .i32⟩ : BufTy).Contents (Elt F)),
    StableHlo.unary main_arg2 main_v15 (broadcastInDim S32x1376x1 ![0, 1] bcast_S32x1376_S32x1376x1_0_1 : (⟨S32x1376, .i32⟩ : BufTy).Contents (Elt F) → (⟨S32x1376x1, .i32⟩ : BufTy).Contents (Elt F)),
    StableHlo.unary main_v14 main_v16 (broadcastInDim S1x1x8 ![2] bcast_S8_S1x1x8_2 : (⟨S8, .i32⟩ : BufTy).Contents (Elt F) → (⟨S1x1x8, .i32⟩ : BufTy).Contents (Elt F)),
    StableHlo.unary main_v15 main_v17 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    StableHlo.unary main_v16 main_v18 (broadcastInDim S32x1376x8 ![0, 1, 2] bcast_S1x1x8_S32x1376x8_0_1_2 : (⟨S1x1x8, .i32⟩ : BufTy).Contents (Elt F) → (⟨S32x1376x8, .i32⟩ : BufTy).Contents (Elt F)),
    StableHlo.binary main_v17 main_v18 main_v19 (Host.shrsi : (⟨S32x1376x8, .i32⟩ : BufTy).Contents (Elt F) → (⟨S32x1376x8, .i32⟩ : BufTy).Contents (Elt F) → (⟨S32x1376x8, .i32⟩ : BufTy).Contents (Elt F)),
    StableHlo.nullary main_c_2 (constantI S_ 32 15#32),
    StableHlo.unary main_c_2 main_v20 (broadcastInDim S32x1376x8 ![] bcast_S_S32x1376x8 : (⟨S_, .i32⟩ : BufTy).Contents (Elt F) → (⟨S32x1376x8, .i32⟩ : BufTy).Contents (Elt F)),
    StableHlo.binary main_v19 main_v20 main_v21 (andi : (⟨S32x1376x8, .i32⟩ : BufTy).Contents (Elt F) → (⟨S32x1376x8, .i32⟩ : BufTy).Contents (Elt F) → (⟨S32x1376x8, .i32⟩ : BufTy).Contents (Elt F)),
    StableHlo.reshape main_v21 main_v22 rfl shapeCasts_S32x1376x8_S32x11008,
    StableHlo.nullary main_c_3 (constantI S_ 32 1#32),
    StableHlo.unary main_c_3 main_v23 (broadcastInDim S32x11008 ![] bcast_S_S32x11008 : (⟨S_, .i32⟩ : BufTy).Contents (Elt F) → (⟨S32x11008, .i32⟩ : BufTy).Contents (Elt F)),
    StableHlo.binary main_v22 main_v23 main_v24 (addi : (⟨S32x11008, .i32⟩ : BufTy).Contents (Elt F) → (⟨S32x11008, .i32⟩ : BufTy).Contents (Elt F) → (⟨S32x11008, .i32⟩ : BufTy).Contents (Elt F)),
    StableHlo.unary main_v24 main_v25 (sitofp .f32 : (⟨S32x11008, .i32⟩ : BufTy).Contents (Elt F) → (⟨S32x11008, .f32⟩ : BufTy).Contents (Elt F)),
    StableHlo.nullary main_v26 (iotaInDim S4096 32 0),
    StableHlo.nullary main_c_4 (constantI S_ 32 128#32),
    StableHlo.TRef.unary (.of main_c_4 : StableHlo.TRef sig ⟨S_, .i32⟩) main_call0.v0 id,
    StableHlo.TRef.unary main_call0.v0 main_call0.v1 (broadcastInDim S4096 ![] bcast_S_S4096),
    StableHlo.TRef.binary (.of main_v26 : StableHlo.TRef sig ⟨S4096, .i32⟩) main_call0.v1 main_call0.v2 Host.divsi,
    StableHlo.TRef.unary (.of main_v26 : StableHlo.TRef sig ⟨S4096, .i32⟩) main_call0.v3 signi,
    StableHlo.TRef.unary main_call0.v0 main_call0.v4 signi,
    StableHlo.TRef.unary main_call0.v4 main_call0.v5 (broadcastInDim S4096 ![] bcast_S_S4096),
    StableHlo.TRef.binary main_call0.v3 main_call0.v5 main_call0.v6 (cmpi .ne),
    StableHlo.TRef.unary main_call0.v0 main_call0.v7 (broadcastInDim S4096 ![] bcast_S_S4096),
    StableHlo.TRef.binary (.of main_v26 : StableHlo.TRef sig ⟨S4096, .i32⟩) main_call0.v7 main_call0.v8 Host.remsi,
    StableHlo.TRef.nullary main_call0.c (constantI S_ 32 0#32),
    StableHlo.TRef.unary main_call0.c main_call0.v9 (broadcastInDim S4096 ![] bcast_S_S4096),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S4096 ![] bcast_S_S4096),
    StableHlo.TRef.binary main_call0.v2 main_call0.v12 main_call0.v13 subi,
    StableHlo.TRef.ternary main_call0.v11 main_call0.v13 main_call0.v2 main_call0.call0.v0 select,
    StableHlo.nullary main_c_5 (constantI S_ 32 0#32),
    StableHlo.unary main_c_5 main_v28 (broadcastInDim S4096 ![] bcast_S_S4096 : (⟨S_, .i32⟩ : BufTy).Contents (Elt F) → (⟨S4096, .i32⟩ : BufTy).Contents (Elt F)),
    StableHlo.binary main_v27 main_v28 main_v29 (cmpi .slt : (⟨S4096, .i32⟩ : BufTy).Contents (Elt F) → (⟨S4096, .i32⟩ : BufTy).Contents (Elt F) → (⟨S4096, .i1⟩ : BufTy).Contents (Elt F)),
    StableHlo.nullary main_c_6 (constantI S_ 32 32#32),
    StableHlo.unary main_c_6 main_v30 (broadcastInDim S4096 ![] bcast_S_S4096 : (⟨S_, .i32⟩ : BufTy).Contents (Elt F) → (⟨S4096, .i32⟩ : BufTy).Contents (Elt F)),
    StableHlo.binary main_v27 main_v30 main_v31 (addi : (⟨S4096, .i32⟩ : BufTy).Contents (Elt F) → (⟨S4096, .i32⟩ : BufTy).Contents (Elt F) → (⟨S4096, .i32⟩ : BufTy).Contents (Elt F)),
    StableHlo.ternary main_v29 main_v31 main_v27 main_v32 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v32 main_v33 (broadcastInDim S4096x1 ![0] bcast_S4096_S4096x1_0 : (⟨S4096, .i32⟩ : BufTy).Contents (Elt F) → (⟨S4096x1, .i32⟩ : BufTy).Contents (Elt F)),
    StableHlo.binary main_arg3 main_v33 main_v34 ((fun x i => Host.gather gather_S32x11008_S4096x1_S4096x11008_1_0_n_n_0_1_111008 x i) : (⟨S32x11008, .f32⟩ : BufTy).Contents (Elt F) → (⟨S4096x1, .i32⟩ : BufTy).Contents (Elt F) → (⟨S4096x11008, .f32⟩ : BufTy).Contents (Elt F)),
    StableHlo.nullary main_c_7 (constantI S_ 32 0#32),
    StableHlo.unary main_c_7 main_v35 (broadcastInDim S4096 ![] bcast_S_S4096 : (⟨S_, .i32⟩ : BufTy).Contents (Elt F) → (⟨S4096, .i32⟩ : BufTy).Contents (Elt F)),
    StableHlo.binary main_v27 main_v35 main_v36 (cmpi .slt : (⟨S4096, .i32⟩ : BufTy).Contents (Elt F) → (⟨S4096, .i32⟩ : BufTy).Contents (Elt F) → (⟨S4096, .i1⟩ : BufTy).Contents (Elt F)),
    StableHlo.nullary main_c_8 (constantI S_ 32 32#32),
    StableHlo.unary main_c_8 main_v37 (broadcastInDim S4096 ![] bcast_S_S4096 : (⟨S_, .i32⟩ : BufTy).Contents (Elt F) → (⟨S4096, .i32⟩ : BufTy).Contents (Elt F)),
    StableHlo.binary main_v27 main_v37 main_v38 (addi : (⟨S4096, .i32⟩ : BufTy).Contents (Elt F) → (⟨S4096, .i32⟩ : BufTy).Contents (Elt F) → (⟨S4096, .i32⟩ : BufTy).Contents (Elt F)),
    StableHlo.ternary main_v36 main_v38 main_v27 main_v39 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v39 main_v40 (broadcastInDim S4096x1 ![0] bcast_S4096_S4096x1_0 : (⟨S4096, .i32⟩ : BufTy).Contents (Elt F) → (⟨S4096x1, .i32⟩ : BufTy).Contents (Elt F)),
    StableHlo.binary main_v25 main_v40 main_v41 ((fun x i => Host.gather gather_S32x11008_S4096x1_S4096x11008_1_0_n_n_0_1_111008 x i) : (⟨S32x11008, .f32⟩ : BufTy).Contents (Elt F) → (⟨S4096x1, .i32⟩ : BufTy).Contents (Elt F) → (⟨S4096x11008, .f32⟩ : BufTy).Contents (Elt F)),
    StableHlo.binary main_v11 main_v41 main_v42 (subf : (⟨S4096x11008, .f32⟩ : BufTy).Contents (Elt F) → (⟨S4096x11008, .f32⟩ : BufTy).Contents (Elt F) → (⟨S4096x11008, .f32⟩ : BufTy).Contents (Elt F)),
    StableHlo.binary main_v34 main_v42 main_v43 (mulf : (⟨S4096x11008, .f32⟩ : BufTy).Contents (Elt F) → (⟨S4096x11008, .f32⟩ : BufTy).Contents (Elt F) → (⟨S4096x11008, .f32⟩ : BufTy).Contents (Elt F)),
    StableHlo.binary main_arg0 main_v43 main_v44 ((fun l r => Host.dotGeneral dot_S64x4096_S4096x11008_S64x11008_1_0_0_1_n_n none l r) : (⟨S64x4096, .f32⟩ : BufTy).Contents (Elt F) → (⟨S4096x11008, .f32⟩ : BufTy).Contents (Elt F) → (⟨S64x11008, .f32⟩ : BufTy).Contents (Elt F)),
    StableHlo.unary main_arg4 main_v45 ((transpose S4096x16 [1, 0] · transposes_S16x4096_S4096x16_1_0) : (⟨S16x4096, .f32⟩ : BufTy).Contents (Elt F) → (⟨S4096x16, .f32⟩ : BufTy).Contents (Elt F)),
    StableHlo.binary main_arg0 main_v45 main_v46 ((fun l r => Host.dotGeneral dot_S64x4096_S4096x16_S64x16_1_0_0_1_n_n none l r) : (⟨S64x4096, .f32⟩ : BufTy).Contents (Elt F) → (⟨S4096x16, .f32⟩ : BufTy).Contents (Elt F) → (⟨S64x16, .f32⟩ : BufTy).Contents (Elt F)),
    StableHlo.unary main_arg5 main_v47 ((transpose S16x11008 [1, 0] · transposes_S11008x16_S16x11008_1_0) : (⟨S11008x16, .f32⟩ : BufTy).Contents (Elt F) → (⟨S16x11008, .f32⟩ : BufTy).Contents (Elt F)),
    StableHlo.binary main_v46 main_v47 main_v48 ((fun l r => Host.dotGeneral dot_S64x16_S16x11008_S64x11008_1_0_0_1_n_n none l r) : (⟨S64x16, .f32⟩ : BufTy).Contents (Elt F) → (⟨S16x11008, .f32⟩ : BufTy).Contents (Elt F) → (⟨S64x11008, .f32⟩ : BufTy).Contents (Elt F)),
    StableHlo.nullary main_cst (constant S_ .f32 0x40000000#32),
    StableHlo.unary main_cst main_v49 (broadcastInDim S64x11008 ![] bcast_S_S64x11008 : (⟨S_, .f32⟩ : BufTy).Contents (Elt F) → (⟨S64x11008, .f32⟩ : BufTy).Contents (Elt F)),
    StableHlo.binary main_v48 main_v49 main_v50 (mulf : (⟨S64x11008, .f32⟩ : BufTy).Contents (Elt F) → (⟨S64x11008, .f32⟩ : BufTy).Contents (Elt F) → (⟨S64x11008, .f32⟩ : BufTy).Contents (Elt F)),
    StableHlo.binary main_v44 main_v50 main_v51 (addf : (⟨S64x11008, .f32⟩ : BufTy).Contents (Elt F) → (⟨S64x11008, .f32⟩ : BufTy).Contents (Elt F) → (⟨S64x11008, .f32⟩ : BufTy).Contents (Elt F)) ]

-- seventy-nine binds re-associated: the rewrite under the chain recurses once per statement
set_option maxRecDepth 4096 in
set_option maxHeartbeats 4000000 in
/-- @main is that straight line: the two windows in order, the functions' definitions unfolded at their calls and
    the records at their fields; both sides are one chain of steps once sequencing is reassociated. -/
theorem main_eq (c : Dev nD) : main (F := F) c = seq ops := by
  simp only [main, main_part0, main_part1, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    unary_bufs_sub .., unary_bufs_sub .., binary_bufs_sub .., nullary_bufs_sub .., unary_bufs_sub .., binary_bufs_sub ..,
    reshape_bufs_sub .., unary_bufs_sub .., nullary_bufs_sub .., nullary_bufs_sub .., unary_bufs_sub .., binary_bufs_sub ..,
    unary_bufs_sub .., unary_bufs_sub .., unary_bufs_sub .., unary_bufs_sub .., binary_bufs_sub .., nullary_bufs_sub ..,
    unary_bufs_sub .., binary_bufs_sub .., reshape_bufs_sub .., nullary_bufs_sub .., unary_bufs_sub .., binary_bufs_sub ..,
    unary_bufs_sub .., nullary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., binary_bufs_sub .., unary_bufs_sub ..,
    binary_bufs_sub .., unary_bufs_sub .., binary_bufs_sub .., nullary_bufs_sub .., unary_bufs_sub .., binary_bufs_sub ..,
    binary_bufs_sub ..⟩

-- the fold of seventy-nine results at one buffer, read in one pass; the composed term is deep
set_option maxRecDepth 8192 in
set_option maxHeartbeats 4000000 in
/-- The fold at the result buffer is `refTerm` of the arguments' contents: each operation's result at its own
    buffer is its function's value and at any other buffer what was there; what is left is `refTerm` with its
    definitions unfolded (the typed references' transports are the identity at these literal references, and the
    called function's conversion of the group size is the identity). -/
theorem out_eq (V : Valuation τ sig (Elt F)) :
    after ops V (main_v51 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 8192 in
set_option maxHeartbeats 4000000 in
/-- No operation writes argument 0. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes argument 1. -/
theorem arg1_eq (V : Valuation τ sig (Elt F)) :
    after ops V (main_arg1 : DevRef τ sig) = V (main_arg1 : DevRef τ sig) := by
  after_results_simp

set_option maxRecDepth 8192 in
set_option maxHeartbeats 4000000 in
/-- No operation writes argument 2. -/
theorem arg2_eq (V : Valuation τ sig (Elt F)) :
    after ops V (main_arg2 : DevRef τ sig) = V (main_arg2 : DevRef τ sig) := by
  after_results_simp

set_option maxRecDepth 8192 in
set_option maxHeartbeats 4000000 in
/-- No operation writes argument 3. -/
theorem arg3_eq (V : Valuation τ sig (Elt F)) :
    after ops V (main_arg3 : DevRef τ sig) = V (main_arg3 : DevRef τ sig) := by
  after_results_simp

set_option maxRecDepth 8192 in
set_option maxHeartbeats 4000000 in
/-- No operation writes argument 4. -/
theorem arg4_eq (V : Valuation τ sig (Elt F)) :
    after ops V (main_arg4 : DevRef τ sig) = V (main_arg4 : DevRef τ sig) := by
  after_results_simp

set_option maxRecDepth 8192 in
set_option maxHeartbeats 4000000 in
/-- No operation writes argument 5. -/
theorem arg5_eq (V : Valuation τ sig (Elt F)) :
    after ops V (main_arg5 : DevRef τ sig) = V (main_arg5 : DevRef τ sig) := by
  after_results_simp

/-- On every device, for any float values, from any memory with zero counters: every weakly fair execution of
    @main terminates with the result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
          = refTerm (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  exact (θ_run defs _ _).mono (fun _ h c => ⟨(h c main_v51).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.Hand

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.RefValue.lean ====
/-
  The reference's composed term, at the ideal instance, is the dequantise-then-multiply result entry by entry.
-/
import proofs.«407871_j82128364634479_3_alg».proof.Proof.RefTerm
import proofs.«407871_j82128364634479_3_alg».proof.Proof.Spec
import proofs.«407871_j82128364634479_3_alg».proof.Proof.LibIndex
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.ReferenceIdeal.Hand

open Cert.ReferenceIdeal Cert.ReferenceIdeal.Gen
open Idealize.ShloMosaic Idealize.ShloMosaic.ValueIdx Idealize.SL.Sem

/-! ## The unpacked weights and zero points at an index -/

/-- The shift amounts read at an index. -/
theorem shifts_apply (b : Fin 8) : (shifts (F := Ideal) : S8.Idx → BitVec 32) (ix1 b) = Cert.Spec.shAmt b := rfl

/-- A packed word broadcast over its eight nibbles. -/
theorem bcastQW_apply (QW : S512x11008.Idx → BitVec 32) (n : Fin 512) (b : Fin 8) (j : Fin 11008) :
    broadcastInDim S512x8x11008 ![0, 1, 2] bcast_S512x1x11008_S512x8x11008_0_1_2
      (broadcastInDim S512x1x11008 ![0, 2] bcast_S512x11008_S512x1x11008_0_2 QW) (ix3 n b j) = QW (ix2 n j) := by
  rw [broadcastInDim_apply _ _ _ (ix3 n b j) (ix3 n (0 : Fin 1) j)
    (fun a => match a with | ⟨0, _⟩ => rfl | ⟨1, _⟩ => rfl | ⟨2, _⟩ => rfl)]
  rw [broadcastInDim_apply _ _ _ (ix3 n (0 : Fin 1) j) (ix2 n j)
    (fun a => match a with | ⟨0, _⟩ => rfl | ⟨1, _⟩ => rfl)]

theorem bcastSh_apply (n : Fin 512) (b : Fin 8) (j : Fin 11008) :
    broadcastInDim S512x8x11008 ![0, 1, 2] bcast_S1x8x1_S512x8x11008_0_1_2
      (broadcastInDim S1x8x1 ![1] bcast_S8_S1x8x1_1 (shifts (F := Ideal))) (ix3 n b j) = Cert.Spec.shAmt b := by
  rw [broadcastInDim_apply _ _ _ (ix3 n b j) (ix3 (0 : Fin 1) b (0 : Fin 1))
    (fun a => match a with | ⟨0, _⟩ => rfl | ⟨1, _⟩ => rfl | ⟨2, _⟩ => rfl)]
  rw [broadcastInDim_apply _ _ _ (ix3 (0 : Fin 1) b (0 : Fin 1)) (ix1 b)
    (fun a => match a with | ⟨0, _⟩ => rfl)]
  exact shifts_apply b

theorem wqI_apply (QW : S512x11008.Idx → BitVec 32) (i : Fin 4096) (j : Fin 11008) :
    (wqI (F := Ideal) QW : S4096x11008.Idx → BitVec 32) (ix2 i j)
      = Cert.Spec.nibW (QW (ix2 (Cert.Spec.div8 i) j)) (Cert.Spec.mod8 i) := by
  unfold wqI
  rw [shapeCast_apply _ _ (ix2 i j) (ix3 (Cert.Spec.div8 i) (Cert.Spec.mod8 i) j) (by
    rw [Shape.rowMajor_val_two, Shape.rowMajor_val_three]
    show ((i.val / 8) * 8 + i.val % 8) * 11008 + j.val = i.val * 11008 + j.val
    have := Nat.div_add_mod i.val 8
    rw [Nat.mul_comm] at this
    rw [this])]
  show IntOp.andi (IntOp.shrsi .host _ _) _ = _
  rw [bcastQW_apply, bcastSh_apply]
  rfl

/-- The unpacked weights as floats: the nibble read signed. -/
theorem wq_apply (QW : S512x11008.Idx → BitVec 32) (i : Fin 4096) (j : Fin 11008) :
    (wq (F := Ideal) QW : S4096x11008.Idx → EReal) (ix2 i j)
      = Cert.Spec.nib (QW (ix2 (Cert.Spec.div8 i) j)) (Cert.Spec.mod8 i) := by
  unfold wq
  rw [sitofp_apply, wqI_apply]
  rfl

/-- A packed zero-point word broadcast over its eight nibbles. -/
theorem bcastQZ_apply (QZ : S32x1376.Idx → BitVec 32) (g : Fin 32) (n : Fin 1376) (b : Fin 8) :
    broadcastInDim S32x1376x8 ![0, 1, 2] bcast_S32x1376x1_S32x1376x8_0_1_2
      (broadcastInDim S32x1376x1 ![0, 1] bcast_S32x1376_S32x1376x1_0_1 QZ) (ix3 g n b) = QZ (ix2 g n) := by
  rw [broadcastInDim_apply _ _ _ (ix3 g n b) (ix3 g n (0 : Fin 1))
    (fun a => match a with | ⟨0, _⟩ => rfl | ⟨1, _⟩ => rfl | ⟨2, _⟩ => rfl)]
  rw [broadcastInDim_apply _ _ _ (ix3 g n (0 : Fin 1)) (ix2 g n)
    (fun a => match a with | ⟨0, _⟩ => rfl | ⟨1, _⟩ => rfl)]

/-- The shift amounts broadcast along the last axis. -/
theorem bcastShZ_apply (g : Fin 32) (n : Fin 1376) (b : Fin 8) :
    broadcastInDim S32x1376x8 ![0, 1, 2] bcast_S1x1x8_S32x1376x8_0_1_2
      (broadcastInDim S1x1x8 ![2] bcast_S8_S1x1x8_2 (shifts (F := Ideal))) (ix3 g n b) = Cert.Spec.shAmt b := by
  rw [broadcastInDim_apply _ _ _ (ix3 g n b) (ix3 (0 : Fin 1) (0 : Fin 1) b)
    (fun a => match a with | ⟨0, _⟩ => rfl | ⟨1, _⟩ => rfl | ⟨2, _⟩ => rfl)]
  rw [broadcastInDim_apply _ _ _ (ix3 (0 : Fin 1) (0 : Fin 1) b) (ix1 b)
    (fun a => match a with | ⟨0, _⟩ => rfl)]
  exact shifts_apply b

/-- The unpacked zero points plus one, as words. -/
theorem zerosI_apply (QZ : S32x1376.Idx → BitVec 32) (g : Fin 32) (j : Fin 11008) :
    (zerosI (F := Ideal) QZ : S32x11008.Idx → BitVec 32) (ix2 g j)
      = IntOp.addi (Cert.Spec.nibW (QZ (ix2 g (Cert.Spec.cdiv8 j))) (Cert.Spec.cmod8 j)) 1#32 := by
  unfold zerosI
  show IntOp.addi _ _ = _
  rw [shapeCast_apply _ _ (ix2 g j) (ix3 g (Cert.Spec.cdiv8 j) (Cert.Spec.cmod8 j)) (by
    rw [Shape.rowMajor_val_two, Shape.rowMajor_val_three]
    show (g.val * 1376 + j.val / 8) * 8 + j.val % 8 = g.val * 11008 + j.val
    omega)]
  show IntOp.addi (IntOp.andi (IntOp.shrsi .host _ _) _) _ = _
  rw [bcastQZ_apply, bcastShZ_apply]
  rfl

/-- The zero points as floats. -/
theorem zeros_apply (QZ : S32x1376.Idx → BitVec 32) (g : Fin 32) (j : Fin 11008) :
    (zeros (F := Ideal) QZ : S32x11008.Idx → EReal) (ix2 g j)
      = Cert.Spec.zp (QZ (ix2 g (Cert.Spec.cdiv8 j))) (Cert.Spec.cmod8 j) := by
  unfold zeros
  rw [sitofp_apply, zerosI_apply]
  rfl

/-! ## The group index and the two gathers -/

/-- The group index as a function of the row number's word: the truncating quotient by 128, lowered by one where
    the signs differ and the remainder is not zero, then wrapped by 32 if negative. -/
private def gidxW (x : BitVec 32) : BitVec 32 :=
  let q := IntOp.divsi .host x 128#32
  let fd := Scalar.select
    (IntOp.andi
      (IntOp.cmpi .ne (if x = 0 then 0 else if x.msb then -1 else 1)
        (if (128#32) = 0 then (0 : BitVec 32) else if (128#32).msb then -1 else 1))
      (IntOp.cmpi .ne (IntOp.remsi .host x 128#32) 0#32))
    (IntOp.subi q 1#32) q
  Scalar.select (IntOp.cmpi .slt fd 0#32) (IntOp.addi fd 32#32) fd

/-- On the row numbers 0 … 4095 no correction fires: the group index is the quotient by 128 (a closed check of the
    4096 words). -/
private theorem gidxW_ofNat : ∀ n : Fin 4096, gidxW (BitVec.ofNat 32 n.val) = BitVec.ofNat 32 (n.val / 128) := by
  decide +kernel

/-- THE GROUP INDEX of input row i is i / 128. -/
theorem gidx_apply (i : Fin 4096) :
    (gidx (F := Ideal) : S4096x1.Idx → BitVec 32) (ix2 i (0 : Fin 1)) = BitVec.ofNat 32 (i.val / 128) := by
  unfold gidx
  rw [broadcastInDim_apply _ _ _ (ix2 i (0 : Fin 1)) (ix1 i) (fun a => match a with | ⟨0, _⟩ => rfl)]
  exact (show _ = gidxW (BitVec.ofNat 32 i.val) from rfl).trans (gidxW_ofNat i)

/-- A small word read signed is its number. -/
private theorem toInt_toNat_ofNat_lt (m : Nat) (h : m < 32) : min (BitVec.ofNat 32 m).toInt.toNat (32 - 1) = m := by
  rw [BitVec.toInt_eq_toNat_cond, BitVec.toNat_ofNat]
  omega

/-- A gather of rows by the group index reads the group's row. -/
theorem gather_gidx_apply {α : Type} (T : S32x11008.Idx → α) (i : Fin 4096) (j : Fin 11008) :
    Host.gather gather_S32x11008_S4096x1_S4096x11008_1_0_n_n_0_1_111008 T (gidx (F := Ideal)) (ix2 i j)
      = T (ix2 (Cert.Spec.grp i) j) := by
  rw [Cert.LibIndex.gather_row_apply_of (by decide) _ rfl rfl rfl rfl rfl rfl rfl T _ i j]
  refine congrArg T (congrArg (fun a => ix2 a j) (Fin.ext ?_))
  show min ((gidx (F := Ideal) : S4096x1.Idx → BitVec 32) (ix2 i (0 : Fin 1))).toInt.toNat (32 - 1) = i.val / 128
  rw [gidx_apply]
  exact toInt_toNat_ofNat_lt _ (by have := i.isLt; omega)

/-! ## The three products as plain sums -/

private theorem lhsW_0 (j : S64x11008.Idx) (k : (dot_S64x4096_S4096x11008_S64x11008_1_0_0_1_n_n).contr.Idx) :
    ((dot_S64x4096_S4096x11008_S64x11008_1_0_0_1_n_n).lhsIdx j k (0 : Fin 2)).val = (j (0 : Fin 2)).val := rfl

private theorem lhsW_1 (j : S64x11008.Idx) (k : (dot_S64x4096_S4096x11008_S64x11008_1_0_0_1_n_n).contr.Idx) :
    ((dot_S64x4096_S4096x11008_S64x11008_1_0_0_1_n_n).lhsIdx j k (1 : Fin 2)).val = (k ⟨0, by decide⟩).val :=
  DotDims.lhsIdx_val_of_single _ rfl j k

private theorem rhsW_0 (j : S64x11008.Idx) (k : (dot_S64x4096_S4096x11008_S64x11008_1_0_0_1_n_n).contr.Idx) :
    ((dot_S64x4096_S4096x11008_S64x11008_1_0_0_1_n_n).rhsIdx j k (0 : Fin 2)).val = (k ⟨0, by decide⟩).val :=
  DotDims.rhsIdx_val_of_single _ rfl j k

private theorem rhsW_1 (j : S64x11008.Idx) (k : (dot_S64x4096_S4096x11008_S64x11008_1_0_0_1_n_n).contr.Idx) :
    ((dot_S64x4096_S4096x11008_S64x11008_1_0_0_1_n_n).rhsIdx j k (1 : Fin 2)).val = (j (1 : Fin 2)).val := rfl

/-- x · W at (p, q) is the sum over the 4096 input rows. -/
theorem dotW_apply (L : S64x4096.Idx → EReal) (R : S4096x11008.Idx → EReal) (p : Fin 64) (q : Fin 11008) :
    (Host.dotGeneral (F := Ideal) (φ₁ := .f32) (φ₂ := .f32) dot_S64x4096_S4096x11008_S64x11008_1_0_0_1_n_n none L R : S64x11008.Idx → EReal) (ix2 p q)
      = ∑ i : Fin 4096, L (ix2 p i) * R (ix2 i q) := by
  show FloatOps.dotGeneral (F := Ideal) (φ₁ := .f32) (φ₂ := .f32) dot_S64x4096_S4096x11008_S64x11008_1_0_0_1_n_n none .single L R (ix2 p q) = _
  rw [Ideal.dotGeneral_apply, ← Equiv.sum_comp (contrEquiv1 dot_S64x4096_S4096x11008_S64x11008_1_0_0_1_n_n 4096 rfl rfl).symm]
  refine Finset.sum_congr rfl fun i _ => ?_
  have hk := contrEquiv1_symm_val dot_S64x4096_S4096x11008_S64x11008_1_0_0_1_n_n 4096 rfl rfl i
  congr 2
  · funext a; refine Fin.ext ?_
    match a with
    | ⟨0, _⟩ => exact lhsW_0 _ _
    | ⟨1, _⟩ => exact (lhsW_1 _ _).trans hk
  · funext a; refine Fin.ext ?_
    match a with
    | ⟨0, _⟩ => exact (rhsW_0 _ _).trans hk
    | ⟨1, _⟩ => exact rhsW_1 _ _

private theorem lhsA_0 (j : S64x16.Idx) (k : (dot_S64x4096_S4096x16_S64x16_1_0_0_1_n_n).contr.Idx) :
    ((dot_S64x4096_S4096x16_S64x16_1_0_0_1_n_n).lhsIdx j k (0 : Fin 2)).val = (j (0 : Fin 2)).val := rfl

private theorem lhsA_1 (j : S64x16.Idx) (k : (dot_S64x4096_S4096x16_S64x16_1_0_0_1_n_n).contr.Idx) :
    ((dot_S64x4096_S4096x16_S64x16_1_0_0_1_n_n).lhsIdx j k (1 : Fin 2)).val = (k ⟨0, by decide⟩).val :=
  DotDims.lhsIdx_val_of_single _ rfl j k

private theorem rhsA_0 (j : S64x16.Idx) (k : (dot_S64x4096_S4096x16_S64x16_1_0_0_1_n_n).contr.Idx) :
    ((dot_S64x4096_S4096x16_S64x16_1_0_0_1_n_n).rhsIdx j k (0 : Fin 2)).val = (k ⟨0, by decide⟩).val :=
  DotDims.rhsIdx_val_of_single _ rfl j k

private theorem rhsA_1 (j : S64x16.Idx) (k : (dot_S64x4096_S4096x16_S64x16_1_0_0_1_n_n).contr.Idx) :
    ((dot_S64x4096_S4096x16_S64x16_1_0_0_1_n_n).rhsIdx j k (1 : Fin 2)).val = (j (1 : Fin 2)).val := rfl

/-- x · Aᵀ at (p, r) is the sum over the 4096 input rows. -/
theorem dotA_apply (L : S64x4096.Idx → EReal) (R : S4096x16.Idx → EReal) (p : Fin 64) (q : Fin 16) :
    (Host.dotGeneral (F := Ideal) (φ₁ := .f32) (φ₂ := .f32) dot_S64x4096_S4096x16_S64x16_1_0_0_1_n_n none L R : S64x16.Idx → EReal) (ix2 p q)
      = ∑ i : Fin 4096, L (ix2 p i) * R (ix2 i q) := by
  show FloatOps.dotGeneral (F := Ideal) (φ₁ := .f32) (φ₂ := .f32) dot_S64x4096_S4096x16_S64x16_1_0_0_1_n_n none .single L R (ix2 p q) = _
  rw [Ideal.dotGeneral_apply, ← Equiv.sum_comp (contrEquiv1 dot_S64x4096_S4096x16_S64x16_1_0_0_1_n_n 4096 rfl rfl).symm]
  refine Finset.sum_congr rfl fun i _ => ?_
  have hk := contrEquiv1_symm_val dot_S64x4096_S4096x16_S64x16_1_0_0_1_n_n 4096 rfl rfl i
  congr 2
  · funext a; refine Fin.ext ?_
    match a with
    | ⟨0, _⟩ => exact lhsA_0 _ _
    | ⟨1, _⟩ => exact (lhsA_1 _ _).trans hk
  · funext a; refine Fin.ext ?_
    match a with
    | ⟨0, _⟩ => exact (rhsA_0 _ _).trans hk
    | ⟨1, _⟩ => exact rhsA_1 _ _

private theorem lhsB_0 (j : S64x11008.Idx) (k : (dot_S64x16_S16x11008_S64x11008_1_0_0_1_n_n).contr.Idx) :
    ((dot_S64x16_S16x11008_S64x11008_1_0_0_1_n_n).lhsIdx j k (0 : Fin 2)).val = (j (0 : Fin 2)).val := rfl

private theorem lhsB_1 (j : S64x11008.Idx) (k : (dot_S64x16_S16x11008_S64x11008_1_0_0_1_n_n).contr.Idx) :
    ((dot_S64x16_S16x11008_S64x11008_1_0_0_1_n_n).lhsIdx j k (1 : Fin 2)).val = (k ⟨0, by decide⟩).val :=
  DotDims.lhsIdx_val_of_single _ rfl j k

private theorem rhsB_0 (j : S64x11008.Idx) (k : (dot_S64x16_S16x11008_S64x11008_1_0_0_1_n_n).contr.Idx) :
    ((dot_S64x16_S16x11008_S64x11008_1_0_0_1_n_n).rhsIdx j k (0 : Fin 2)).val = (k ⟨0, by decide⟩).val :=
  DotDims.rhsIdx_val_of_single _ rfl j k

private theorem rhsB_1 (j : S64x11008.Idx) (k : (dot_S64x16_S16x11008_S64x11008_1_0_0_1_n_n).contr.Idx) :
    ((dot_S64x16_S16x11008_S64x11008_1_0_0_1_n_n).rhsIdx j k (1 : Fin 2)).val = (j (1 : Fin 2)).val := rfl

/-- (x · Aᵀ) · Bᵀ at (p, q) is the sum over the 16 ranks. -/
theorem dotB_apply (L : S64x16.Idx → EReal) (R : S16x11008.Idx → EReal) (p : Fin 64) (q : Fin 11008) :
    (Host.dotGeneral (F := Ideal) (φ₁ := .f32) (φ₂ := .f32) dot_S64x16_S16x11008_S64x11008_1_0_0_1_n_n none L R : S64x11008.Idx → EReal) (ix2 p q)
      = ∑ i : Fin 16, L (ix2 p i) * R (ix2 i q) := by
  show FloatOps.dotGeneral (F := Ideal) (φ₁ := .f32) (φ₂ := .f32) dot_S64x16_S16x11008_S64x11008_1_0_0_1_n_n none .single L R (ix2 p q) = _
  rw [Ideal.dotGeneral_apply, ← Equiv.sum_comp (contrEquiv1 dot_S64x16_S16x11008_S64x11008_1_0_0_1_n_n 16 rfl rfl).symm]
  refine Finset.sum_congr rfl fun i _ => ?_
  have hk := contrEquiv1_symm_val dot_S64x16_S16x11008_S64x11008_1_0_0_1_n_n 16 rfl rfl i
  congr 2
  · funext a; refine Fin.ext ?_
    match a with
    | ⟨0, _⟩ => exact lhsB_0 _ _
    | ⟨1, _⟩ => exact (lhsB_1 _ _).trans hk
  · funext a; refine Fin.ext ?_
    match a with
    | ⟨0, _⟩ => exact (rhsB_0 _ _).trans hk
    | ⟨1, _⟩ => exact rhsB_1 _ _

/-! ## The composed term at an index -/

/-- The dequantised weight at (i, q): the group's scale times the nibble less the group's zero point. -/
theorem wDeq_apply (QW : S512x11008.Idx → BitVec 32) (QZ : S32x1376.Idx → BitVec 32) (SC : S32x11008.Idx → EReal)
    (i : Fin 4096) (q : Fin 11008) :
    (wDeq (F := Ideal) QW QZ SC : S4096x11008.Idx → EReal) (ix2 i q)
      = SC (ix2 (Cert.Spec.grp i) q)
        * (Cert.Spec.nib (QW (ix2 (Cert.Spec.div8 i) q)) (Cert.Spec.mod8 i)
          - Cert.Spec.zp (QZ (ix2 (Cert.Spec.grp i) (Cert.Spec.cdiv8 q))) (Cert.Spec.cmod8 q)) := by
  unfold wDeq
  rw [mulf_apply, subf_apply, gather_gidx_apply, gather_gidx_apply, wq_apply, zeros_apply]

/-- The rank-16 correction at (p, q). -/
theorem lora_apply (X : S64x4096.Idx → EReal) (A : S16x4096.Idx → EReal) (B : S11008x16.Idx → EReal)
    (p : Fin 64) (q : Fin 11008) :
    (lora (F := Ideal) X A B : S64x11008.Idx → EReal) (ix2 p q)
      = (∑ r : Fin 16, (∑ i : Fin 4096, X (ix2 p i) * A (ix2 r i)) * B (ix2 q r)) * Cert.Spec.two := by
  unfold lora
  rw [mulf_apply, dotB_apply]
  refine congrArg₂ (· * ·) (Finset.sum_congr rfl fun r _ => ?_) rfl
  rw [dotA_apply, transpose_ix2_apply]
  refine congrArg (· * _) (Finset.sum_congr rfl fun i _ => ?_)
  rw [transpose_ix2_apply]

/-- THE REFERENCE'S TERM IS THE SPECIFICATION. -/
theorem refTerm_eq_refOut (X : S64x4096.Idx → EReal) (QW : S512x11008.Idx → BitVec 32) (QZ : S32x1376.Idx → BitVec 32)
    (SC : S32x11008.Idx → EReal) (A : S16x4096.Idx → EReal) (B : S11008x16.Idx → EReal) :
    (refTerm (F := Ideal) X QW QZ SC A B : S64x11008.Idx → EReal) = Cert.Spec.refOut X QW QZ SC A B := by
  funext j
  obtain ⟨p, q, rfl⟩ : ∃ (p : Fin 64) (q : Fin 11008), j = ix2 p q := ⟨j 0, j 1, eq_ix2 j⟩
  unfold refTerm
  rw [addf_apply, dotW_apply, lora_apply]
  show _ = Cert.Spec.refEntry (Cert.Spec.rowOf X p) (Cert.Spec.colOf QW q) (Cert.Spec.colOf SC q)
    (Cert.Spec.zcolOf QZ q) (fun r => Cert.Spec.rowOf A r) (Cert.Spec.rowOf B q)
  unfold Cert.Spec.refEntry
  refine congrArg₂ (· + ·) (Finset.sum_congr rfl fun i _ => ?_) rfl
  rw [wDeq_apply]
  rfl

end Cert.ReferenceIdeal.Hand

end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.SpecLaw.lean ====
/-
  The multiplied-out form and the dequantise-then-multiply form of one entry agree when x, the scales and the zero
  points are finite: x · (s · (w − z)) = x · (w · s) − x · (s · z) entry by entry over the reals, the sum over the 4096
  input rows is the sum over four stretches of 1024, and Σᵢ xᵢ · (s_g(i) · z_g(i)) collects, group by group, into
  Σ_g (Σ_{i in g} xᵢ) · (s_g · z_g). The rank-16 term is the same on both sides.
-/
import proofs.«407871_j82128364634479_3_alg».proof.Proof.Spec
import proofs.«407871_j82128364634479_3_alg».proof.Proof.LibBlockSum
import Mathlib.Data.EReal.Operations
import Mathlib.Algebra.BigOperators.Group.Finset.Basic
import Mathlib.Algebra.BigOperators.Ring.Finset
import Mathlib.Algebra.BigOperators.Fin
import Mathlib.Tactic.Ring

noncomputable section

open scoped BigOperators

namespace Cert.Spec

open Cert.LibBlockSum

/-! ## Finite sums of reals inside the extended reals -/

/-- The coercion of a finite sum of reals is the sum of the coercions. -/
private theorem coe_sum {ι : Type*} (t : Finset ι) (f : ι → ℝ) :
    ((∑ i ∈ t, f i : ℝ) : EReal) = ∑ i ∈ t, (f i : EReal) := by
  classical
  refine Finset.induction_on t ?_ ?_
  · rw [Finset.sum_empty, Finset.sum_empty, EReal.coe_zero]
  · intro a u ha ih
    rw [Finset.sum_insert ha, Finset.sum_insert ha, EReal.coe_add, ih]

/-! ## Index arithmetic -/

/-- Row `k` of group `g` lies in group `g`. -/
private theorem grp_grpIdx (g : Fin 32) (k : Fin 128) : grp (grpIdx g k) = g := by
  apply Fin.ext
  show (128 * g.val + k.val) / 128 = g.val
  have := k.isLt
  omega

/-! ## The identity over the reals -/

/-- Over the reals: the four stretches' sums of x · (w · s), less the group sums of x times s · z, make up
    Σᵢ xᵢ · (s_g(i) · (wᵢ − z_g(i))). -/
private theorem real_entry (x w : Fin 4096 → ℝ) (s z : Fin 32 → ℝ) :
    ((((0 + ∑ r : Fin 1024, x (chunkIdx 0 r) * (w (chunkIdx 0 r) * s (grp (chunkIdx 0 r))))
          + ∑ r : Fin 1024, x (chunkIdx 1 r) * (w (chunkIdx 1 r) * s (grp (chunkIdx 1 r))))
        + ∑ r : Fin 1024, x (chunkIdx 2 r) * (w (chunkIdx 2 r) * s (grp (chunkIdx 2 r))))
      + ∑ r : Fin 1024, x (chunkIdx 3 r) * (w (chunkIdx 3 r) * s (grp (chunkIdx 3 r))))
      - ∑ g : Fin 32, (∑ k : Fin 128, x (grpIdx g k)) * (s g * z g)
    = ∑ i : Fin 4096, x i * (s (grp i) * (w i - z (grp i))) := by
  -- the 4096 rows as four stretches of 1024
  have h1 : ∑ i : Fin 4096, x i * (w i * s (grp i))
      = ∑ c : Fin 4, ∑ r : Fin 1024, x (chunkIdx c r) * (w (chunkIdx c r) * s (grp (chunkIdx c r))) := by
    rw [sum_blocks (B := 4) (R := 1024) (N := 4096) (by norm_num)]
    rfl
  -- the 4096 rows as 32 groups of 128; inside a group s and z are constant
  have h2 : ∑ i : Fin 4096, x i * (s (grp i) * z (grp i))
      = ∑ g : Fin 32, (∑ k : Fin 128, x (grpIdx g k)) * (s g * z g) := by
    rw [sum_blocks (B := 32) (R := 128) (N := 4096) (by norm_num)]
    refine Finset.sum_congr rfl fun g _ => ?_
    rw [Finset.sum_mul]
    refine Finset.sum_congr rfl fun k _ => ?_
    show x (grpIdx g k) * (s (grp (grpIdx g k)) * z (grp (grpIdx g k))) = _
    rw [grp_grpIdx]
  have h4 := Fin.sum_univ_four
    (fun c : Fin 4 => ∑ r : Fin 1024, x (chunkIdx c r) * (w (chunkIdx c r) * s (grp (chunkIdx c r))))
  rw [zero_add, ← h4, ← h1, ← h2, ← Finset.sum_sub_distrib]
  refine Finset.sum_congr rfl fun i _ => ?_
  ring

/-! ## One entry -/

/-- The nibble that multiplies input row `i`, as a real number. -/
private def nibR (qcol : Fin 512 → BitVec 32) (i : Fin 4096) : ℝ :=
  ((nibW (qcol (div8 i)) (mod8 i)).toInt : ℝ)

/-- ONE ENTRY. -/
theorem entry_eq (xr : Fin 4096 → EReal) (qcol : Fin 512 → BitVec 32) (scol zcol : Fin 32 → EReal)
    (ar : Fin 16 → Fin 4096 → EReal) (bcol : Fin 16 → EReal)
    (hx : ∀ i, ∃ r : ℝ, xr i = (r : EReal)) (hs : ∀ g, ∃ r : ℝ, scol g = (r : EReal)) (hz : ∀ g, ∃ r : ℝ, zcol g = (r : EReal)) :
    kerEntryFull xr qcol scol zcol ar bcol = refEntry xr qcol scol zcol ar bcol := by
  choose x hx using hx
  choose s hs using hs
  choose z hz using hz
  obtain rfl : xr = fun i => (x i : EReal) := funext hx
  obtain rfl : scol = fun g => (s g : EReal) := funext hs
  obtain rfl : zcol = fun g => (z g : EReal) := funext hz
  unfold kerEntryFull kerEntry refEntry
  -- the rank-16 term is the same expression on both sides
  refine congrArg
    (fun t : EReal => t + (∑ r : Fin 16, (∑ i : Fin 4096, (x i : EReal) * ar r i) * bcol r) * two) ?_
  -- each stretch's sum is the coercion of a real sum
  have hC : ∀ c : Fin 4, chunkSum (fun i => (x i : EReal)) qcol (fun g => (s g : EReal)) c
      = ((∑ r : Fin 1024, x (chunkIdx c r) * (nibR qcol (chunkIdx c r) * s (grp (chunkIdx c r))) : ℝ) : EReal) := by
    intro c
    rw [coe_sum]
    refine Finset.sum_congr rfl fun r _ => ?_
    rw [EReal.coe_mul, EReal.coe_mul]
    rfl
  -- so is the sum over the groups
  have hG : ∑ g : Fin 32, xgOf (fun i => (x i : EReal)) g * ((s g : EReal) * (z g : EReal))
      = ((∑ g : Fin 32, (∑ k : Fin 128, x (grpIdx g k)) * (s g * z g) : ℝ) : EReal) := by
    rw [coe_sum]
    refine Finset.sum_congr rfl fun g _ => ?_
    rw [EReal.coe_mul, EReal.coe_mul, coe_sum]
    rfl
  -- and the sum under which s · (w − z) stays whole
  have hR : ∑ i : Fin 4096, (x i : EReal) * ((s (grp i) : EReal) * (nib (qcol (div8 i)) (mod8 i) - (z (grp i) : EReal)))
      = ((∑ i : Fin 4096, x i * (s (grp i) * (nibR qcol i - z (grp i))) : ℝ) : EReal) := by
    rw [coe_sum]
    refine Finset.sum_congr rfl fun i _ => ?_
    rw [EReal.coe_mul, EReal.coe_mul, EReal.coe_sub]
    rfl
  refine Eq.trans ?_ (Eq.trans (congrArg _ (real_entry x (nibR qcol) s z)) hR.symm)
  rw [EReal.coe_sub, EReal.coe_add, EReal.coe_add, EReal.coe_add, EReal.coe_add, EReal.coe_zero,
    ← hC, ← hC, ← hC, ← hC, ← hG]

/-- THE WHOLE ARRAYS. -/
theorem kerOut_eq_refOut (X : (Sh 64 4096).Idx → EReal) (QW : (Sh 512 11008).Idx → BitVec 32) (QZ : (Sh 32 1376).Idx → BitVec 32)
    (SC : (Sh 32 11008).Idx → EReal) (A : (Sh 16 4096).Idx → EReal) (B : (Sh 11008 16).Idx → EReal)
    (hX : ∀ j, ∃ r : ℝ, X j = (r : EReal)) (hS : ∀ j, ∃ r : ℝ, SC j = (r : EReal)) :
    kerOut X QW QZ SC A B = refOut X QW QZ SC A B := by
  funext j
  unfold kerOut refOut
  exact entry_eq _ _ _ _ _ _ (fun i => hX _) (fun g => hS _) (fun g => ⟨_, rfl⟩)

end Cert.Spec

end
-- ==== Proof.Finite.lean ====
/-
  From the precondition — every float input finite — to: every entry of x and of the scales is a real number.
-/
import proofs.«407871_j82128364634479_3_alg».proof.Defs
import proofs.«407871_j82128364634479_3_alg».proof.Proof.Gen.KernelIdeal
import proofs.«407871_j82128364634479_3_alg».proof.Proof.Gen.Pre_finite_inputs
import Idealize.ShloMosaic.Lib.ValueIdx
import Idealize.ShloMosaic.Lib.ReduceAll

noncomputable section

namespace Cert.KernelIdeal.Hand

open Cert.KernelIdeal Cert.KernelIdeal.Gen
open Idealize.ShloMosaic Idealize.ShloMosaic.TcCoe Idealize.SL.Sem

/-- An extended real whose absolute value `max x (-x)` lies below `⊤` is a coerced real:
    at `⊥` and at `⊤` the absolute value is `⊤`. -/
private theorem real_of_abs_lt_top (x : EReal) (hx : max x (-x) < ⊤) : ∃ r : ℝ, x = (r : EReal) := by
  induction x using EReal.rec with
  | bot => simp at hx
  | coe r => exact ⟨r, rfl⟩
  | top => simp at hx

/-- The rank-0 shape has one index. -/
private instance : Subsingleton Cert.Pre_finite_inputs.S_.Idx := ⟨fun a b => funext fun d => d.elim0⟩

/-- The f32 pattern `0x7F800000` (exponent all ones, significand zero, sign clear) denotes `+∞`. -/
private theorem ofBits_inf : Ideal.ofBits .f32 0x7F800000#32 = (⊤ : EReal) := by
  simp [Ideal.ofBits, Ideal.ieee]

/-- From `jnp.all(|a| < +inf) = 1` to: every entry of `a` is a real number. The reduction by `and`
    over all axes being 1 gives the comparison 1 at every index; there it says `|a j| < ⊤`. -/
private theorem real_of_all_lt_inf {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi (cmpf .olt (Host.absf a)
          (broadcastInDim s ![] hb (constant Cert.Pre_finite_inputs.S_ .f32 0x7F800000#32)))
          (constantI Cert.Pre_finite_inputs.S_ 1 1#1) hr hu ValueIdx.ix0 = 1#1)
    (j : s.Idx) : ∃ r : ℝ, a j = (r : EReal) := by
  have hj := Host.reduce_andi_all _ _ hr hu _ e j
  apply real_of_abs_lt_top
  have hj' : BitVec.ofBool (decide (max (a j) (-a j) < Ideal.ofBits .f32 0x7F800000#32)) = 1#1 := hj
  rw [ofBits_inf] at hj'
  by_contra hn
  rw [decide_eq_false hn] at hj'
  exact absurd hj' (by decide)

variable (m : (ℓ : Loc nD τ sig) → Buf (Elt Ideal) ℓ)

/-- Every entry of x is a real number. -/
theorem finite_x (h : Cert.Pre_KernelIdeal m) (c : Dev nD) (j : S64x4096.Idx) :
    ∃ r : ℝ, (m ((c.tc : Thread nD τ).loc main_arg0) : S64x4096.Idx → EReal) j = (r : EReal) := by
  have h0 := congrFun (h c) ValueIdx.ix0
  dsimp only [Cert.Pre_finite_inputs.fn, Cert.Pre_finite_inputs.fn_part1] at h0
  simp only [andi, IntOp.andi_eq_one] at h0
  obtain ⟨⟨⟨h1, h2⟩, h3⟩, h4⟩ := h0
  exact real_of_all_lt_inf _ _ _ _ h1 j

/-- Every scale is a real number. -/
theorem finite_sc (h : Cert.Pre_KernelIdeal m) (c : Dev nD) (j : S32x11008.Idx) :
    ∃ r : ℝ, (m ((c.tc : Thread nD τ).loc main_arg3) : S32x11008.Idx → EReal) j = (r : EReal) := by
  have h0 := congrFun (h c) ValueIdx.ix0
  dsimp only [Cert.Pre_finite_inputs.fn, Cert.Pre_finite_inputs.fn_part1] at h0
  simp only [andi, IntOp.andi_eq_one] at h0
  obtain ⟨⟨⟨h1, h2⟩, h3⟩, h4⟩ := h0
  exact real_of_all_lt_inf _ _ _ _ h2 j

end Cert.KernelIdeal.Hand

end
-- ==== Proof.lean ====
/-
  The certificate: the quantised matrix product with a low-rank correction, computed tile by tile with the zero points
  multiplied out, against the plain dequantise-then-multiply form.

  Both programs unpack the same nibbles; the tiled program sums x · (w · s) over four stretches of rows and takes off
  the group sums of x times s · z, the plain one sums x · (s · (w − z)): over finite x and s these are one number,
  entry by entry. The correction (x · Aᵀ) · Bᵀ · 2 is the same expression in both. The three programs run to the end,
  fault nowhere and leave their arguments as they were; the idealized program is the word-level program's own text
  read over the extended reals (no rewrite was applied).
-/
import proofs.«407871_j82128364634479_3_alg».proof.Defs
import proofs.«407871_j82128364634479_3_alg».proof.Proof.Gen.Kernel
import proofs.«407871_j82128364634479_3_alg».proof.Proof.Gen.KernelIdeal
import proofs.«407871_j82128364634479_3_alg».proof.Proof.Gen.ReferenceIdeal
import proofs.«407871_j82128364634479_3_alg».proof.Proof.Gen.Pre_finite_inputs
import proofs.«407871_j82128364634479_3_alg».proof.Proof.FrameBits
import proofs.«407871_j82128364634479_3_alg».proof.Proof.KernelRun
import proofs.«407871_j82128364634479_3_alg».proof.Proof.RefRun
import proofs.«407871_j82128364634479_3_alg».proof.Proof.RefValue
import proofs.«407871_j82128364634479_3_alg».proof.Proof.SpecLaw
import proofs.«407871_j82128364634479_3_alg».proof.Proof.Finite
import Idealize.ShloMosaic.Adequacy
import Idealize.ShloMosaic.Init

noncomputable section

namespace Cert.Proof

open Idealize.ShloMosaic Idealize.SL.Sem

/-- The word-level program's frame. -/
theorem frame_k : Cert.frame_Kernel := fun m ρ _ => Cert.Kernel.Hand.frame (F := Bits) m ρ

/-- The idealized program's frame. -/
theorem frame_ki : Cert.frame_KernelIdeal := fun m ρ _ => Cert.KernelIdeal.Hand.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- No rewrite was applied: nothing to preserve. -/
theorem preserves : Cert.preserves_Kernel_KernelIdeal := trivial

/-- Both idealized programs end with the multiplied-out result: the tiled one by its run, the plain one because its
    dequantise-then-multiply result is that number when x and the scales are finite. -/
theorem algebraic : Cert.algebraic_KernelIdeal_ReferenceIdeal := by
  intro m ρ m' ρ' hpre hagree
  refine ⟨fun c => Cert.KernelIdeal.Hand.gOut m c, Cert.KernelIdeal.Hand.run_value m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2]
  refine (Cert.ReferenceIdeal.Hand.refTerm_eq_refOut _ _ _ _ _ _).trans ?_
  exact (Cert.Spec.kerOut_eq_refOut _ _ _ _ _ _ (Cert.KernelIdeal.Hand.finite_x m hpre c)
    (Cert.KernelIdeal.Hand.finite_sc m hpre c)).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
